-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S8192x128 .f32 .bf16
  ∧ IdealRules.truncf_extf.Statement Cert.KernelIdeal.S8192x128 .f32 .bf16
  ∧ IdealRules.truncf_extf.Statement Cert.KernelIdeal.S65536x16 .f32 .bf16
  ∧ IdealRules.truncf_extf.Statement Cert.KernelIdeal.S65536x16 .f32 .bf16
  ∧ IdealRules.truncf_extf.Statement Cert.KernelIdeal.S8192x128 .f32 .bf16
  ∧ IdealRules.truncf_extf.Statement Cert.KernelIdeal.S8192x128 .f32 .bf16
  ∧ IdealRules.truncf_extf.Statement Cert.KernelIdeal.S16384x64 .f32 .bf16
  ∧ IdealRules.truncf_extf.Statement Cert.KernelIdeal.S16384x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v389) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x2x2048 : Shape := ⟨4, ![2, 512, 2, 2048]⟩
abbrev S2048 : Shape := ⟨1, ![2048]⟩
abbrev S8192 : Shape := ⟨1, ![8192]⟩
abbrev S_ : Shape := ⟨0, ![]⟩

class Facts : Prop where
  bcast_S_S2x512x2x2048 : S_.BroadcastsInDim S2x512x2x2048 (![] : Fin 0 → Fin S2x512x2x2048.rank)
  reducesTo_S2x512x2x2048_S_d0_1_2_3 : S2x512x2x2048.ReducesTo [0, 1, 2, 3] S_
  h_S_ : 0 < S_.numel
  bcast_S_S2048 : S_.BroadcastsInDim S2048 (![] : Fin 0 → Fin S2048.rank)
  reducesTo_S2048_S_d0 : S2048.ReducesTo [0] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : IVec S8192 32) (main_arg5 : FVec F S8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192 .f32 := Host.absf main_arg5
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_c_8 : IVec S_ 32 := constantI S_ 32 0#32
  let main_v24 : IVec S8192 32 := broadcastInDim S8192 ![] bcast_S_S8192 main_c_8
  let main_v25 : IVec S8192 1 := cmpi .sge main_arg4 main_v24
  let main_c_9 : IVec S_ 32 := constantI S_ 32 8192#32
  let main_v26 : IVec S8192 32 := broadcastInDim S8192 ![] bcast_S_S8192 main_c_9
  let main_v27 : IVec S8192 1 := cmpi .slt main_arg4 main_v26
  let main_v28 : IVec S8192 1 := andi main_v25 main_v27
  let main_c_10 : IVec S_ 1 := constantI S_ 1 1#1
  let main_v29 : IVec S_ 1 := (fun x v => Host.reduce IntOp.andi x v reducesTo_S8192_S_d0 h_S_) main_v28 main_c_10
  let main_v30 : IVec S_ 1 := andi main_v23 main_v29
  main_v30

def fn {F : FTy → Type} [FloatOps F] (main_arg0 : FVec F S2x512x2x2048 .f32) (main_arg1 : FVec F S2048 .f32) (main_arg2 : FVec F S8192 .f32) (main_arg3 : FVec F S8192 .f32) (main_arg4 : IVec S8192 32) (main_arg5 : FVec F S8192 .f32) : IVec S_ 1 :=
  let main_v0 : FVec F S2x512x2x2048 .f32 := Host.absf main_arg0
  let main_cst : FVec F S_ .f32 := constant S_ .f32 0x7F800000#32
  let main_v1 : FVec F S2x512x2x2048 .f32 := broadcastInDim S2x512x2x2048 ![] bcast_S_S2x512x2x2048 main_cst
  let main_v2 : IVec S2x512x2x2048 1 := cmpf .olt main_v0 main_v1
  let main_c : IVec S_ 1 := constantI S_ 1 1#1
  let main_v3 : IVec S_ 1 := (fun x v => Host.reduce IntOp.andi x v reducesTo_S2x512x2x2048_S_d0_1_2_3 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_arg5 main_v13 main_v16
-- ==== Kernel.lean ====
abbrev S2x512x2x2048 : Shape := ⟨4, ![2, 512, 2, 2048]⟩
abbrev S2048 : Shape := ⟨1, ![2048]⟩
abbrev S8192 : Shape := ⟨1, ![8192]⟩
abbrev S2048x2048 : Shape := ⟨2, ![2048, 2048]⟩
abbrev S512x2048 : Shape := ⟨2, ![512, 2048]⟩
abbrev S1x2048 : Shape := ⟨2, ![1, 2048]⟩
abbrev S8192x128 : Shape := ⟨2, ![8192, 128]⟩
abbrev S128x128 : Shape := ⟨2, ![128, 128]⟩
abbrev S512x16x128 : Shape := ⟨3, ![512, 16, 128]⟩
abbrev S512x128x16 : Shape := ⟨3, ![512, 128, 16]⟩
abbrev S65536x16 : Shape := ⟨2, ![65536, 16]⟩
abbrev S16x16 : Shape := ⟨2, ![16, 16]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S2048x8192 : Shape := ⟨2, ![2048, 8192]⟩
abbrev S1x8192 : Shape := ⟨2, ![1, 8192]⟩
abbrev S128x8192 : Shape := ⟨2, ![128, 8192]⟩
abbrev S128x64x128 : Shape := ⟨3, ![128, 64, 128]⟩
abbrev S128x128x64 : Shape := ⟨3, ![128, 128, 64]⟩
abbrev S16384x64 : Shape := ⟨2, ![16384, 64]⟩
abbrev S64x64 : Shape := ⟨2, ![64, 64]⟩

abbrev nBuf : Space → Nat
  | .hbm => 57
  | .vmem => 11
  | .smem => 0
  | _ => 0

abbrev bufTy : (tb : Table) → Fin (tcTables nBuf tb) → BufTy
  | .hbm, ⟨0, _⟩ => ⟨S2x512x2x2048, .f32⟩
  | .hbm, ⟨1, _⟩ => ⟨S2048, .f32⟩
  | .hbm, ⟨2, _⟩ => ⟨S8192, .f32⟩
  | .hbm, ⟨3, _⟩ => ⟨S8192, .f32⟩
  | .hbm, ⟨4, _⟩ => ⟨S8192, .i32⟩
  | .hbm, ⟨5, _⟩ => ⟨S8192, .f32⟩
  | .hbm, ⟨6, _⟩ => ⟨S2048x2048, .f32⟩
  | .hbm, ⟨7, _⟩ => ⟨S2048x2048, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S_, .i1⟩
  | .hbm, ⟨24, _⟩ => ⟨S8192, .i1⟩
  | .hbm, ⟨25, _⟩ => ⟨S8192, .i1⟩
  | .hbm, ⟨26, _⟩ => ⟨S8192, .i1⟩
  | .hbm, ⟨27, _⟩ => ⟨S8192, .i32⟩
  | .hbm, ⟨28, _⟩ => ⟨S8192, .i32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S8192x1, .i32⟩
  | .hbm, ⟨38, _⟩ => ⟨S1, .i32⟩
  | .hbm, ⟨39, _⟩ => ⟨S_, .i32⟩
  | .hbm, ⟨40, _⟩ => ⟨S8192x1, .i32⟩
  | .hbm, ⟨41, _⟩ => ⟨S8192x1, .i1⟩
  | .hbm, ⟨42, _⟩ => ⟨S1x1, .i32⟩
  | .hbm, ⟨43, _⟩ => ⟨S8192x1, .i32⟩
  | .hbm, ⟨44, _⟩ => ⟨S8192x1, .i1⟩
  | .hbm, ⟨45, _⟩ => ⟨S8192x1, .i1⟩
  | .hbm, ⟨46, _⟩ => ⟨S_, .i1⟩
  | .hbm, ⟨47, _⟩ => ⟨S8192, .i1⟩
  | .hbm, ⟨48, _⟩ => ⟨S2048x8192, .f32⟩
  | .hbm, ⟨49, _⟩ => ⟨S2048x8192, .i1⟩
  | .hbm, ⟨50, _⟩ => ⟨S_, .f32⟩
  | .hbm, ⟨51, _⟩ => ⟨S2048x8192, .f32⟩
  | .hbm, ⟨52, _⟩ => ⟨S2048x8192, .f32⟩
  | .hbm, ⟨53, _⟩ => ⟨S1x8192, .f32⟩
  | .hbm, ⟨54, _⟩ => ⟨S2048x8192, .f32⟩
  | .hbm, ⟨55, _⟩ => ⟨S2048x8192, .f32⟩
  | .hbm, ⟨56, _⟩ => ⟨S2048x8192, .f32⟩
  | .local _ .vmem, ⟨0, _⟩ => ⟨S512x2048, .f32⟩
  | .local _ .vmem, ⟨1, _⟩ => ⟨S512x2048, .f32⟩
  | .local _ .vmem, ⟨2, _⟩ => ⟨S2048, .f32⟩
  | .local _ .vmem, ⟨3, _⟩ => ⟨S512x2048, .f32⟩
  | .local _ .vmem, ⟨4, _⟩ => ⟨S512x2048, .f32⟩
  | .local _ .vmem, ⟨5, _⟩ => ⟨S128x8192, .f32⟩
  | .local _ .vmem, ⟨6, _⟩ => ⟨S128x8192, .f32⟩
  | .local _ .vmem, ⟨7, _⟩ => ⟨S8192, .f32⟩
  | .local _ .vmem, ⟨8, _⟩ => ⟨S8192, .f32⟩
  | .local _ .vmem, ⟨9, _⟩ => ⟨S128x8192, .f32⟩
  | .local _ .vmem, ⟨10, _⟩ => ⟨S128x8192, .f32⟩
  | _, _ => ⟨S2x512x2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v2 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S2x512x2x2048_S2048x2048 : S2x512x2x2048.ShapeCasts S2048x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  shapeCasts_S512x2048_S8192x128 : S512x2048.ShapeCasts S8192x128
  iota_S128x128_d0_w32 : S128x128.Iotas .tc 32 [0]
  iota_S128x128_d1_w32 : S128x128.Iotas .tc 32 [1]
  bitsLt_bf16_f32 : FTy.bits .bf16 < FTy.bits .f32
  shapeCasts_S8192x128_S512x16x128 : S8192x128.ShapeCasts S512x16x128
  transposes_S512x16x128_p0_2_1_S512x128x16 : S512x16x128.Transposes [0, 2, 1] S512x128x16
  shapeCasts_S512x128x16_S65536x16 : S512x128x16.ShapeCasts S65536x16
  iota_S16x16_d0_w32 : S16x16.Iotas .tc 32 [0]
  iota_S16x16_d1_w32 : S16x16.Iotas .tc 32 [1]
  shapeCasts_S65536x16_S512x128x16 : S65536x16.ShapeCasts S512x128x16
  transposes_S512x128x16_p0_2_1_S512x16x128 : S512x128x16.Transposes [0, 2, 1] S512x16x128
  shapeCasts_S512x16x128_S512x2048 : S512x16x128.ShapeCasts S512x2048
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S2048x8192_1 : S8192.BroadcastsInDim S2048x8192 (![1] : Fin 1 → Fin S2048x8192.rank)
  bcast_S_S2048x8192 : S_.BroadcastsInDim S2048x8192 (![] : Fin 0 → Fin S2048x8192.rank)
  bcast_S8192_S1x8192_1 : S8192.BroadcastsInDim S1x8192 (![1] : Fin 1 → Fin S1x8192.rank)
  bcast_S1x8192_S2048x8192_0_1 : S1x8192.BroadcastsInDim S2048x8192 (![0, 1] : Fin 2 → Fin S2048x8192.rank)
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  shapeCasts_S128x8192_S8192x128 : S128x8192.ShapeCasts S8192x128
  shapeCasts_S8192x128_S128x64x128 : S8192x128.ShapeCasts S128x64x128
  transposes_S128x64x128_p0_2_1_S128x128x64 : S128x64x128.Transposes [0, 2, 1] S128x128x64
  shapeCasts_S128x128x64_S16384x64 : S128x128x64.ShapeCasts S16384x64
  iota_S64x64_d0_w32 : S64x64.Iotas .tc 32 [0]
  iota_S64x64_d1_w32 : S64x64.Iotas .tc 32 [1]
  shapeCasts_S16384x64_S128x128x64 : S16384x64.ShapeCasts S128x128x64
  transposes_S128x128x64_p0_2_1_S128x64x128 : S128x128x64.Transposes [0, 2, 1] S128x64x128
  shapeCasts_S128x64x128_S128x8192 : S128x64x128.ShapeCasts S128x8192
  inb_S8192_S8192_0 : ∀ a, (![0] : Fin 1 → Nat) a + S8192.size a ≤ S8192.size a
  h_S8192 : 0 < S8192.numel
  shapeCasts_S8192_S1x8192 : S8192.ShapeCasts S1x8192
  broadcasts_S1x8192_S128x8192 : S1x8192.Broadcasts S128x8192
  dot_S8192x128_S128x128_S8192x128_1_0_0_1_n_n_wf : DotDims.WF S8192x128 S128x128 S8192x128 [1] [0] [0] [1] [] []
  dot_S65536x16_S16x16_S65536x16_1_0_0_1_n_n_wf : DotDims.WF S65536x16 S16x16 S65536x16 [1] [0] [0] [1] [] []
  gather_S2048x2048_S8192x1_S2048x8192_0_1_n_n_1_1_20481_wf : GatherDims.WF S2048x2048 S8192x1 S2048x8192 [0] [1] [] [1] [] 1 ![2048, 1]
  dot_S16384x64_S64x64_S16384x64_1_0_0_1_n_n_wf : DotDims.WF S16384x64 S64x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S2048.size a
  hwx0_1 : ∀ i : grid0.Coords, EltTy.bits .f32 = 32 ∨ (Rect.block (s := S2048) S2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .f32 = 32 ∨ (Rect.block (s := S2048x2048) S512x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8192.size a ≤ S2048x8192.size a
  hwx1_0 : ∀ i : grid1.Coords, EltTy.bits .f32 = 32 ∨ (Rect.block (s := S2048x8192) S128x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192.size a ≤ S8192.size a
  hwx1_1 : ∀ i : grid1.Coords, EltTy.bits .f32 = 32 ∨ (Rect.block (s := S8192) S8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192.size a ≤ S8192.size a
  hwx1_2 : ∀ i : grid1.Coords, EltTy.bits .f32 = 32 ∨ (Rect.block (s := S8192) S8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x8192.size a ≤ S2048x8192.size a
  hwx1_3 : ∀ i : grid1.Coords, EltTy.bits .f32 = 32 ∨ (Rect.block (s := S2048x8192) S128x8192.size (cc1_transform_3 i) (hinb1_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S65536x16_S16x16_S65536x16_1_0_0_1_n_n : DotDims S65536x16 S16x16 S65536x16 where
  lhsContracting := [1]
  rhsContracting := [0]
  lhsNonContracting := [0]
  rhsNonContracting := [1]
  lhsBatch := []
  rhsBatch := []
  wf := dot_S65536x16_S16x16_S65536x16_1_0_0_1_n_n_wf
def gather_S2048x2048_S8192x1_S2048x8192_0_1_n_n_1_1_20481 : GatherDims S2048x2048 S8192x1 S2048x8192 where
  offsetDims := [0]
  collapsedSliceDims := [1]
  operandBatchingDims := []
  startIndicesBatchingDims := []
  startIndexMap := [1]
  indexVectorDim := 1
  sliceSizes := ![2048, 1]
  wf := gather_S2048x2048_S8192x1_S2048x8192_0_1_n_n_1_1_20481_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S128x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S128x8192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x512x2x2048 : Shape := ⟨4, ![2, 512, 2, 2048]⟩
abbrev S2048 : Shape := ⟨1, ![2048]⟩
abbrev S8192 : Shape := ⟨1, ![8192]⟩
abbrev S2048x2048 : Shape := ⟨2, ![2048, 2048]⟩
abbrev S1x2048 : Shape := ⟨2, ![1, 2048]⟩
abbrev S2048x1024x2x1 : Shape := ⟨4, ![2048, 1024, 2, 1]⟩
abbrev S2048x1024x1x1 : Shape := ⟨4, ![2048, 1024, 1, 1]⟩
abbrev S2048x1024x1 : Shape := ⟨3, ![2048, 1024, 1]⟩
abbrev S2048x512x2x2 : Shape := ⟨4, ![2048, 512, 2, 2]⟩
abbrev S2048x512x1x2 : Shape := ⟨4, ![2048, 512, 1, 2]⟩
abbrev S2048x512x2 : Shape := ⟨3, ![2048, 512, 2]⟩
abbrev S2048x256x2x4 : Shape := ⟨4, ![2048, 256, 2, 4]⟩
abbrev S2048x256x1x4 : Shape := ⟨4, ![2048, 256, 1, 4]⟩
abbrev S2048x256x4 : Shape := ⟨3, ![2048, 256, 4]⟩
abbrev S2048x128x2x8 : Shape := ⟨4, ![2048, 128, 2, 8]⟩
abbrev S2048x128x1x8 : Shape := ⟨4, ![2048, 128, 1, 8]⟩
abbrev S2048x128x8 : Shape := ⟨3, ![2048, 128, 8]⟩
abbrev S2048x64x2x16 : Shape := ⟨4, ![2048, 64, 2, 16]⟩
abbrev S2048x64x1x16 : Shape := ⟨4, ![2048, 64, 1, 16]⟩
abbrev S2048x64x16 : Shape := ⟨3, ![2048, 64, 16]⟩
abbrev S2048x32x2x32 : Shape := ⟨4, ![2048, 32, 2, 32]⟩
abbrev S2048x32x1x32 : Shape := ⟨4, ![2048, 32, 1, 32]⟩
abbrev S2048x32x32 : Shape := ⟨3, ![2048, 32, 32]⟩
abbrev S2048x16x2x64 : Shape := ⟨4, ![2048, 16, 2, 64]⟩
abbrev S2048x16x1x64 : Shape := ⟨4, ![2048, 16, 1, 64]⟩
abbrev S2048x16x64 : Shape := ⟨3, ![2048, 16, 64]⟩
abbrev S2048x8x2x128 : Shape := ⟨4, ![2048, 8, 2, 128]⟩
abbrev S2048x8x1x128 : Shape := ⟨4, ![2048, 8, 1, 128]⟩
abbrev S2048x8x128 : Shape := ⟨3, ![2048, 8, 128]⟩
abbrev S2048x4x2x256 : Shape := ⟨4, ![2048, 4, 2, 256]⟩
abbrev S2048x4x1x256 : Shape := ⟨4, ![2048, 4, 1, 256]⟩
abbrev S2048x4x256 : Shape := ⟨3, ![2048, 4, 256]⟩
abbrev S2048x2x2x512 : Shape := ⟨4, ![2048, 2, 2, 512]⟩
abbrev S2048x2x1x512 : Shape := ⟨4, ![2048, 2, 1, 512]⟩
abbrev S2048x2x512 : Shape := ⟨3, ![2048, 2, 512]⟩
abbrev S2048x1x2x1024 : Shape := ⟨4, ![2048, 1, 2, 1024]⟩
abbrev S2048x1x1x1024 : Shape := ⟨4, ![2048, 1, 1, 1024]⟩
abbrev S2048x1x1024 : Shape := ⟨3, ![2048, 1, 1024]⟩
abbrev S1x2048x1x2048 : Shape := ⟨4, ![1, 2048, 1, 2048]⟩
abbrev S1x2048x4x2048 : Shape := ⟨4, ![1, 2048, 4, 2048]⟩
abbrev S2048x8192 : Shape := ⟨2, ![2048, 8192]⟩
abbrev S_ : Shape := ⟨0, ![]⟩
abbrev S8192x1 : Shape := ⟨2, ![8192, 1]⟩
abbrev S1x8192 : Shape := ⟨2, ![1, 8192]⟩
abbrev S2048x4096x2x1 : Shape := ⟨4, ![2048, 4096, 2, 1]⟩
abbrev S2048x4096x1x1 : Shape := ⟨4, ![2048, 4096, 1, 1]⟩
abbrev S2048x4096x1 : Shape := ⟨3, ![2048, 4096, 1]⟩
abbrev S2048x2048x2x2 : Shape := ⟨4, ![2048, 2048, 2, 2]⟩
abbrev S2048x2048x1x2 : Shape := ⟨4, ![2048, 2048, 1, 2]⟩
abbrev S2048x2048x2 : Shape := ⟨3, ![2048, 2048, 2]⟩
abbrev S2048x1024x2x4 : Shape := ⟨4, ![2048, 1024, 2, 4]⟩
abbrev S2048x1024x1x4 : Shape := ⟨4, ![2048, 1024, 1, 4]⟩
abbrev S2048x1024x4 : Shape := ⟨3, ![2048, 1024, 4]⟩
abbrev S2048x512x2x8 : Shape := ⟨4, ![2048, 512, 2, 8]⟩
abbrev S2048x512x1x8 : Shape := ⟨4, ![2048, 512, 1, 8]⟩
abbrev S2048x512x8 : Shape := ⟨3, ![2048, 512, 8]⟩
abbrev S2048x256x2x16 : Shape := ⟨4, ![2048, 256, 2, 16]⟩
abbrev S2048x256x1x16 : Shape := ⟨4, ![2048, 256, 1, 16]⟩
abbrev S2048x256x16 : Shape := ⟨3, ![2048, 256, 16]⟩
abbrev S2048x128x2x32 : Shape := ⟨4, ![2048, 128, 2, 32]⟩
abbrev S2048x128x1x32 : Shape := ⟨4, ![2048, 128, 1, 32]⟩
abbrev S2048x128x32 : Shape := ⟨3, ![2048, 128, 32]⟩
abbrev S2048x64x2x64 : Shape := ⟨4, ![2048, 64, 2, 64]⟩
abbrev S2048x64x1x64 : Shape := ⟨4, ![2048, 64, 1, 64]⟩
abbrev S2048x64x64 : Shape := ⟨3, ![2048, 64, 64]⟩
abbrev S2048x32x2x128 : Shape := ⟨4, ![2048, 32, 2, 128]⟩
abbrev S2048x32x1x128 : Shape := ⟨4, ![2048, 32, 1, 128]⟩
abbrev S2048x32x128 : Shape := ⟨3, ![2048, 32, 128]⟩
abbrev S2048x16x2x256 : Shape := ⟨4, ![2048, 16, 2, 256]⟩
abbrev S2048x16x1x256 : Shape := ⟨4, ![2048, 16, 1, 256]⟩
abbrev S2048x16x256 : Shape := ⟨3, ![2048, 16, 256]⟩
abbrev S2048x8x2x512 : Shape := ⟨4, ![2048, 8, 2, 512]⟩
abbrev S2048x8x1x512 : Shape := ⟨4, ![2048, 8, 1, 512]⟩
abbrev S2048x8x512 : Shape := ⟨3, ![2048, 8, 512]⟩
abbrev S2048x4x2x1024 : Shape := ⟨4, ![2048, 4, 2, 1024]⟩
abbrev S2048x4x1x1024 : Shape := ⟨4, ![2048, 4, 1, 1024]⟩
abbrev S2048x4x1024 : Shape := ⟨3, ![2048, 4, 1024]⟩
abbrev S2048x2x2x2048 : Shape := ⟨4, ![2048, 2, 2, 2048]⟩
abbrev S2048x2x1x2048 : Shape := ⟨4, ![2048, 2, 1, 2048]⟩
abbrev S2048x2x2048 : Shape := ⟨3, ![2048, 2, 2048]⟩
abbrev S2048x1x2x4096 : Shape := ⟨4, ![2048, 1, 2, 4096]⟩
abbrev S2048x1x1x4096 : Shape := ⟨4, ![2048, 1, 1, 4096]⟩
abbrev S2048x1x4096 : Shape := ⟨3, ![2048, 1, 4096]⟩

abbrev nBuf : Space → Nat
  | .hbm => 401
  | .vmem => 0
  | .smem => 0
  | _ => 0

abbrev hbmTy0_0 (i : Nat) : BufTy := match i % 128 with
  | 0 => ⟨S2x512x2x2048, .f32⟩
  | 1 => ⟨S2048, .f32⟩
  | 2 => ⟨S8192, .f32⟩
  | 3 => ⟨S8192, .f32⟩
  | 4 => ⟨S8192, .i32⟩
  | 5 => ⟨S8192, .f32⟩
  | 6 => ⟨S2048x2048, .f32⟩
  | 7 => ⟨S1x2048, .f32⟩
  | 8 => ⟨S2048x2048, .f32⟩
  | 9 => ⟨S2048x2048, .f32⟩
  | 10 => ⟨S2048x1024x2x1, .f32⟩
  | 11 => ⟨S2048x1024x1x1, .f32⟩
  | 12 => ⟨S2048x1024x1, .f32⟩
  | 13 => ⟨S2048x1024x1x1, .f32⟩
  | 14 => ⟨S2048x1024x1, .f32⟩
  | 15 => ⟨S2048x1024x1, .f32⟩
  | 16 => ⟨S2048x1024x1x1, .f32⟩
  | 17 => ⟨S2048x1024x1, .f32⟩
  | 18 => ⟨S2048x1024x1x1, .f32⟩
  | 19 => ⟨S2048x1024x1, .f32⟩
  | 20 => ⟨S2048x1024x1, .f32⟩
  | 21 => ⟨S2048x1024x1x1, .f32⟩
  | 22 => ⟨S2048x1024x1x1, .f32⟩
  | 23 => ⟨S2048x1024x2x1, .f32⟩
  | 24 => ⟨S2048x2048, .f32⟩
  | 25 => ⟨S2048x512x2x2, .f32⟩
  | 26 => ⟨S2048x512x1x2, .f32⟩
  | 27 => ⟨S2048x512x2, .f32⟩
  | 28 => ⟨S2048x512x1x2, .f32⟩
  | 29 => ⟨S2048x512x2, .f32⟩
  | 30 => ⟨S2048x512x2, .f32⟩
  | 31 => ⟨S2048x512x1x2, .f32⟩
  | 32 => ⟨S2048x512x2, .f32⟩
  | 33 => ⟨S2048x512x1x2, .f32⟩
  | 34 => ⟨S2048x512x2, .f32⟩
  | 35 => ⟨S2048x512x2, .f32⟩
  | 36 => ⟨S2048x512x1x2, .f32⟩
  | 37 => ⟨S2048x512x1x2, .f32⟩
  | 38 => ⟨S2048x512x2x2, .f32⟩
  | 39 => ⟨S2048x2048, .f32⟩
  | 40 => ⟨S2048x256x2x4, .f32⟩
  | 41 => ⟨S2048x256x1x4, .f32⟩
  | 42 => ⟨S2048x256x4, .f32⟩
  | 43 => ⟨S2048x256x1x4, .f32⟩
  | 44 => ⟨S2048x256x4, .f32⟩
  | 45 => ⟨S2048x256x4, .f32⟩
  | 46 => ⟨S2048x256x1x4, .f32⟩
  | 47 => ⟨S2048x256x4, .f32⟩
  | 48 => ⟨S2048x256x1x4, .f32⟩
  | 49 => ⟨S2048x256x4, .f32⟩
  | 50 => ⟨S2048x256x4, .f32⟩
  | 51 => ⟨S2048x256x1x4, .f32⟩
  | 52 => ⟨S2048x256x1x4, .f32⟩
  | 53 => ⟨S2048x256x2x4, .f32⟩
  | 54 => ⟨S2048x2048, .f32⟩
  | 55 => ⟨S2048x128x2x8, .f32⟩
  | 56 => ⟨S2048x128x1x8, .f32⟩
  | 57 => ⟨S2048x128x8, .f32⟩
  | 58 => ⟨S2048x128x1x8, .f32⟩
  | 59 => ⟨S2048x128x8, .f32⟩
  | 60 => ⟨S2048x128x8, .f32⟩
  | 61 => ⟨S2048x128x1x8, .f32⟩
  | 62 => ⟨S2048x128x8, .f32⟩
  | 63 => ⟨S2048x128x1x8, .f32⟩
  | 64 => ⟨S2048x128x8, .f32⟩
  | 65 => ⟨S2048x128x8, .f32⟩
  | 66 => ⟨S2048x128x1x8, .f32⟩
  | 67 => ⟨S2048x128x1x8, .f32⟩
  | 68 => ⟨S2048x128x2x8, .f32⟩
  | 69 => ⟨S2048x2048, .f32⟩
  | 70 => ⟨S2048x64x2x16, .f32⟩
  | 71 => ⟨S2048x64x1x16, .f32⟩
  | 72 => ⟨S2048x64x16, .f32⟩
  | 73 => ⟨S2048x64x1x16, .f32⟩
  | 74 => ⟨S2048x64x16, .f32⟩
  | 75 => ⟨S2048x64x16, .f32⟩
  | 76 => ⟨S2048x64x1x16, .f32⟩
  | 77 => ⟨S2048x64x16, .f32⟩
  | 78 => ⟨S2048x64x1x16, .f32⟩
  | 79 => ⟨S2048x64x16, .f32⟩
  | 80 => ⟨S2048x64x16, .f32⟩
  | 81 => ⟨S2048x64x1x16, .f32⟩
  | 82 => ⟨S2048x64x1x16, .f32⟩
  | 83 => ⟨S2048x64x2x16, .f32⟩
  | 84 => ⟨S2048x2048, .f32⟩
  | 85 => ⟨S2048x32x2x32, .f32⟩
  | 86 => ⟨S2048x32x1x32, .f32⟩
  | 87 => ⟨S2048x32x32, .f32⟩
  | 88 => ⟨S2048x32x1x32, .f32⟩
  | 89 => ⟨S2048x32x32, .f32⟩
  | 90 => ⟨S2048x32x32, .f32⟩
  | 91 => ⟨S2048x32x1x32, .f32⟩
  | 92 => ⟨S2048x32x32, .f32⟩
  | 93 => ⟨S2048x32x1x32, .f32⟩
  | 94 => ⟨S2048x32x32, .f32⟩
  | 95 => ⟨S2048x32x32, .f32⟩
  | 96 => ⟨S2048x32x1x32, .f32⟩
  | 97 => ⟨S2048x32x1x32, .f32⟩
  | 98 => ⟨S2048x32x2x32, .f32⟩
  | 99 => ⟨S2048x2048, .f32⟩
  | 100 => ⟨S2048x16x2x64, .f32⟩
  | 101 => ⟨S2048x16x1x64, .f32⟩
  | 102 => ⟨S2048x16x64, .f32⟩
  | 103 => ⟨S2048x16x1x64, .f32⟩
  | 104 => ⟨S2048x16x64, .f32⟩
  | 105 => ⟨S2048x16x64, .f32⟩
  | 106 => ⟨S2048x16x1x64, .f32⟩
  | 107 => ⟨S2048x16x64, .f32⟩
  | 108 => ⟨S2048x16x1x64, .f32⟩
  | 109 => ⟨S2048x16x64, .f32⟩
  | 110 => ⟨S2048x16x64, .f32⟩
  | 111 => ⟨S2048x16x1x64, .f32⟩
  | 112 => ⟨S2048x16x1x64, .f32⟩
  | 113 => ⟨S2048x16x2x64, .f32⟩
  | 114 => ⟨S2048x2048, .f32⟩
  | 115 => ⟨S2048x8x2x128, .f32⟩
  | 116 => ⟨S2048x8x1x128, .f32⟩
  | 117 => ⟨S2048x8x128, .f32⟩
  | 118 => ⟨S2048x8x1x128, .f32⟩
  | 119 => ⟨S2048x8x128, .f32⟩
  | 120 => ⟨S2048x8x128, .f32⟩
  | 121 => ⟨S2048x8x1x128, .f32⟩
  | 122 => ⟨S2048x8x128, .f32⟩
  | 123 => ⟨S2048x8x1x128, .f32⟩
  | 124 => ⟨S2048x8x128, .f32⟩
  | 125 => ⟨S2048x8x128, .f32⟩
  | 126 => ⟨S2048x8x1x128, .f32⟩
  | 127 => ⟨S2048x8x1x128, .f32⟩
  | _ => ⟨S2x512x2x2048, .f32⟩

abbrev hbmTy0_1 (i : Nat) : BufTy := match i % 128 with
  | 0 => ⟨S2048x8x2x128, .f32⟩
  | 1 => ⟨S2048x2048, .f32⟩
  | 2 => ⟨S2048x4x2x256, .f32⟩
  | 3 => ⟨S2048x4x1x256, .f32⟩
  | 4 => ⟨S2048x4x256, .f32⟩
  | 5 => ⟨S2048x4x1x256, .f32⟩
  | 6 => ⟨S2048x4x256, .f32⟩
  | 7 => ⟨S2048x4x256, .f32⟩
  | 8 => ⟨S2048x4x1x256, .f32⟩
  | 9 => ⟨S2048x4x256, .f32⟩
  | 10 => ⟨S2048x4x1x256, .f32⟩
  | 11 => ⟨S2048x4x256, .f32⟩
  | 12 => ⟨S2048x4x256, .f32⟩
  | 13 => ⟨S2048x4x1x256, .f32⟩
  | 14 => ⟨S2048x4x1x256, .f32⟩
  | 15 => ⟨S2048x4x2x256, .f32⟩
  | 16 => ⟨S2048x2048, .f32⟩
  | 17 => ⟨S2048x2x2x512, .f32⟩
  | 18 => ⟨S2048x2x1x512, .f32⟩
  | 19 => ⟨S2048x2x512, .f32⟩
  | 20 => ⟨S2048x2x1x512, .f32⟩
  | 21 => ⟨S2048x2x512, .f32⟩
  | 22 => ⟨S2048x2x512, .f32⟩
  | 23 => ⟨S2048x2x1x512, .f32⟩
  | 24 => ⟨S2048x2x512, .f32⟩
  | 25 => ⟨S2048x2x1x512, .f32⟩
  | 26 => ⟨S2048x2x512, .f32⟩
  | 27 => ⟨S2048x2x512, .f32⟩
  | 28 => ⟨S2048x2x1x512, .f32⟩
  | 29 => ⟨S2048x2x1x512, .f32⟩
  | 30 => ⟨S2048x2x2x512, .f32⟩
  | 31 => ⟨S2048x2048, .f32⟩
  | 32 => ⟨S2048x1x2x1024, .f32⟩
  | 33 => ⟨S2048x1x1x1024, .f32⟩
  | 34 => ⟨S2048x1x1024, .f32⟩
  | 35 => ⟨S2048x1x1x1024, .f32⟩
  | 36 => ⟨S2048x1x1024, .f32⟩
  | 37 => ⟨S2048x1x1024, .f32⟩
  | 38 => ⟨S2048x1x1x1024, .f32⟩
  | 39 => ⟨S2048x1x1024, .f32⟩
  | 40 => ⟨S2048x1x1x1024, .f32⟩
  | 41 => ⟨S2048x1x1024, .f32⟩
  | 42 => ⟨S2048x1x1024, .f32⟩
  | 43 => ⟨S2048x1x1x1024, .f32⟩
  | 44 => ⟨S2048x1x1x1024, .f32⟩
  | 45 => ⟨S2048x1x2x1024, .f32⟩
  | 46 => ⟨S2048x2048, .f32⟩
  | 47 => ⟨S1x2048x1x2048, .f32⟩
  | 48 => ⟨S1x2048x4x2048, .f32⟩
  | 49 => ⟨S2048x8192, .f32⟩
  | 50 => ⟨S_, .i32⟩
  | 51 => ⟨S8192, .i32⟩
  | 52 => ⟨S8192, .i1⟩
  | 53 => ⟨S_, .i32⟩
  | 54 => ⟨S8192, .i32⟩
  | 55 => ⟨S8192, .i32⟩
  | 56 => ⟨S8192, .i32⟩
  | 57 => ⟨S8192x1, .i32⟩
  | 58 => ⟨S2048x8192, .f32⟩
  | 59 => ⟨S1x8192, .f32⟩
  | 60 => ⟨S2048x8192, .f32⟩
  | 61 => ⟨S2048x8192, .f32⟩
  | 62 => ⟨S2048x4096x2x1, .f32⟩
  | 63 => ⟨S2048x4096x1x1, .f32⟩
  | 64 => ⟨S2048x4096x1, .f32⟩
  | 65 => ⟨S2048x4096x1x1, .f32⟩
  | 66 => ⟨S2048x4096x1, .f32⟩
  | 67 => ⟨S2048x4096x1, .f32⟩
  | 68 => ⟨S2048x4096x1x1, .f32⟩
  | 69 => ⟨S2048x4096x1, .f32⟩
  | 70 => ⟨S2048x4096x1x1, .f32⟩
  | 71 => ⟨S2048x4096x1, .f32⟩
  | 72 => ⟨S2048x4096x1, .f32⟩
  | 73 => ⟨S2048x4096x1x1, .f32⟩
  | 74 => ⟨S2048x4096x1x1, .f32⟩
  | 75 => ⟨S2048x4096x2x1, .f32⟩
  | 76 => ⟨S2048x8192, .f32⟩
  | 77 => ⟨S2048x2048x2x2, .f32⟩
  | 78 => ⟨S2048x2048x1x2, .f32⟩
  | 79 => ⟨S2048x2048x2, .f32⟩
  | 80 => ⟨S2048x2048x1x2, .f32⟩
  | 81 => ⟨S2048x2048x2, .f32⟩
  | 82 => ⟨S2048x2048x2, .f32⟩
  | 83 => ⟨S2048x2048x1x2, .f32⟩
  | 84 => ⟨S2048x2048x2, .f32⟩
  | 85 => ⟨S2048x2048x1x2, .f32⟩
  | 86 => ⟨S2048x2048x2, .f32⟩
  | 87 => ⟨S2048x2048x2, .f32⟩
  | 88 => ⟨S2048x2048x1x2, .f32⟩
  | 89 => ⟨S2048x2048x1x2, .f32⟩
  | 90 => ⟨S2048x2048x2x2, .f32⟩
  | 91 => ⟨S2048x8192, .f32⟩
  | 92 => ⟨S2048x1024x2x4, .f32⟩
  | 93 => ⟨S2048x1024x1x4, .f32⟩
  | 94 => ⟨S2048x1024x4, .f32⟩
  | 95 => ⟨S2048x1024x1x4, .f32⟩
  | 96 => ⟨S2048x1024x4, .f32⟩
  | 97 => ⟨S2048x1024x4, .f32⟩
  | 98 => ⟨S2048x1024x1x4, .f32⟩
  | 99 => ⟨S2048x1024x4, .f32⟩
  | 100 => ⟨S2048x1024x1x4, .f32⟩
  | 101 => ⟨S2048x1024x4, .f32⟩
  | 102 => ⟨S2048x1024x4, .f32⟩
  | 103 => ⟨S2048x1024x1x4, .f32⟩
  | 104 => ⟨S2048x1024x1x4, .f32⟩
  | 105 => ⟨S2048x1024x2x4, .f32⟩
  | 106 => ⟨S2048x8192, .f32⟩
  | 107 => ⟨S2048x512x2x8, .f32⟩
  | 108 => ⟨S2048x512x1x8, .f32⟩
  | 109 => ⟨S2048x512x8, .f32⟩
  | 110 => ⟨S2048x512x1x8, .f32⟩
  | 111 => ⟨S2048x512x8, .f32⟩
  | 112 => ⟨S2048x512x8, .f32⟩
  | 113 => ⟨S2048x512x1x8, .f32⟩
  | 114 => ⟨S2048x512x8, .f32⟩
  | 115 => ⟨S2048x512x1x8, .f32⟩
  | 116 => ⟨S2048x512x8, .f32⟩
  | 117 => ⟨S2048x512x8, .f32⟩
  | 118 => ⟨S2048x512x1x8, .f32⟩
  | 119 => ⟨S2048x512x1x8, .f32⟩
  | 120 => ⟨S2048x512x2x8, .f32⟩
  | 121 => ⟨S2048x8192, .f32⟩
  | 122 => ⟨S2048x256x2x16, .f32⟩
  | 123 => ⟨S2048x256x1x16, .f32⟩
  | 124 => ⟨S2048x256x16, .f32⟩
  | 125 => ⟨S2048x256x1x16, .f32⟩
  | 126 => ⟨S2048x256x16, .f32⟩
  | 127 => ⟨S2048x256x16, .f32⟩
  | _ => ⟨S2x512x2x2048, .f32⟩

abbrev hbmTy0_2 (i : Nat) : BufTy := match i % 128 with
  | 0 => ⟨S2048x256x1x16, .f32⟩
  | 1 => ⟨S2048x256x16, .f32⟩
  | 2 => ⟨S2048x256x1x16, .f32⟩
  | 3 => ⟨S2048x256x16, .f32⟩
  | 4 => ⟨S2048x256x16, .f32⟩
  | 5 => ⟨S2048x256x1x16, .f32⟩
  | 6 => ⟨S2048x256x1x16, .f32⟩
  | 7 => ⟨S2048x256x2x16, .f32⟩
  | 8 => ⟨S2048x8192, .f32⟩
  | 9 => ⟨S2048x128x2x32, .f32⟩
  | 10 => ⟨S2048x128x1x32, .f32⟩
  | 11 => ⟨S2048x128x32, .f32⟩
  | 12 => ⟨S2048x128x1x32, .f32⟩
  | 13 => ⟨S2048x128x32, .f32⟩
  | 14 => ⟨S2048x128x32, .f32⟩
  | 15 => ⟨S2048x128x1x32, .f32⟩
  | 16 => ⟨S2048x128x32, .f32⟩
  | 17 => ⟨S2048x128x1x32, .f32⟩
  | 18 => ⟨S2048x128x32, .f32⟩
  | 19 => ⟨S2048x128x32, .f32⟩
  | 20 => ⟨S2048x128x1x32, .f32⟩
  | 21 => ⟨S2048x128x1x32, .f32⟩
  | 22 => ⟨S2048x128x2x32, .f32⟩
  | 23 => ⟨S2048x8192, .f32⟩
  | 24 => ⟨S2048x64x2x64, .f32⟩
  | 25 => ⟨S2048x64x1x64, .f32⟩
  | 26 => ⟨S2048x64x64, .f32⟩
  | 27 => ⟨S2048x64x1x64, .f32⟩
  | 28 => ⟨S2048x64x64, .f32⟩
  | 29 => ⟨S2048x64x64, .f32⟩
  | 30 => ⟨S2048x64x1x64, .f32⟩
  | 31 => ⟨S2048x64x64, .f32⟩
  | 32 => ⟨S2048x64x1x64, .f32⟩
  | 33 => ⟨S2048x64x64, .f32⟩
  | 34 => ⟨S2048x64x64, .f32⟩
  | 35 => ⟨S2048x64x1x64, .f32⟩
  | 36 => ⟨S2048x64x1x64, .f32⟩
  | 37 => ⟨S2048x64x2x64, .f32⟩
  | 38 => ⟨S2048x8192, .f32⟩
  | 39 => ⟨S2048x32x2x128, .f32⟩
  | 40 => ⟨S2048x32x1x128, .f32⟩
  | 41 => ⟨S2048x32x128, .f32⟩
  | 42 => ⟨S2048x32x1x128, .f32⟩
  | 43 => ⟨S2048x32x128, .f32⟩
  | 44 => ⟨S2048x32x128, .f32⟩
  | 45 => ⟨S2048x32x1x128, .f32⟩
  | 46 => ⟨S2048x32x128, .f32⟩
  | 47 => ⟨S2048x32x1x128, .f32⟩
  | 48 => ⟨S2048x32x128, .f32⟩
  | 49 => ⟨S2048x32x128, .f32⟩
  | 50 => ⟨S2048x32x1x128, .f32⟩
  | 51 => ⟨S2048x32x1x128, .f32⟩
  | 52 => ⟨S2048x32x2x128, .f32⟩
  | 53 => ⟨S2048x8192, .f32⟩
  | 54 => ⟨S2048x16x2x256, .f32⟩
  | 55 => ⟨S2048x16x1x256, .f32⟩
  | 56 => ⟨S2048x16x256, .f32⟩
  | 57 => ⟨S2048x16x1x256, .f32⟩
  | 58 => ⟨S2048x16x256, .f32⟩
  | 59 => ⟨S2048x16x256, .f32⟩
  | 60 => ⟨S2048x16x1x256, .f32⟩
  | 61 => ⟨S2048x16x256, .f32⟩
  | 62 => ⟨S2048x16x1x256, .f32⟩
  | 63 => ⟨S2048x16x256, .f32⟩
  | 64 => ⟨S2048x16x256, .f32⟩
  | 65 => ⟨S2048x16x1x256, .f32⟩
  | 66 => ⟨S2048x16x1x256, .f32⟩
  | 67 => ⟨S2048x16x2x256, .f32⟩
  | 68 => ⟨S2048x8192, .f32⟩
  | 69 => ⟨S2048x8x2x512, .f32⟩
  | 70 => ⟨S2048x8x1x512, .f32⟩
  | 71 => ⟨S2048x8x512, .f32⟩
  | 72 => ⟨S2048x8x1x512, .f32⟩
  | 73 => ⟨S2048x8x512, .f32⟩
  | 74 => ⟨S2048x8x512, .f32⟩
  | 75 => ⟨S2048x8x1x512, .f32⟩
  | 76 => ⟨S2048x8x512, .f32⟩
  | 77 => ⟨S2048x8x1x512, .f32⟩
  | 78 => ⟨S2048x8x512, .f32⟩
  | 79 => ⟨S2048x8x512, .f32⟩
  | 80 => ⟨S2048x8x1x512, .f32⟩
  | 81 => ⟨S2048x8x1x512, .f32⟩
  | 82 => ⟨S2048x8x2x512, .f32⟩
  | 83 => ⟨S2048x8192, .f32⟩
  | 84 => ⟨S2048x4x2x1024, .f32⟩
  | 85 => ⟨S2048x4x1x1024, .f32⟩
  | 86 => ⟨S2048x4x1024, .f32⟩
  | 87 => ⟨S2048x4x1x1024, .f32⟩
  | 88 => ⟨S2048x4x1024, .f32⟩
  | 89 => ⟨S2048x4x1024, .f32⟩
  | 90 => ⟨S2048x4x1x1024, .f32⟩
  | 91 => ⟨S2048x4x1024, .f32⟩
  | 92 => ⟨S2048x4x1x1024, .f32⟩
  | 93 => ⟨S2048x4x1024, .f32⟩
  | 94 => ⟨S2048x4x1024, .f32⟩
  | 95 => ⟨S2048x4x1x1024, .f32⟩
  | 96 => ⟨S2048x4x1x1024, .f32⟩
  | 97 => ⟨S2048x4x2x1024, .f32⟩
  | 98 => ⟨S2048x8192, .f32⟩
  | 99 => ⟨S2048x2x2x2048, .f32⟩
  | 100 => ⟨S2048x2x1x2048, .f32⟩
  | 101 => ⟨S2048x2x2048, .f32⟩
  | 102 => ⟨S2048x2x1x2048, .f32⟩
  | 103 => ⟨S2048x2x2048, .f32⟩
  | 104 => ⟨S2048x2x2048, .f32⟩
  | 105 => ⟨S2048x2x1x2048, .f32⟩
  | 106 => ⟨S2048x2x2048, .f32⟩
  | 107 => ⟨S2048x2x1x2048, .f32⟩
  | 108 => ⟨S2048x2x2048, .f32⟩
  | 109 => ⟨S2048x2x2048, .f32⟩
  | 110 => ⟨S2048x2x1x2048, .f32⟩
  | 111 => ⟨S2048x2x1x2048, .f32⟩
  | 112 => ⟨S2048x2x2x2048, .f32⟩
  | 113 => ⟨S2048x8192, .f32⟩
  | 114 => ⟨S2048x1x2x4096, .f32⟩
  | 115 => ⟨S2048x1x1x4096, .f32⟩
  | 116 => ⟨S2048x1x4096, .f32⟩
  | 117 => ⟨S2048x1x1x4096, .f32⟩
  | 118 => ⟨S2048x1x4096, .f32⟩
  | 119 => ⟨S2048x1x4096, .f32⟩
  | 120 => ⟨S2048x1x1x4096, .f32⟩
  | 121 => ⟨S2048x1x4096, .f32⟩
  | 122 => ⟨S2048x1x1x4096, .f32⟩
  | 123 => ⟨S2048x1x4096, .f32⟩
  | 124 => ⟨S2048x1x4096, .f32⟩
  | 125 => ⟨S2048x1x1x4096, .f32⟩
  | 126 => ⟨S2048x1x1x4096, .f32⟩
  | 127 => ⟨S2048x1x2x4096, .f32⟩
  | _ => ⟨S2x512x2x2048, .f32⟩

abbrev hbmTy0_3 (i : Nat) : BufTy := match i % 128 with
  | 0 => ⟨S2048x8192, .f32⟩
  | 1 => ⟨S1x8192, .f32⟩
  | 2 => ⟨S2048x8192, .f32⟩
  | 3 => ⟨S2048x8192, .f32⟩
  | 4 => ⟨S_, .f32⟩
  | 5 => ⟨S2048x8192, .f32⟩
  | 6 => ⟨S2048x8192, .f32⟩
  | 7 => ⟨S_, .f32⟩
  | 8 => ⟨S8192, .f32⟩
  | 9 => ⟨S8192, .f32⟩
  | 10 => ⟨S1x8192, .f32⟩
  | 11 => ⟨S2048x8192, .f32⟩
  | 12 => ⟨S2048x8192, .f32⟩
  | 13 => ⟨S2048x8192, .f32⟩
  | 14 => ⟨S_, .f32⟩
  | 15 => ⟨S2048x8192, .f32⟩
  | 16 => ⟨S2048x8192, .f32⟩
  | _ => ⟨S2x512x2x2048, .f32⟩

abbrev hbmTy (i : Nat) : BufTy := match i / 128 with
  | 0 => hbmTy0_0 i
  | 1 => hbmTy0_1 i
  | 2 => hbmTy0_2 i
  | 3 => hbmTy0_3 i
  | _ => ⟨S2x512x2x2048, .f32⟩

abbrev bufTy : (tb : Table) → Fin (tcTables nBuf tb) → BufTy
  | .hbm, ⟨i, _⟩ => hbmTy i
  | _, _ => ⟨S2x512x2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_c : Ref sig .tc := ⟨.hbm, 178, rfl⟩
abbrev main_v172 : Ref sig .tc := ⟨.hbm, 179, rfl⟩
abbrev main_v173 : Ref sig .tc := ⟨.hbm, 180, rfl⟩
abbrev main_c_0 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_v234 : Ref sig .tc := ⟨.hbm, 242, rfl⟩
abbrev main_v235 : Ref sig .tc := ⟨.hbm, 243, rfl⟩
abbrev main_v236 : Ref sig .tc := ⟨.hbm, 244, rfl⟩
abbrev main_v237 : Ref sig .tc := ⟨.hbm, 245, rfl⟩
abbrev main_v238 : Ref sig .tc := ⟨.hbm, 246, rfl⟩
abbrev main_v239 : Ref sig .tc := ⟨.hbm, 247, rfl⟩
abbrev main_v240 : Ref sig .tc := ⟨.hbm, 248, rfl⟩
abbrev main_v241 : Ref sig .tc := ⟨.hbm, 249, rfl⟩
abbrev main_v242 : Ref sig .tc := ⟨.hbm, 250, rfl⟩
abbrev main_v243 : Ref sig .tc := ⟨.hbm, 251, rfl⟩
abbrev main_v244 : Ref sig .tc := ⟨.hbm, 252, rfl⟩
abbrev main_v245 : Ref sig .tc := ⟨.hbm, 253, rfl⟩
abbrev main_v246 : Ref sig .tc := ⟨.hbm, 254, rfl⟩
abbrev main_v247 : Ref sig .tc := ⟨.hbm, 255, rfl⟩
abbrev main_v248 : Ref sig .tc := ⟨.hbm, 256, rfl⟩
abbrev main_v249 : Ref sig .tc := ⟨.hbm, 257, rfl⟩
abbrev main_v250 : Ref sig .tc := ⟨.hbm, 258, rfl⟩
abbrev main_v251 : Ref sig .tc := ⟨.hbm, 259, rfl⟩
abbrev main_v252 : Ref sig .tc := ⟨.hbm, 260, rfl⟩
abbrev main_v253 : Ref sig .tc := ⟨.hbm, 261, rfl⟩
abbrev main_v254 : Ref sig .tc := ⟨.hbm, 262, rfl⟩
abbrev main_v255 : Ref sig .tc := ⟨.hbm, 263, rfl⟩
abbrev main_v256 : Ref sig .tc := ⟨.hbm, 264, rfl⟩
abbrev main_v257 : Ref sig .tc := ⟨.hbm, 265, rfl⟩
abbrev main_v258 : Ref sig .tc := ⟨.hbm, 266, rfl⟩
abbrev main_v259 : Ref sig .tc := ⟨.hbm, 267, rfl⟩
abbrev main_v260 : Ref sig .tc := ⟨.hbm, 268, rfl⟩
abbrev main_v261 : Ref sig .tc := ⟨.hbm, 269, rfl⟩
abbrev main_v262 : Ref sig .tc := ⟨.hbm, 270, rfl⟩
abbrev main_v263 : Ref sig .tc := ⟨.hbm, 271, rfl⟩
abbrev main_v264 : Ref sig .tc := ⟨.hbm, 272, rfl⟩
abbrev main_v265 : Ref sig .tc := ⟨.hbm, 273, rfl⟩
abbrev main_v266 : Ref sig .tc := ⟨.hbm, 274, rfl⟩
abbrev main_v267 : Ref sig .tc := ⟨.hbm, 275, rfl⟩
abbrev main_v268 : Ref sig .tc := ⟨.hbm, 276, rfl⟩
abbrev main_v269 : Ref sig .tc := ⟨.hbm, 277, rfl⟩
abbrev main_v270 : Ref sig .tc := ⟨.hbm, 278, rfl⟩
abbrev main_v271 : Ref sig .tc := ⟨.hbm, 279, rfl⟩
abbrev main_v272 : Ref sig .tc := ⟨.hbm, 280, rfl⟩
abbrev main_v273 : Ref sig .tc := ⟨.hbm, 281, rfl⟩
abbrev main_v274 : Ref sig .tc := ⟨.hbm, 282, rfl⟩
abbrev main_v275 : Ref sig .tc := ⟨.hbm, 283, rfl⟩
abbrev main_v276 : Ref sig .tc := ⟨.hbm, 284, rfl⟩
abbrev main_v277 : Ref sig .tc := ⟨.hbm, 285, rfl⟩
abbrev main_v278 : Ref sig .tc := ⟨.hbm, 286, rfl⟩
abbrev main_v279 : Ref sig .tc := ⟨.hbm, 287, rfl⟩
abbrev main_v280 : Ref sig .tc := ⟨.hbm, 288, rfl⟩
abbrev main_v281 : Ref sig .tc := ⟨.hbm, 289, rfl⟩
abbrev main_v282 : Ref sig .tc := ⟨.hbm, 290, rfl⟩
abbrev main_v283 : Ref sig .tc := ⟨.hbm, 291, rfl⟩
abbrev main_v284 : Ref sig .tc := ⟨.hbm, 292, rfl⟩
abbrev main_v285 : Ref sig .tc := ⟨.hbm, 293, rfl⟩
abbrev main_v286 : Ref sig .tc := ⟨.hbm, 294, rfl⟩
abbrev main_v287 : Ref sig .tc := ⟨.hbm, 295, rfl⟩
abbrev main_v288 : Ref sig .tc := ⟨.hbm, 296, rfl⟩
abbrev main_v289 : Ref sig .tc := ⟨.hbm, 297, rfl⟩
abbrev main_v290 : Ref sig .tc := ⟨.hbm, 298, rfl⟩
abbrev main_v291 : Ref sig .tc := ⟨.hbm, 299, rfl⟩
abbrev main_v292 : Ref sig .tc := ⟨.hbm, 300, rfl⟩
abbrev main_v293 : Ref sig .tc := ⟨.hbm, 301, rfl⟩
abbrev main_v294 : Ref sig .tc := ⟨.hbm, 302, rfl⟩
abbrev main_v295 : Ref sig .tc := ⟨.hbm, 303, rfl⟩
abbrev main_v296 : Ref sig .tc := ⟨.hbm, 304, rfl⟩
abbrev main_v297 : Ref sig .tc := ⟨.hbm, 305, rfl⟩
abbrev main_v298 : Ref sig .tc := ⟨.hbm, 306, rfl⟩
abbrev main_v299 : Ref sig .tc := ⟨.hbm, 307, rfl⟩
abbrev main_v300 : Ref sig .tc := ⟨.hbm, 308, rfl⟩
abbrev main_v301 : Ref sig .tc := ⟨.hbm, 309, rfl⟩
abbrev main_v302 : Ref sig .tc := ⟨.hbm, 310, rfl⟩
abbrev main_v303 : Ref sig .tc := ⟨.hbm, 311, rfl⟩
abbrev main_v304 : Ref sig .tc := ⟨.hbm, 312, rfl⟩
abbrev main_v305 : Ref sig .tc := ⟨.hbm, 313, rfl⟩
abbrev main_v306 : Ref sig .tc := ⟨.hbm, 314, rfl⟩
abbrev main_v307 : Ref sig .tc := ⟨.hbm, 315, rfl⟩
abbrev main_v308 : Ref sig .tc := ⟨.hbm, 316, rfl⟩
abbrev main_v309 : Ref sig .tc := ⟨.hbm, 317, rfl⟩
abbrev main_v310 : Ref sig .tc := ⟨.hbm, 318, rfl⟩
abbrev main_v311 : Ref sig .tc := ⟨.hbm, 319, rfl⟩
abbrev main_v312 : Ref sig .tc := ⟨.hbm, 320, rfl⟩
abbrev main_v313 : Ref sig .tc := ⟨.hbm, 321, rfl⟩
abbrev main_v314 : Ref sig .tc := ⟨.hbm, 322, rfl⟩
abbrev main_v315 : Ref sig .tc := ⟨.hbm, 323, rfl⟩
abbrev main_v316 : Ref sig .tc := ⟨.hbm, 324, rfl⟩
abbrev main_v317 : Ref sig .tc := ⟨.hbm, 325, rfl⟩
abbrev main_v318 : Ref sig .tc := ⟨.hbm, 326, rfl⟩
abbrev main_v319 : Ref sig .tc := ⟨.hbm, 327, rfl⟩
abbrev main_v320 : Ref sig .tc := ⟨.hbm, 328, rfl⟩
abbrev main_v321 : Ref sig .tc := ⟨.hbm, 329, rfl⟩
abbrev main_v322 : Ref sig .tc := ⟨.hbm, 330, rfl⟩
abbrev main_v323 : Ref sig .tc := ⟨.hbm, 331, rfl⟩
abbrev main_v324 : Ref sig .tc := ⟨.hbm, 332, rfl⟩
abbrev main_v325 : Ref sig .tc := ⟨.hbm, 333, rfl⟩
abbrev main_v326 : Ref sig .tc := ⟨.hbm, 334, rfl⟩
abbrev main_v327 : Ref sig .tc := ⟨.hbm, 335, rfl⟩
abbrev main_v328 : Ref sig .tc := ⟨.hbm, 336, rfl⟩
abbrev main_v329 : Ref sig .tc := ⟨.hbm, 337, rfl⟩
abbrev main_v330 : Ref sig .tc := ⟨.hbm, 338, rfl⟩
abbrev main_v331 : Ref sig .tc := ⟨.hbm, 339, rfl⟩
abbrev main_v332 : Ref sig .tc := ⟨.hbm, 340, rfl⟩
abbrev main_v333 : Ref sig .tc := ⟨.hbm, 341, rfl⟩
abbrev main_v334 : Ref sig .tc := ⟨.hbm, 342, rfl⟩
abbrev main_v335 : Ref sig .tc := ⟨.hbm, 343, rfl⟩
abbrev main_v336 : Ref sig .tc := ⟨.hbm, 344, rfl⟩
abbrev main_v337 : Ref sig .tc := ⟨.hbm, 345, rfl⟩
abbrev main_v338 : Ref sig .tc := ⟨.hbm, 346, rfl⟩
abbrev main_v339 : Ref sig .tc := ⟨.hbm, 347, rfl⟩
abbrev main_v340 : Ref sig .tc := ⟨.hbm, 348, rfl⟩
abbrev main_v341 : Ref sig .tc := ⟨.hbm, 349, rfl⟩
abbrev main_v342 : Ref sig .tc := ⟨.hbm, 350, rfl⟩
abbrev main_v343 : Ref sig .tc := ⟨.hbm, 351, rfl⟩
abbrev main_v344 : Ref sig .tc := ⟨.hbm, 352, rfl⟩
abbrev main_v345 : Ref sig .tc := ⟨.hbm, 353, rfl⟩
abbrev main_v346 : Ref sig .tc := ⟨.hbm, 354, rfl⟩
abbrev main_v347 : Ref sig .tc := ⟨.hbm, 355, rfl⟩
abbrev main_v348 : Ref sig .tc := ⟨.hbm, 356, rfl⟩
abbrev main_v349 : Ref sig .tc := ⟨.hbm, 357, rfl⟩
abbrev main_v350 : Ref sig .tc := ⟨.hbm, 358, rfl⟩
abbrev main_v351 : Ref sig .tc := ⟨.hbm, 359, rfl⟩
abbrev main_v352 : Ref sig .tc := ⟨.hbm, 360, rfl⟩
abbrev main_v353 : Ref sig .tc := ⟨.hbm, 361, rfl⟩
abbrev main_v354 : Ref sig .tc := ⟨.hbm, 362, rfl⟩
abbrev main_v355 : Ref sig .tc := ⟨.hbm, 363, rfl⟩
abbrev main_v356 : Ref sig .tc := ⟨.hbm, 364, rfl⟩
abbrev main_v357 : Ref sig .tc := ⟨.hbm, 365, rfl⟩
abbrev main_v358 : Ref sig .tc := ⟨.hbm, 366, rfl⟩
abbrev main_v359 : Ref sig .tc := ⟨.hbm, 367, rfl⟩
abbrev main_v360 : Ref sig .tc := ⟨.hbm, 368, rfl⟩
abbrev main_v361 : Ref sig .tc := ⟨.hbm, 369, rfl⟩
abbrev main_v362 : Ref sig .tc := ⟨.hbm, 370, rfl⟩
abbrev main_v363 : Ref sig .tc := ⟨.hbm, 371, rfl⟩
abbrev main_v364 : Ref sig .tc := ⟨.hbm, 372, rfl⟩
abbrev main_v365 : Ref sig .tc := ⟨.hbm, 373, rfl⟩
abbrev main_v366 : Ref sig .tc := ⟨.hbm, 374, rfl⟩
abbrev main_v367 : Ref sig .tc := ⟨.hbm, 375, rfl⟩
abbrev main_v368 : Ref sig .tc := ⟨.hbm, 376, rfl⟩
abbrev main_v369 : Ref sig .tc := ⟨.hbm, 377, rfl⟩
abbrev main_v370 : Ref sig .tc := ⟨.hbm, 378, rfl⟩
abbrev main_v371 : Ref sig .tc := ⟨.hbm, 379, rfl⟩
abbrev main_v372 : Ref sig .tc := ⟨.hbm, 380, rfl⟩
abbrev main_v373 : Ref sig .tc := ⟨.hbm, 381, rfl⟩
abbrev main_v374 : Ref sig .tc := ⟨.hbm, 382, rfl⟩
abbrev main_v375 : Ref sig .tc := ⟨.hbm, 383, rfl⟩
abbrev main_v376 : Ref sig .tc := ⟨.hbm, 384, rfl⟩
abbrev main_v377 : Ref sig .tc := ⟨.hbm, 385, rfl⟩
abbrev main_v378 : Ref sig .tc := ⟨.hbm, 386, rfl⟩
abbrev main_v379 : Ref sig .tc := ⟨.hbm, 387, rfl⟩
abbrev main_cst : Ref sig .tc := ⟨.hbm, 388, rfl⟩
abbrev main_v380 : Ref sig .tc := ⟨.hbm, 389, rfl⟩
abbrev main_v381 : Ref sig .tc := ⟨.hbm, 390, rfl⟩
abbrev main_cst_1 : Ref sig .tc := ⟨.hbm, 391, rfl⟩
abbrev main_v382 : Ref sig .tc := ⟨.hbm, 392, rfl⟩
abbrev main_v383 : Ref sig .tc := ⟨.hbm, 393, rfl⟩
abbrev main_v384 : Ref sig .tc := ⟨.hbm, 394, rfl⟩
abbrev main_v385 : Ref sig .tc := ⟨.hbm, 395, rfl⟩
abbrev main_v386 : Ref sig .tc := ⟨.hbm, 396, rfl⟩
abbrev main_v387 : Ref sig .tc := ⟨.hbm, 397, rfl⟩
abbrev main_cst_2 : Ref sig .tc := ⟨.hbm, 398, rfl⟩
abbrev main_v388 : Ref sig .tc := ⟨.hbm, 399, rfl⟩
abbrev main_v389 : Ref sig .tc := ⟨.hbm, 400, rfl⟩

abbrev nD : Nat := 1
abbrev τ : Topo := Topo.v7x

variable {F : FTy → Type} [FloatOps F]

class Facts₀ : Prop where
  shapeCasts_S2x512x2x2048_S2048x2048 : S2x512x2x2048.ShapeCasts S2048x2048
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  shapeCasts_S2048x2048_S2048x1024x2x1 : S2048x2048.ShapeCasts S2048x1024x2x1
  slices_S2048x1024x2x1_S2048x1024x1x1_0_0_0_0 : S2048x1024x2x1.Slices ![0, 0, 0, 0] S2048x1024x1x1
  shapeCasts_S2048x1024x1x1_S2048x1024x1 : S2048x1024x1x1.ShapeCasts S2048x1024x1
  slices_S2048x1024x2x1_S2048x1024x1x1_0_0_1_0 : S2048x1024x2x1.Slices ![0, 0, 1, 0] S2048x1024x1x1
  bcast_S2048x1024x1_S2048x1024x1x1_0_1_3 : S2048x1024x1.BroadcastsInDim S2048x1024x1x1 (![0, 1, 3] : Fin 3 → Fin S2048x1024x1x1.rank)
  concatenates_S2048x1024x1x1_S2048x1024x1x1_S2048x1024x2x1_d2 : Shape.Concatenates [S2048x1024x1x1, S2048x1024x1x1] S2048x1024x2x1 2
  shapeCasts_S2048x1024x2x1_S2048x2048 : S2048x1024x2x1.ShapeCasts S2048x2048
  shapeCasts_S2048x2048_S2048x512x2x2 : S2048x2048.ShapeCasts S2048x512x2x2
  slices_S2048x512x2x2_S2048x512x1x2_0_0_0_0 : S2048x512x2x2.Slices ![0, 0, 0, 0] S2048x512x1x2
  shapeCasts_S2048x512x1x2_S2048x512x2 : S2048x512x1x2.ShapeCasts S2048x512x2
  slices_S2048x512x2x2_S2048x512x1x2_0_0_1_0 : S2048x512x2x2.Slices ![0, 0, 1, 0] S2048x512x1x2
  bcast_S2048x512x2_S2048x512x1x2_0_1_3 : S2048x512x2.BroadcastsInDim S2048x512x1x2 (![0, 1, 3] : Fin 3 → Fin S2048x512x1x2.rank)
  concatenates_S2048x512x1x2_S2048x512x1x2_S2048x512x2x2_d2 : Shape.Concatenates [S2048x512x1x2, S2048x512x1x2] S2048x512x2x2 2
  shapeCasts_S2048x512x2x2_S2048x2048 : S2048x512x2x2.ShapeCasts S2048x2048
  shapeCasts_S2048x2048_S2048x256x2x4 : S2048x2048.ShapeCasts S2048x256x2x4
  slices_S2048x256x2x4_S2048x256x1x4_0_0_0_0 : S2048x256x2x4.Slices ![0, 0, 0, 0] S2048x256x1x4
  shapeCasts_S2048x256x1x4_S2048x256x4 : S2048x256x1x4.ShapeCasts S2048x256x4
  slices_S2048x256x2x4_S2048x256x1x4_0_0_1_0 : S2048x256x2x4.Slices ![0, 0, 1, 0] S2048x256x1x4
  bcast_S2048x256x4_S2048x256x1x4_0_1_3 : S2048x256x4.BroadcastsInDim S2048x256x1x4 (![0, 1, 3] : Fin 3 → Fin S2048x256x1x4.rank)
  concatenates_S2048x256x1x4_S2048x256x1x4_S2048x256x2x4_d2 : Shape.Concatenates [S2048x256x1x4, S2048x256x1x4] S2048x256x2x4 2
  shapeCasts_S2048x256x2x4_S2048x2048 : S2048x256x2x4.ShapeCasts S2048x2048
  shapeCasts_S2048x2048_S2048x128x2x8 : S2048x2048.ShapeCasts S2048x128x2x8
  slices_S2048x128x2x8_S2048x128x1x8_0_0_0_0 : S2048x128x2x8.Slices ![0, 0, 0, 0] S2048x128x1x8
  shapeCasts_S2048x128x1x8_S2048x128x8 : S2048x128x1x8.ShapeCasts S2048x128x8
  slices_S2048x128x2x8_S2048x128x1x8_0_0_1_0 : S2048x128x2x8.Slices ![0, 0, 1, 0] S2048x128x1x8
  bcast_S2048x128x8_S2048x128x1x8_0_1_3 : S2048x128x8.BroadcastsInDim S2048x128x1x8 (![0, 1, 3] : Fin 3 → Fin S2048x128x1x8.rank)
  concatenates_S2048x128x1x8_S2048x128x1x8_S2048x128x2x8_d2 : Shape.Concatenates [S2048x128x1x8, S2048x128x1x8] S2048x128x2x8 2
  shapeCasts_S2048x128x2x8_S2048x2048 : S2048x128x2x8.ShapeCasts S2048x2048
  shapeCasts_S2048x2048_S2048x64x2x16 : S2048x2048.ShapeCasts S2048x64x2x16
  slices_S2048x64x2x16_S2048x64x1x16_0_0_0_0 : S2048x64x2x16.Slices ![0, 0, 0, 0] S2048x64x1x16
  shapeCasts_S2048x64x1x16_S2048x64x16 : S2048x64x1x16.ShapeCasts S2048x64x16
  slices_S2048x64x2x16_S2048x64x1x16_0_0_1_0 : S2048x64x2x16.Slices ![0, 0, 1, 0] S2048x64x1x16
  bcast_S2048x64x16_S2048x64x1x16_0_1_3 : S2048x64x16.BroadcastsInDim S2048x64x1x16 (![0, 1, 3] : Fin 3 → Fin S2048x64x1x16.rank)
  concatenates_S2048x64x1x16_S2048x64x1x16_S2048x64x2x16_d2 : Shape.Concatenates [S2048x64x1x16, S2048x64x1x16] S2048x64x2x16 2
  shapeCasts_S2048x64x2x16_S2048x2048 : S2048x64x2x16.ShapeCasts S2048x2048
  shapeCasts_S2048x2048_S2048x32x2x32 : S2048x2048.ShapeCasts S2048x32x2x32
  slices_S2048x32x2x32_S2048x32x1x32_0_0_0_0 : S2048x32x2x32.Slices ![0, 0, 0, 0] S2048x32x1x32
  shapeCasts_S2048x32x1x32_S2048x32x32 : S2048x32x1x32.ShapeCasts S2048x32x32
  slices_S2048x32x2x32_S2048x32x1x32_0_0_1_0 : S2048x32x2x32.Slices ![0, 0, 1, 0] S2048x32x1x32
  bcast_S2048x32x32_S2048x32x1x32_0_1_3 : S2048x32x32.BroadcastsInDim S2048x32x1x32 (![0, 1, 3] : Fin 3 → Fin S2048x32x1x32.rank)
  concatenates_S2048x32x1x32_S2048x32x1x32_S2048x32x2x32_d2 : Shape.Concatenates [S2048x32x1x32, S2048x32x1x32] S2048x32x2x32 2
  shapeCasts_S2048x32x2x32_S2048x2048 : S2048x32x2x32.ShapeCasts S2048x2048
  shapeCasts_S2048x2048_S2048x16x2x64 : S2048x2048.ShapeCasts S2048x16x2x64
  slices_S2048x16x2x64_S2048x16x1x64_0_0_0_0 : S2048x16x2x64.Slices ![0, 0, 0, 0] S2048x16x1x64
  shapeCasts_S2048x16x1x64_S2048x16x64 : S2048x16x1x64.ShapeCasts S2048x16x64
  slices_S2048x16x2x64_S2048x16x1x64_0_0_1_0 : S2048x16x2x64.Slices ![0, 0, 1, 0] S2048x16x1x64
  bcast_S2048x16x64_S2048x16x1x64_0_1_3 : S2048x16x64.BroadcastsInDim S2048x16x1x64 (![0, 1, 3] : Fin 3 → Fin S2048x16x1x64.rank)
  concatenates_S2048x16x1x64_S2048x16x1x64_S2048x16x2x64_d2 : Shape.Concatenates [S2048x16x1x64, S2048x16x1x64] S2048x16x2x64 2
  shapeCasts_S2048x16x2x64_S2048x2048 : S2048x16x2x64.ShapeCasts S2048x2048
  shapeCasts_S2048x2048_S2048x8x2x128 : S2048x2048.ShapeCasts S2048x8x2x128
  slices_S2048x8x2x128_S2048x8x1x128_0_0_0_0 : S2048x8x2x128.Slices ![0, 0, 0, 0] S2048x8x1x128
  shapeCasts_S2048x8x1x128_S2048x8x128 : S2048x8x1x128.ShapeCasts S2048x8x128
  slices_S2048x8x2x128_S2048x8x1x128_0_0_1_0 : S2048x8x2x128.Slices ![0, 0, 1, 0] S2048x8x1x128
  bcast_S2048x8x128_S2048x8x1x128_0_1_3 : S2048x8x128.BroadcastsInDim S2048x8x1x128 (![0, 1, 3] : Fin 3 → Fin S2048x8x1x128.rank)
  concatenates_S2048x8x1x128_S2048x8x1x128_S2048x8x2x128_d2 : Shape.Concatenates [S2048x8x1x128, S2048x8x1x128] S2048x8x2x128 2
  shapeCasts_S2048x8x2x128_S2048x2048 : S2048x8x2x128.ShapeCasts S2048x2048
  shapeCasts_S2048x2048_S2048x4x2x256 : S2048x2048.ShapeCasts S2048x4x2x256
  slices_S2048x4x2x256_S2048x4x1x256_0_0_0_0 : S2048x4x2x256.Slices ![0, 0, 0, 0] S2048x4x1x256
  shapeCasts_S2048x4x1x256_S2048x4x256 : S2048x4x1x256.ShapeCasts S2048x4x256
  slices_S2048x4x2x256_S2048x4x1x256_0_0_1_0 : S2048x4x2x256.Slices ![0, 0, 1, 0] S2048x4x1x256
  bcast_S2048x4x256_S2048x4x1x256_0_1_3 : S2048x4x256.BroadcastsInDim S2048x4x1x256 (![0, 1, 3] : Fin 3 → Fin S2048x4x1x256.rank)
  concatenates_S2048x4x1x256_S2048x4x1x256_S2048x4x2x256_d2 : Shape.Concatenates [S2048x4x1x256, S2048x4x1x256] S2048x4x2x256 2
  shapeCasts_S2048x4x2x256_S2048x2048 : S2048x4x2x256.ShapeCasts S2048x2048
  shapeCasts_S2048x2048_S2048x2x2x512 : S2048x2048.ShapeCasts S2048x2x2x512
  slices_S2048x2x2x512_S2048x2x1x512_0_0_0_0 : S2048x2x2x512.Slices ![0, 0, 0, 0] S2048x2x1x512
  shapeCasts_S2048x2x1x512_S2048x2x512 : S2048x2x1x512.ShapeCasts S2048x2x512
  slices_S2048x2x2x512_S2048x2x1x512_0_0_1_0 : S2048x2x2x512.Slices ![0, 0, 1, 0] S2048x2x1x512
  bcast_S2048x2x512_S2048x2x1x512_0_1_3 : S2048x2x512.BroadcastsInDim S2048x2x1x512 (![0, 1, 3] : Fin 3 → Fin S2048x2x1x512.rank)
  concatenates_S2048x2x1x512_S2048x2x1x512_S2048x2x2x512_d2 : Shape.Concatenates [S2048x2x1x512, S2048x2x1x512] S2048x2x2x512 2
  shapeCasts_S2048x2x2x512_S2048x2048 : S2048x2x2x512.ShapeCasts S2048x2048
  shapeCasts_S2048x2048_S2048x1x2x1024 : S2048x2048.ShapeCasts S2048x1x2x1024
  slices_S2048x1x2x1024_S2048x1x1x1024_0_0_0_0 : S2048x1x2x1024.Slices ![0, 0, 0, 0] S2048x1x1x1024
  shapeCasts_S2048x1x1x1024_S2048x1x1024 : S2048x1x1x1024.ShapeCasts S2048x1x1024
  slices_S2048x1x2x1024_S2048x1x1x1024_0_0_1_0 : S2048x1x2x1024.Slices ![0, 0, 1, 0] S2048x1x1x1024
  bcast_S2048x1x1024_S2048x1x1x1024_0_1_3 : S2048x1x1024.BroadcastsInDim S2048x1x1x1024 (![0, 1, 3] : Fin 3 → Fin S2048x1x1x1024.rank)
  concatenates_S2048x1x1x1024_S2048x1x1x1024_S2048x1x2x1024_d2 : Shape.Concatenates [S2048x1x1x1024, S2048x1x1x1024] S2048x1x2x1024 2
  shapeCasts_S2048x1x2x1024_S2048x2048 : S2048x1x2x1024.ShapeCasts S2048x2048
  shapeCasts_S2048x2048_S1x2048x1x2048 : S2048x2048.ShapeCasts S1x2048x1x2048
  bcast_S1x2048x1x2048_S1x2048x4x2048_0_1_2_3 : S1x2048x1x2048.BroadcastsInDim S1x2048x4x2048 (![0, 1, 2, 3] : Fin 4 → Fin S1x2048x4x2048.rank)
  shapeCasts_S1x2048x4x2048_S2048x8192 : S1x2048x4x2048.ShapeCasts S2048x8192
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S1x8192_S2048x8192_0_1 : S1x8192.BroadcastsInDim S2048x8192 (![0, 1] : Fin 2 → Fin S2048x8192.rank)
  shapeCasts_S2048x8192_S2048x4096x2x1 : S2048x8192.ShapeCasts S2048x4096x2x1
  slices_S2048x4096x2x1_S2048x4096x1x1_0_0_0_0 : S2048x4096x2x1.Slices ![0, 0, 0, 0] S2048x4096x1x1
  shapeCasts_S2048x4096x1x1_S2048x4096x1 : S2048x4096x1x1.ShapeCasts S2048x4096x1
  slices_S2048x4096x2x1_S2048x4096x1x1_0_0_1_0 : S2048x4096x2x1.Slices ![0, 0, 1, 0] S2048x4096x1x1
  bcast_S2048x4096x1_S2048x4096x1x1_0_1_3 : S2048x4096x1.BroadcastsInDim S2048x4096x1x1 (![0, 1, 3] : Fin 3 → Fin S2048x4096x1x1.rank)
  concatenates_S2048x4096x1x1_S2048x4096x1x1_S2048x4096x2x1_d2 : Shape.Concatenates [S2048x4096x1x1, S2048x4096x1x1] S2048x4096x2x1 2
  shapeCasts_S2048x4096x2x1_S2048x8192 : S2048x4096x2x1.ShapeCasts S2048x8192
  shapeCasts_S2048x8192_S2048x2048x2x2 : S2048x8192.ShapeCasts S2048x2048x2x2
  slices_S2048x2048x2x2_S2048x2048x1x2_0_0_0_0 : S2048x2048x2x2.Slices ![0, 0, 0, 0] S2048x2048x1x2
  shapeCasts_S2048x2048x1x2_S2048x2048x2 : S2048x2048x1x2.ShapeCasts S2048x2048x2
  slices_S2048x2048x2x2_S2048x2048x1x2_0_0_1_0 : S2048x2048x2x2.Slices ![0, 0, 1, 0] S2048x2048x1x2
  bcast_S2048x2048x2_S2048x2048x1x2_0_1_3 : S2048x2048x2.BroadcastsInDim S2048x2048x1x2 (![0, 1, 3] : Fin 3 → Fin S2048x2048x1x2.rank)
  concatenates_S2048x2048x1x2_S2048x2048x1x2_S2048x2048x2x2_d2 : Shape.Concatenates [S2048x2048x1x2, S2048x2048x1x2] S2048x2048x2x2 2
  shapeCasts_S2048x2048x2x2_S2048x8192 : S2048x2048x2x2.ShapeCasts S2048x8192
  shapeCasts_S2048x8192_S2048x1024x2x4 : S2048x8192.ShapeCasts S2048x1024x2x4
  slices_S2048x1024x2x4_S2048x1024x1x4_0_0_0_0 : S2048x1024x2x4.Slices ![0, 0, 0, 0] S2048x1024x1x4
  shapeCasts_S2048x1024x1x4_S2048x1024x4 : S2048x1024x1x4.ShapeCasts S2048x1024x4
  slices_S2048x1024x2x4_S2048x1024x1x4_0_0_1_0 : S2048x1024x2x4.Slices ![0, 0, 1, 0] S2048x1024x1x4
  bcast_S2048x1024x4_S2048x1024x1x4_0_1_3 : S2048x1024x4.BroadcastsInDim S2048x1024x1x4 (![0, 1, 3] : Fin 3 → Fin S2048x1024x1x4.rank)
  concatenates_S2048x1024x1x4_S2048x1024x1x4_S2048x1024x2x4_d2 : Shape.Concatenates [S2048x1024x1x4, S2048x1024x1x4] S2048x1024x2x4 2
  shapeCasts_S2048x1024x2x4_S2048x8192 : S2048x1024x2x4.ShapeCasts S2048x8192
  shapeCasts_S2048x8192_S2048x512x2x8 : S2048x8192.ShapeCasts S2048x512x2x8
  slices_S2048x512x2x8_S2048x512x1x8_0_0_0_0 : S2048x512x2x8.Slices ![0, 0, 0, 0] S2048x512x1x8
  shapeCasts_S2048x512x1x8_S2048x512x8 : S2048x512x1x8.ShapeCasts S2048x512x8
  slices_S2048x512x2x8_S2048x512x1x8_0_0_1_0 : S2048x512x2x8.Slices ![0, 0, 1, 0] S2048x512x1x8
  bcast_S2048x512x8_S2048x512x1x8_0_1_3 : S2048x512x8.BroadcastsInDim S2048x512x1x8 (![0, 1, 3] : Fin 3 → Fin S2048x512x1x8.rank)
  concatenates_S2048x512x1x8_S2048x512x1x8_S2048x512x2x8_d2 : Shape.Concatenates [S2048x512x1x8, S2048x512x1x8] S2048x512x2x8 2
  shapeCasts_S2048x512x2x8_S2048x8192 : S2048x512x2x8.ShapeCasts S2048x8192
  shapeCasts_S2048x8192_S2048x256x2x16 : S2048x8192.ShapeCasts S2048x256x2x16
  slices_S2048x256x2x16_S2048x256x1x16_0_0_0_0 : S2048x256x2x16.Slices ![0, 0, 0, 0] S2048x256x1x16
  shapeCasts_S2048x256x1x16_S2048x256x16 : S2048x256x1x16.ShapeCasts S2048x256x16
  slices_S2048x256x2x16_S2048x256x1x16_0_0_1_0 : S2048x256x2x16.Slices ![0, 0, 1, 0] S2048x256x1x16
  bcast_S2048x256x16_S2048x256x1x16_0_1_3 : S2048x256x16.BroadcastsInDim S2048x256x1x16 (![0, 1, 3] : Fin 3 → Fin S2048x256x1x16.rank)
  concatenates_S2048x256x1x16_S2048x256x1x16_S2048x256x2x16_d2 : Shape.Concatenates [S2048x256x1x16, S2048x256x1x16] S2048x256x2x16 2
  shapeCasts_S2048x256x2x16_S2048x8192 : S2048x256x2x16.ShapeCasts S2048x8192
  shapeCasts_S2048x8192_S2048x128x2x32 : S2048x8192.ShapeCasts S2048x128x2x32
  slices_S2048x128x2x32_S2048x128x1x32_0_0_0_0 : S2048x128x2x32.Slices ![0, 0, 0, 0] S2048x128x1x32
  shapeCasts_S2048x128x1x32_S2048x128x32 : S2048x128x1x32.ShapeCasts S2048x128x32
  slices_S2048x128x2x32_S2048x128x1x32_0_0_1_0 : S2048x128x2x32.Slices ![0, 0, 1, 0] S2048x128x1x32
  bcast_S2048x128x32_S2048x128x1x32_0_1_3 : S2048x128x32.BroadcastsInDim S2048x128x1x32 (![0, 1, 3] : Fin 3 → Fin S2048x128x1x32.rank)
  concatenates_S2048x128x1x32_S2048x128x1x32_S2048x128x2x32_d2 : Shape.Concatenates [S2048x128x1x32, S2048x128x1x32] S2048x128x2x32 2
  shapeCasts_S2048x128x2x32_S2048x8192 : S2048x128x2x32.ShapeCasts S2048x8192
  shapeCasts_S2048x8192_S2048x64x2x64 : S2048x8192.ShapeCasts S2048x64x2x64
  slices_S2048x64x2x64_S2048x64x1x64_0_0_0_0 : S2048x64x2x64.Slices ![0, 0, 0, 0] S2048x64x1x64
  shapeCasts_S2048x64x1x64_S2048x64x64 : S2048x64x1x64.ShapeCasts S2048x64x64
  slices_S2048x64x2x64_S2048x64x1x64_0_0_1_0 : S2048x64x2x64.Slices ![0, 0, 1, 0] S2048x64x1x64
  bcast_S2048x64x64_S2048x64x1x64_0_1_3 : S2048x64x64.BroadcastsInDim S2048x64x1x64 (![0, 1, 3] : Fin 3 → Fin S2048x64x1x64.rank)
  concatenates_S2048x64x1x64_S2048x64x1x64_S2048x64x2x64_d2 : Shape.Concatenates [S2048x64x1x64, S2048x64x1x64] S2048x64x2x64 2
  shapeCasts_S2048x64x2x64_S2048x8192 : S2048x64x2x64.ShapeCasts S2048x8192
  shapeCasts_S2048x8192_S2048x32x2x128 : S2048x8192.ShapeCasts S2048x32x2x128
  slices_S2048x32x2x128_S2048x32x1x128_0_0_0_0 : S2048x32x2x128.Slices ![0, 0, 0, 0] S2048x32x1x128
  shapeCasts_S2048x32x1x128_S2048x32x128 : S2048x32x1x128.ShapeCasts S2048x32x128
  slices_S2048x32x2x128_S2048x32x1x128_0_0_1_0 : S2048x32x2x128.Slices ![0, 0, 1, 0] S2048x32x1x128
  bcast_S2048x32x128_S2048x32x1x128_0_1_3 : S2048x32x128.BroadcastsInDim S2048x32x1x128 (![0, 1, 3] : Fin 3 → Fin S2048x32x1x128.rank)
  concatenates_S2048x32x1x128_S2048x32x1x128_S2048x32x2x128_d2 : Shape.Concatenates [S2048x32x1x128, S2048x32x1x128] S2048x32x2x128 2
  shapeCasts_S2048x32x2x128_S2048x8192 : S2048x32x2x128.ShapeCasts S2048x8192
  shapeCasts_S2048x8192_S2048x16x2x256 : S2048x8192.ShapeCasts S2048x16x2x256
  slices_S2048x16x2x256_S2048x16x1x256_0_0_0_0 : S2048x16x2x256.Slices ![0, 0, 0, 0] S2048x16x1x256
  shapeCasts_S2048x16x1x256_S2048x16x256 : S2048x16x1x256.ShapeCasts S2048x16x256
  slices_S2048x16x2x256_S2048x16x1x256_0_0_1_0 : S2048x16x2x256.Slices ![0, 0, 1, 0] S2048x16x1x256
  bcast_S2048x16x256_S2048x16x1x256_0_1_3 : S2048x16x256.BroadcastsInDim S2048x16x1x256 (![0, 1, 3] : Fin 3 → Fin S2048x16x1x256.rank)
  concatenates_S2048x16x1x256_S2048x16x1x256_S2048x16x2x256_d2 : Shape.Concatenates [S2048x16x1x256, S2048x16x1x256] S2048x16x2x256 2
  shapeCasts_S2048x16x2x256_S2048x8192 : S2048x16x2x256.ShapeCasts S2048x8192
  shapeCasts_S2048x8192_S2048x8x2x512 : S2048x8192.ShapeCasts S2048x8x2x512
  slices_S2048x8x2x512_S2048x8x1x512_0_0_0_0 : S2048x8x2x512.Slices ![0, 0, 0, 0] S2048x8x1x512
  shapeCasts_S2048x8x1x512_S2048x8x512 : S2048x8x1x512.ShapeCasts S2048x8x512
  slices_S2048x8x2x512_S2048x8x1x512_0_0_1_0 : S2048x8x2x512.Slices ![0, 0, 1, 0] S2048x8x1x512
  bcast_S2048x8x512_S2048x8x1x512_0_1_3 : S2048x8x512.BroadcastsInDim S2048x8x1x512 (![0, 1, 3] : Fin 3 → Fin S2048x8x1x512.rank)
  concatenates_S2048x8x1x512_S2048x8x1x512_S2048x8x2x512_d2 : Shape.Concatenates [S2048x8x1x512, S2048x8x1x512] S2048x8x2x512 2
  shapeCasts_S2048x8x2x512_S2048x8192 : S2048x8x2x512.ShapeCasts S2048x8192
  shapeCasts_S2048x8192_S2048x4x2x1024 : S2048x8192.ShapeCasts S2048x4x2x1024
  slices_S2048x4x2x1024_S2048x4x1x1024_0_0_0_0 : S2048x4x2x1024.Slices ![0, 0, 0, 0] S2048x4x1x1024
  shapeCasts_S2048x4x1x1024_S2048x4x1024 : S2048x4x1x1024.ShapeCasts S2048x4x1024
  slices_S2048x4x2x1024_S2048x4x1x1024_0_0_1_0 : S2048x4x2x1024.Slices ![0, 0, 1, 0] S2048x4x1x1024
  bcast_S2048x4x1024_S2048x4x1x1024_0_1_3 : S2048x4x1024.BroadcastsInDim S2048x4x1x1024 (![0, 1, 3] : Fin 3 → Fin S2048x4x1x1024.rank)
  concatenates_S2048x4x1x1024_S2048x4x1x1024_S2048x4x2x1024_d2 : Shape.Concatenates [S2048x4x1x1024, S2048x4x1x1024] S2048x4x2x1024 2
  shapeCasts_S2048x4x2x1024_S2048x8192 : S2048x4x2x1024.ShapeCasts S2048x8192
  shapeCasts_S2048x8192_S2048x2x2x2048 : S2048x8192.ShapeCasts S2048x2x2x2048
  slices_S2048x2x2x2048_S2048x2x1x2048_0_0_0_0 : S2048x2x2x2048.Slices ![0, 0, 0, 0] S2048x2x1x2048
  shapeCasts_S2048x2x1x2048_S2048x2x2048 : S2048x2x1x2048.ShapeCasts S2048x2x2048
  slices_S2048x2x2x2048_S2048x2x1x2048_0_0_1_0 : S2048x2x2x2048.Slices ![0, 0, 1, 0] S2048x2x1x2048
  bcast_S2048x2x2048_S2048x2x1x2048_0_1_3 : S2048x2x2048.BroadcastsInDim S2048x2x1x2048 (![0, 1, 3] : Fin 3 → Fin S2048x2x1x2048.rank)
  concatenates_S2048x2x1x2048_S2048x2x1x2048_S2048x2x2x2048_d2 : Shape.Concatenates [S2048x2x1x2048, S2048x2x1x2048] S2048x2x2x2048 2
  shapeCasts_S2048x2x2x2048_S2048x8192 : S2048x2x2x2048.ShapeCasts S2048x8192
  shapeCasts_S2048x8192_S2048x1x2x4096 : S2048x8192.ShapeCasts S2048x1x2x4096
  slices_S2048x1x2x4096_S2048x1x1x4096_0_0_0_0 : S2048x1x2x4096.Slices ![0, 0, 0, 0] S2048x1x1x4096
  shapeCasts_S2048x1x1x4096_S2048x1x4096 : S2048x1x1x4096.ShapeCasts S2048x1x4096
  slices_S2048x1x2x4096_S2048x1x1x4096_0_0_1_0 : S2048x1x2x4096.Slices ![0, 0, 1, 0] S2048x1x1x4096
  bcast_S2048x1x4096_S2048x1x1x4096_0_1_3 : S2048x1x4096.BroadcastsInDim S2048x1x1x4096 (![0, 1, 3] : Fin 3 → Fin S2048x1x1x4096.rank)
  concatenates_S2048x1x1x4096_S2048x1x1x4096_S2048x1x2x4096_d2 : Shape.Concatenates [S2048x1x1x4096, S2048x1x1x4096] S2048x1x2x4096 2
  shapeCasts_S2048x1x2x4096_S2048x8192 : S2048x1x2x4096.ShapeCasts S2048x8192
  bcast_S_S2048x8192 : S_.BroadcastsInDim S2048x8192 (![] : Fin 0 → Fin S2048x8192.rank)
  gather_S2048x8192_S8192x1_S2048x8192_0_1_n_n_1_1_20481_wf : GatherDims.WF S2048x8192 S8192x1 S2048x8192 [0] [1] [] [1] [] 1 ![2048, 1]

variable [Facts₀]

def gather_S2048x8192_S8192x1_S2048x8192_0_1_n_n_1_1_20481 : GatherDims S2048x8192 S8192x1 S2048x8192 where
  offsetDims := [0]
  collapsedSliceDims := [1]
  operandBatchingDims := []
  startIndicesBatchingDims := []
  startIndexMap := [1]
  indexVectorDim := 1
  sliceSizes := ![2048, 1]
  wf := gather_S2048x8192_S8192x1_S2048x8192_0_1_n_n_1_1_20481_wf

class Facts : Prop extends Facts₀ where

variable [Facts]
-- ==== Proof.Finite.lean ====
import proofs.«427721_j65506841198938_3_alg».proof.Proof.Gen.Pre_finite_inputs
import Idealize.ShloMosaic.PureOps.Ideal
import Idealize.ShloMosaic.Lib.ReduceAll
import Idealize.ShloMosaic.Lib.ValueIdx

/-!
# What the precondition says of the arguments

The precondition is the conjunction of five `jnp.all (|a| < +inf)` tests on the float arguments and of
`jnp.all (0 ≤ P ∧ P < 8192)` on the index argument.  Read back: the arrays `x`, `B`, `G` hold no infinite
entry (so each is the coercion of a real table), and every index lies in `[0, 8192)`.
-/

noncomputable section

namespace Cert.Finite

open Idealize.ShloMosaic Idealize.ShloMosaic.ValueIdx Cert.Pre_finite_inputs Cert.Pre_finite_inputs.Gen

/-- The scalar shape has one index. -/
private instance : Subsingleton S_.Idx := ⟨fun _ _ => funext fun d => d.elim0⟩

/-- The pattern `0x7F800000` (sign 0, exponent all ones, fraction 0) denotes `+∞`. -/
private theorem ofBits_inf : Ideal.ofBits .f32 0x7F800000#32 = (⊤ : EReal) := by
  simp [Ideal.ofBits, Ideal.ieee]

/-- `|x| < +∞` on the extended reals: `x` is neither infinity, since `max x (-x) = ⊤` at both. -/
private theorem finite_of_abs_lt (x : EReal) (h : Ideal.cmp .olt (max x (-x)) ⊤ = 1#1) : x ≠ ⊤ ∧ x ≠ ⊥ := by
  have hlt : max x (-x) < ⊤ := by
    by_contra hn
    simp [Ideal.cmp, hn] at h
  induction x using EReal.rec with
  | bot => simp at hlt
  | coe r => exact ⟨EReal.coe_ne_top r, EReal.coe_ne_bot r⟩
  | top => simp at hlt

/-- One `jnp.all (|a| < +inf)` test that came out true: no entry of `a` is infinite. -/
private theorem finite_of_all {s : Shape} (a : FVec Ideal s .f32) (hb : S_.BroadcastsInDim s (![] : Fin 0 → Fin s.rank))
    {axes : List (Fin s.rank)} (hr : s.ReducesTo axes S_) (hu : 0 < S_.numel) (init : IVec S_ 1) (j : S_.Idx)
    (e : Host.reduce IntOp.andi (cmpf .olt (Host.absf a) (broadcastInDim s ![] hb (constant S_ .f32 0x7F800000#32))) init hr hu j = 1#1)
    (i : s.Idx) : a i ≠ ⊤ ∧ a i ≠ ⊥ := by
  have hi := Host.reduce_andi_all _ init hr hu j e i
  refine finite_of_abs_lt (a i) ?_
  rw [← ofBits_inf]
  exact hi

/-- The precondition read back at the ideal instance. -/
theorem of_pre (a0 : FVec Ideal S2x512x2x2048 .f32) (a1 : FVec Ideal S2048 .f32) (a2 a3 : FVec Ideal S8192 .f32)
    (a4 : IVec S8192 32) (a5 : FVec Ideal S8192 .f32)
    (h : Cert.Pre_finite_inputs.fn (F := Ideal) a0 a1 a2 a3 a4 a5 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥)
      ∧ (∀ i, 0 ≤ (a4 i).toInt ∧ (a4 i).toInt < 8192) := by
  have h0 := congrFun h ValueIdx.ix0
  dsimp only [Cert.Pre_finite_inputs.fn, Cert.Pre_finite_inputs.fn_part1] at h0
  -- the chain of conjunctions, outermost first: the index test, then the tests of `a5`, `a3`, `a2`, `a1`, `a0`
  change IntOp.andi _ _ = 1#1 at h0
  obtain ⟨h0, h4⟩ := IntOp.andi_eq_one.1 h0
  change IntOp.andi _ _ = 1#1 at h0
  obtain ⟨h0, -⟩ := IntOp.andi_eq_one.1 h0
  change IntOp.andi _ _ = 1#1 at h0
  obtain ⟨h0, -⟩ := IntOp.andi_eq_one.1 h0
  change IntOp.andi _ _ = 1#1 at h0
  obtain ⟨h0, h2⟩ := IntOp.andi_eq_one.1 h0
  change IntOp.andi _ _ = 1#1 at h0
  obtain ⟨h0, h1⟩ := IntOp.andi_eq_one.1 h0
  refine ⟨finite_of_all a0 _ _ _ _ _ h0, finite_of_all a1 _ _ _ _ _ h1, finite_of_all a2 _ _ _ _ _ h2, fun i => ?_⟩
  -- the index test at `i`: `0 ≤ a4 i` and `a4 i < 8192` as signed words
  have hi := Host.reduce_andi_all _ _ _ _ _ h4 i
  change IntOp.andi (IntOp.cmpi .sge (a4 i) 0#32) (IntOp.cmpi .slt (a4 i) 8192#32) = 1#1 at hi
  obtain ⟨hge, hlt⟩ := IntOp.andi_eq_one.1 hi
  rw [IntOp.cmpi_sge, show (0#32 : BitVec 32).toInt = 0 from by decide] at hge
  rw [IntOp.cmpi_slt, show (8192#32 : BitVec 32).toInt = 8192 from by decide] at hlt
  exact ⟨hge, hlt⟩

end Cert.Finite

end
-- ==== Proof.Hadamard.lean ====
import Mathlib.Data.Real.Basic
import Mathlib.Algebra.BigOperators.Group.Finset.Basic
import Mathlib.Algebra.BigOperators.Ring.Finset
import Mathlib.Algebra.Order.BigOperators.Group.Finset
import Mathlib.Data.Nat.Bitwise
import Mathlib.Tactic.Ring
import Mathlib.Tactic.Linarith
import Mathlib.Tactic.NormNum

/-!
# The Sylvester–Hadamard transform: butterflies, signs, Kronecker factors

Pure mathematics over the reals, on sequences indexed by the naturals.
`hsign k i j = (-1)^(number of bit positions below k set in both i and j)` is the entry of the
Sylvester–Hadamard matrix of order `2^k`.  Three facts are proved about it:
* the fast transform — `k` butterfly passes of strides `1, 2, …, 2^(k-1)` — computes, inside every
  aligned block of `2^k` entries, the product with that matrix (`bflyChain_eq`);
* the matrix of order `2^(ka+kb)` is the Kronecker product of those of orders `2^ka` and `2^kb`,
  so contracting the low index and then the high index computes the same product (`kron_wht`);
* the parity of the common bits of two numbers below 128 is what folding the word `i &&& j` onto
  its lowest bit by shifted exclusive-ors leaves there (`xorfold_toInt`).
-/

namespace Cert.Hadamard

open Finset

/-- Bit `k` of `i`. -/
def bitAt (i k : ℕ) : Bool := decide ((i / 2 ^ k) % 2 = 1)

/-- The parity of the number of positions below `k` at which `i` and `j` both have a set bit. -/
def hpar : ℕ → ℕ → ℕ → Bool
  | 0, _, _ => false
  | k + 1, i, j => xor (hpar k i j) (bitAt i k && bitAt j k)

/-- The Sylvester–Hadamard sign of order `2^k` at `(i, j)`. -/
noncomputable def hsign (k i j : ℕ) : ℝ := if hpar k i j then -1 else 1

/-- One butterfly pass of stride `h`: entries `i` and `i + h` (bit `h` of `i` clear) become their sum and
    their difference. -/
noncomputable def bfly (h : ℕ) (f : ℕ → ℝ) : ℕ → ℝ :=
  fun i => if (i / h) % 2 = 0 then f i + f (i + h) else f (i - h) - f i

/-- The first `k` passes of the fast transform: strides `1, 2, …, 2^(k-1)`, in that order. -/
noncomputable def bflyChain : ℕ → (ℕ → ℝ) → ℕ → ℝ
  | 0, f => f
  | k + 1, f => bfly (2 ^ k) (bflyChain k f)

/-- `bitAt` is the library's bit test. -/
theorem bitAt_eq_testBit (i k : ℕ) : bitAt i k = i.testBit k := by
  unfold bitAt
  rw [Nat.testBit_eq_decide_div_mod_eq]

/-- `hpar k` reads only the bits below `k` of its first argument. -/
theorem hpar_congr_left (k i i' j : ℕ) (h : ∀ t, t < k → i.testBit t = i'.testBit t) :
    hpar k i j = hpar k i' j := by
  induction k with
  | zero => rfl
  | succ k ih =>
    simp only [hpar, bitAt_eq_testBit]
    rw [ih (fun t ht => h t (Nat.lt_succ_of_lt ht)), h k (Nat.lt_succ_self k)]

/-- `hpar k` reads only the bits below `k` of its second argument. -/
theorem hpar_congr_right (k i j j' : ℕ) (h : ∀ t, t < k → j.testBit t = j'.testBit t) :
    hpar k i j = hpar k i j' := by
  induction k with
  | zero => rfl
  | succ k ih =>
    simp only [hpar, bitAt_eq_testBit]
    rw [ih (fun t ht => h t (Nat.lt_succ_of_lt ht)), h k (Nat.lt_succ_self k)]

/-- Adding `2^k` to the first argument does not change the parity of the common bits below `k`. -/
theorem hpar_two_pow_add_left (k i j : ℕ) : hpar k (2 ^ k + i) j = hpar k i j :=
  hpar_congr_left k _ _ j (fun _ ht => Nat.testBit_two_pow_add_gt ht i)

/-- Adding `2^k` to the second argument does not change the parity of the common bits below `k`. -/
theorem hpar_two_pow_add_right (k i j : ℕ) : hpar k i (2 ^ k + j) = hpar k i j :=
  hpar_congr_right k i _ _ (fun _ ht => Nat.testBit_two_pow_add_gt ht j)

/-- Position `k` contributes nothing when the first argument is below `2^k`. -/
theorem hpar_succ_of_lt_left (k i j : ℕ) (hi : i < 2 ^ k) : hpar (k + 1) i j = hpar k i j := by
  simp only [hpar, bitAt_eq_testBit, Nat.testBit_lt_two_pow hi, Bool.false_and, Bool.xor_false]

/-- Position `k` contributes nothing when the second argument is below `2^k`. -/
theorem hpar_succ_of_lt_right (k i j : ℕ) (hj : j < 2 ^ k) : hpar (k + 1) i j = hpar k i j := by
  simp only [hpar, bitAt_eq_testBit, Nat.testBit_lt_two_pow hj, Bool.and_false, Bool.xor_false]

/-- Position `k` flips the parity when both arguments have bit `k` set. -/
theorem hpar_succ_two_pow_add (k i j : ℕ) (hi : i < 2 ^ k) (hj : j < 2 ^ k) :
    hpar (k + 1) (2 ^ k + i) (2 ^ k + j) = !hpar k i j := by
  simp only [hpar, bitAt_eq_testBit, Nat.testBit_two_pow_add_eq, Nat.testBit_lt_two_pow hi,
    Nat.testBit_lt_two_pow hj, Bool.not_false, Bool.and_self, Bool.xor_true,
    hpar_two_pow_add_left, hpar_two_pow_add_right]

/-- A pass of stride `h` at a position whose bit `h` is clear: the sum of the two halves. -/
theorem bfly_lo (h : ℕ) (hpos : 0 < h) (g : ℕ → ℝ) (q j : ℕ) (hj : j < h) :
    bfly h g (2 * q * h + j) = g (2 * q * h + j) + g ((2 * q + 1) * h + j) := by
  have hd : (2 * q * h + j) / h = 2 * q := by
    rw [Nat.add_comm, Nat.add_mul_div_right _ _ hpos, Nat.div_eq_of_lt hj, Nat.zero_add]
  have hm : (2 * q * h + j) / h % 2 = 0 := by rw [hd]; exact Nat.mul_mod_right 2 q
  have e : 2 * q * h + j + h = (2 * q + 1) * h + j := by ring
  unfold bfly
  rw [if_pos hm, e]

/-- A pass of stride `h` at a position whose bit `h` is set: the difference of the two halves. -/
theorem bfly_hi (h : ℕ) (hpos : 0 < h) (g : ℕ → ℝ) (q j : ℕ) (hj : j < h) :
    bfly h g ((2 * q + 1) * h + j) = g (2 * q * h + j) - g ((2 * q + 1) * h + j) := by
  have hd : ((2 * q + 1) * h + j) / h = 2 * q + 1 := by
    rw [Nat.add_comm, Nat.add_mul_div_right _ _ hpos, Nat.div_eq_of_lt hj, Nat.zero_add]
  have hm : ¬ (((2 * q + 1) * h + j) / h % 2 = 0) := by
    rw [hd, Nat.add_mod, Nat.mul_mod_right]; decide
  have e : (2 * q + 1) * h + j - h = 2 * q * h + j := by
    have : (2 * q + 1) * h + j = 2 * q * h + j + h := by ring
    rw [this, Nat.add_sub_cancel]
  unfold bfly
  rw [if_neg hm, e]

/-- After `k` passes every aligned block of `2^k` entries holds the Hadamard transform of that block. -/
theorem bflyChain_eq (k : ℕ) (f : ℕ → ℝ) (q j : ℕ) (hj : j < 2 ^ k) :
    bflyChain k f (q * 2 ^ k + j) = ∑ i ∈ range (2 ^ k), hsign k i j * f (q * 2 ^ k + i) := by
  induction k generalizing q j with
  | zero =>
    have hj0 : j = 0 := by simpa using hj
    subst hj0
    simp [bflyChain, hsign, hpar]
  | succ k ih =>
    have hp : 0 < 2 ^ k := Nat.two_pow_pos k
    have h2 : 2 ^ (k + 1) = 2 ^ k + 2 ^ k := by rw [pow_succ]; ring
    have hsplit : ∑ i ∈ range (2 ^ (k + 1)), hsign (k + 1) i j * f (q * 2 ^ (k + 1) + i)
        = ∑ i ∈ range (2 ^ k), hsign (k + 1) i j * f (2 * q * 2 ^ k + i)
          + ∑ i ∈ range (2 ^ k), hsign (k + 1) (2 ^ k + i) j * f ((2 * q + 1) * 2 ^ k + i) := by
      rw [h2, Finset.sum_range_add]
      congr 1
      · refine Finset.sum_congr rfl (fun i _ => ?_)
        congr 2; ring
      · refine Finset.sum_congr rfl (fun i _ => ?_)
        congr 2; ring
    rw [hsplit]
    show bfly (2 ^ k) (bflyChain k f) (q * 2 ^ (k + 1) + j) = _
    by_cases hjk : j < 2 ^ k
    · have e : q * 2 ^ (k + 1) + j = 2 * q * 2 ^ k + j := by rw [pow_succ]; ring
      rw [e, bfly_lo _ hp _ _ _ hjk, ih (2 * q) j hjk, ih (2 * q + 1) j hjk]
      congr 1
      · refine Finset.sum_congr rfl (fun i _ => ?_)
        unfold hsign
        rw [hpar_succ_of_lt_right k i j hjk]
      · refine Finset.sum_congr rfl (fun i _ => ?_)
        unfold hsign
        rw [hpar_succ_of_lt_right k _ j hjk, hpar_two_pow_add_left]
    · obtain ⟨j', rfl⟩ : ∃ j', j = 2 ^ k + j' := ⟨j - 2 ^ k, by omega⟩
      have hj' : j' < 2 ^ k := by omega
      have e : q * 2 ^ (k + 1) + (2 ^ k + j') = (2 * q + 1) * 2 ^ k + j' := by rw [pow_succ]; ring
      rw [e, bfly_hi _ hp _ _ _ hj', ih (2 * q) j' hj', ih (2 * q + 1) j' hj', sub_eq_add_neg,
        ← Finset.sum_neg_distrib]
      congr 1
      · refine Finset.sum_congr rfl (fun i hi => ?_)
        have hi' : i < 2 ^ k := Finset.mem_range.mp hi
        unfold hsign
        rw [hpar_succ_of_lt_left k i _ hi', hpar_two_pow_add_right]
      · refine Finset.sum_congr rfl (fun i hi => ?_)
        have hi' : i < 2 ^ k := Finset.mem_range.mp hi
        unfold hsign
        rw [hpar_succ_two_pow_add k i j' hi' hj']
        cases hpar k i j' <;> simp

/-- The whole transform of the first `2^k` entries. -/
theorem bflyChain_eq_zero (k : ℕ) (f : ℕ → ℝ) (j : ℕ) (hj : j < 2 ^ k) :
    bflyChain k f j = ∑ i ∈ range (2 ^ k), hsign k i j * f i := by
  have h := bflyChain_eq k f 0 j hj
  simpa using h

/-- Positions at or above `k` do not matter when one argument is below `2^k`. -/
theorem hpar_of_lt (k k' i j : ℕ) (hk : k ≤ k') (hi : i < 2 ^ k) : hpar k' i j = hpar k i j := by
  induction k', hk using Nat.le_induction with
  | base => rfl
  | succ k' hk ih =>
    have hb : i.testBit k' = false :=
      Nat.testBit_lt_two_pow (lt_of_lt_of_le hi (Nat.pow_le_pow_right (by norm_num) hk))
    simp only [hpar, bitAt_eq_testBit, hb, Bool.false_and, Bool.xor_false]
    exact ih

/-- The parity of common bits of two numbers written as a high part and a low part of `kb` bits is the
    exclusive-or of the parities of the high parts and of the low parts. -/
theorem hpar_kron (ka kb ihi ilo jhi jlo : ℕ) (hilo : ilo < 2 ^ kb) (hjlo : jlo < 2 ^ kb) :
    hpar (ka + kb) (ihi * 2 ^ kb + ilo) (jhi * 2 ^ kb + jlo)
      = xor (hpar ka ihi jhi) (hpar kb ilo jlo) := by
  induction ka with
  | zero =>
    rw [Nat.zero_add]
    have h1 : hpar kb (ihi * 2 ^ kb + ilo) (jhi * 2 ^ kb + jlo) = hpar kb ilo (jhi * 2 ^ kb + jlo) :=
      hpar_congr_left kb _ _ _ (fun t ht => by
        rw [Nat.mul_comm, Nat.testBit_two_pow_mul_add _ hilo, if_pos ht])
    have h2 : hpar kb ilo (jhi * 2 ^ kb + jlo) = hpar kb ilo jlo :=
      hpar_congr_right kb _ _ _ (fun t ht => by
        rw [Nat.mul_comm, Nat.testBit_two_pow_mul_add _ hjlo, if_pos ht])
    rw [h1, h2]
    simp [hpar]
  | succ ka ih =>
    rw [Nat.add_right_comm]
    have hb : ∀ x lo : ℕ, lo < 2 ^ kb → (x * 2 ^ kb + lo).testBit (ka + kb) = x.testBit ka := by
      intro x lo hlo
      rw [Nat.mul_comm, Nat.testBit_two_pow_mul_add _ hlo, if_neg (by omega), Nat.add_sub_cancel]
    simp only [hpar, bitAt_eq_testBit, hb _ _ hilo, hb _ _ hjlo]
    rw [ih]
    cases hpar ka ihi jhi <;> cases hpar kb ilo jlo <;> cases (ihi.testBit ka && jhi.testBit ka) <;> rfl

/-- The Hadamard matrix of order `2^(ka+kb)` is the Kronecker product of those of orders `2^ka`, `2^kb`. -/
theorem hsign_kron (ka kb ihi ilo jhi jlo : ℕ) (hilo : ilo < 2 ^ kb) (hjlo : jlo < 2 ^ kb) :
    hsign (ka + kb) (ihi * 2 ^ kb + ilo) (jhi * 2 ^ kb + jlo)
      = hsign ka ihi jhi * hsign kb ilo jlo := by
  unfold hsign
  rw [hpar_kron ka kb ihi ilo jhi jlo hilo hjlo]
  cases hpar ka ihi jhi <;> cases hpar kb ilo jlo <;> simp

/-- A sum over `n * m` consecutive naturals, as a sum over `n` blocks of `m`. -/
theorem sum_range_mul_eq (n m : ℕ) (F : ℕ → ℝ) :
    ∑ i ∈ range (n * m), F i = ∑ a ∈ range n, ∑ b ∈ range m, F (a * m + b) := by
  induction n with
  | zero => simp
  | succ n ih =>
    rw [Nat.succ_mul, Finset.sum_range_add, Finset.sum_range_succ, ih]

/-- Kronecker factorisation: contracting the low `kb` bits and then the high `ka` bits is the transform of
    order `2^(ka+kb)`. -/
theorem kron_wht (ka kb : ℕ) (f : ℕ → ℝ) (jhi jlo : ℕ) (hjhi : jhi < 2 ^ ka) (hjlo : jlo < 2 ^ kb) :
    ∑ ihi ∈ range (2 ^ ka), (∑ ilo ∈ range (2 ^ kb), f (ihi * 2 ^ kb + ilo) * hsign kb ilo jlo) * hsign ka ihi jhi
      = ∑ i ∈ range (2 ^ (ka + kb)), hsign (ka + kb) i (jhi * 2 ^ kb + jlo) * f i := by
  rw [pow_add, sum_range_mul_eq]
  refine Finset.sum_congr rfl (fun ihi _ => ?_)
  rw [Finset.sum_mul]
  refine Finset.sum_congr rfl (fun ilo hilo => ?_)
  rw [hsign_kron ka kb ihi ilo jhi jlo (Finset.mem_range.mp hilo) hjlo]
  ring

/-- Folding a 32-bit word onto its lowest bit by exclusive-ors with its arithmetic shifts by 16, 8, 4, 2, 1. -/
def xorfold (v : BitVec 32) : BitVec 32 :=
  let v1 := v ^^^ v.sshiftRight 16
  let v2 := v1 ^^^ v1.sshiftRight 8
  let v3 := v2 ^^^ v2.sshiftRight 4
  let v4 := v3 ^^^ v3.sshiftRight 2
  let v5 := v4 ^^^ v4.sshiftRight 1
  v5 &&& 1#32

/-- The parity of the bits of `v` at positions below `k`. -/
def bpar : ℕ → ℕ → Bool
  | 0, _ => false
  | k + 1, v => xor (bpar k v) (bitAt v k)

/-- The parity of the common bits of `i` and `j` is the parity of the bits of `i &&& j`. -/
theorem hpar_eq_bpar_and (k i j : ℕ) : hpar k i j = bpar k (i &&& j) := by
  induction k with
  | zero => rfl
  | succ k ih => simp only [hpar, bpar, bitAt_eq_testBit, Nat.testBit_and, ih]

/-- The fold leaves the parity of the bits of a word below 128, checked on each of the 128 words. -/
theorem xorfold_toInt_word : ∀ v : Fin 128,
    (xorfold (BitVec.ofNat 32 v.val)).toInt = if bpar 7 v.val then 1 else 0 := by
  decide +kernel

/-- For two numbers below 128 the fold of their bitwise conjunction is the parity of their common bits. -/
theorem xorfold_toInt (i j : ℕ) (hi : i < 128) (hj : j < 128) :
    (xorfold (BitVec.ofNat 32 i &&& BitVec.ofNat 32 j)).toInt = if hpar 7 i j then 1 else 0 := by
  have hlt : i &&& j < 128 := lt_of_le_of_lt Nat.and_le_left hi
  rw [← BitVec.ofNat_and, hpar_eq_bpar_and]
  exact xorfold_toInt_word ⟨i &&& j, hlt⟩

/-- The fold identity on every pair of numbers below 128. -/
theorem xorfold_toInt_fin : ∀ i j : Fin 128,
    (xorfold (BitVec.ofNat 32 i.val &&& BitVec.ofNat 32 j.val)).toInt
      = if hpar 7 i.val j.val then 1 else 0 :=
  fun i j => xorfold_toInt i.val j.val i.isLt j.isLt

/-- The sign matrix entry a kernel builds as `1 - 2 * parity`. -/
theorem one_sub_two_mul_xorfold (k i j : ℕ) (hk : k ≤ 7) (hi : i < 2 ^ k) (hj : j < 2 ^ k) :
    (1 : ℝ) - 2 * (((xorfold (BitVec.ofNat 32 i &&& BitVec.ofNat 32 j)).toInt : ℤ) : ℝ) = hsign k i j := by
  have hk2 : (2 : ℕ) ^ k ≤ 128 := by
    calc (2 : ℕ) ^ k ≤ 2 ^ 7 := Nat.pow_le_pow_right (by norm_num) hk
      _ = 128 := by norm_num
  have hi7 : hpar 7 i j = hpar k i j := hpar_of_lt k 7 i j hk hi
  rw [xorfold_toInt i j (lt_of_lt_of_le hi hk2) (lt_of_lt_of_le hj hk2), hi7]
  unfold hsign
  cases hpar k i j <;> norm_num

end Cert.Hadamard
-- ==== Proof.Spec.lean ====
import Idealize.ShloMosaic.PureOps.Ideal
import Idealize.ShloMosaic.Lib.ValueIdx
import proofs.«427721_j65506841198938_3_alg».proof.Proof.Hadamard

/-!
# The common vocabulary of the value proof

Both programs are shown to compute ONE function of the argument arrays.  That function is written over
real tables indexed by naturals (row, column), so that the index arithmetic of the transforms is plain
arithmetic of naturals:

* `V r i = x r i * b i` — the input scaled by the signs `B`;
* `Y r j = ∑ i < 2048, hsign 11 i j * V r i` — the Hadamard transform of order 2048 of every row;
* `Z r q = Y r (p q % 2048) * g q` — the permuted, Gaussian-scaled copy of width 8192 (the tiling of `Y` four
  times along the row has period 2048, so reading the tiled row at `p q` is reading `Y` at `p q % 2048`);
* `HG r o = ∑ q < 8192, hsign 13 q o * Z r q` — the Hadamard transform of order 8192;
* the result `cos (HG r o * S o * c + 2π * U o) * c₂`, taken in the extended reals with the three constants as
  the programs spell them.

`Rep1`, `Rep2`, `Rep4` say that an array of extended reals IS (the coercion of) such a real table.
-/

noncomputable section

namespace Cert.Spec

open Idealize.ShloMosaic Idealize.ShloMosaic.ValueIdx Finset Cert.Hadamard

/-- A vector of extended reals is the real sequence `b`. -/
def Rep1 {n : ℕ} (v : (⟨1, ![n]⟩ : Shape).Idx → EReal) (b : ℕ → ℝ) : Prop :=
  ∀ idx, v idx = ((b (idx 0).val : ℝ) : EReal)

/-- A matrix of extended reals is the real table `X` (row, column). -/
def Rep2 {R n : ℕ} (z : (⟨2, ![R, n]⟩ : Shape).Idx → EReal) (X : ℕ → ℕ → ℝ) : Prop :=
  ∀ idx, z idx = ((X (idx 0).val (idx 1).val : ℝ) : EReal)

/-- A rank-4 array `[R, q, 2, h]` of extended reals is the real table `X` with its row of length `q * 2 * h`
    cut into `q` groups of two halves of length `h`: entry `(r, a, s, t)` is `X r (a * (2 * h) + s * h + t)`. -/
def Rep4 {R q h : ℕ} (y : (⟨4, ![R, q, 2, h]⟩ : Shape).Idx → EReal) (X : ℕ → ℕ → ℝ) : Prop :=
  ∀ idx, y idx = ((X (idx 0).val ((idx 1).val * (2 * h) + (idx 2).val * h + (idx 3).val) : ℝ) : EReal)

/-- The real sequence of a vector (zero outside its extent). -/
def tab1 {n : ℕ} (v : (⟨1, ![n]⟩ : Shape).Idx → EReal) : ℕ → ℝ :=
  fun i => if h : i < n then EReal.toReal (v (ix1 ⟨i, h⟩)) else 0

/-- The real table of a matrix (zero outside its extents). -/
def tab2 {R n : ℕ} (z : (⟨2, ![R, n]⟩ : Shape).Idx → EReal) : ℕ → ℕ → ℝ :=
  fun r i => if h : r < R ∧ i < n then EReal.toReal (z (ix2 ⟨r, h.1⟩ ⟨i, h.2⟩)) else 0

/-- A vector with no infinite entry is its real sequence. -/
theorem rep1_tab1 {n : ℕ} (v : (⟨1, ![n]⟩ : Shape).Idx → EReal) (hfin : ∀ idx, v idx ≠ ⊤ ∧ v idx ≠ ⊥) :
    Rep1 v (tab1 v) := by
  intro idx
  have e : idx = ix1 (idx 0) := eq_ix1 idx
  have h0 : (idx 0).val < n := (idx 0).isLt
  have e' : (ix1 ⟨(idx 0).val, h0⟩ : (⟨1, ![n]⟩ : Shape).Idx) = idx := e.symm
  unfold tab1
  rw [dif_pos h0, e', EReal.coe_toReal (hfin idx).1 (hfin idx).2]

/-- A matrix with no infinite entry is its real table. -/
theorem rep2_tab2 {R n : ℕ} (z : (⟨2, ![R, n]⟩ : Shape).Idx → EReal) (hfin : ∀ idx, z idx ≠ ⊤ ∧ z idx ≠ ⊥) :
    Rep2 z (tab2 z) := by
  intro idx
  have e : idx = ix2 (idx 0) (idx 1) := eq_ix2 idx
  have h0 : (idx 0).val < R := (idx 0).isLt
  have h1 : (idx 1).val < n := (idx 1).isLt
  have e' : (ix2 ⟨(idx 0).val, h0⟩ ⟨(idx 1).val, h1⟩ : (⟨2, ![R, n]⟩ : Shape).Idx) = idx := e.symm
  unfold tab2
  rw [dif_pos ⟨h0, h1⟩, e', EReal.coe_toReal (hfin idx).1 (hfin idx).2]

/-- The naturals a vector of 32-bit indices holds (zero outside its extent). -/
def ptab (P : (⟨1, ![8192]⟩ : Shape).Idx → BitVec 32) : ℕ → ℕ :=
  fun i => if h : i < 8192 then (P (ix1 ⟨i, h⟩)).toNat else 0

/-- The input scaled by the signs. -/
def Vtab (X : ℕ → ℕ → ℝ) (b : ℕ → ℝ) : ℕ → ℕ → ℝ := fun r i => X r i * b i

/-- The Hadamard transform of order 2048 of every row. -/
def Ytab (V : ℕ → ℕ → ℝ) : ℕ → ℕ → ℝ := fun r j => ∑ i ∈ range 2048, hsign 11 i j * V r i

/-- The permuted and scaled copy of width 8192. -/
def Ztab (Y : ℕ → ℕ → ℝ) (p : ℕ → ℕ) (g : ℕ → ℝ) : ℕ → ℕ → ℝ := fun r q => Y r (p q % 2048) * g q

/-- The Hadamard transform of order 8192 of every row. -/
def HGtab (Z : ℕ → ℕ → ℝ) : ℕ → ℕ → ℝ := fun r o => ∑ q ∈ range 8192, hsign 13 q o * Z r q

/-- The scale `1 / sqrt 8192` as both programs spell it. -/
def cS : EReal := Ideal.ofBits .f32 0x3C3504F3#32
/-- The constant `2π` as both programs spell it. -/
def cTP : EReal := Ideal.ofBits .f32 0x40C90FDB#32
/-- The scale `sqrt (2 / 8192)` as both programs spell it. -/
def cN : EReal := Ideal.ofBits .f32 0x3C800000#32

/-- The cosine feature of one transformed entry. -/
def tail (hg s u : EReal) : EReal := Ideal.cos (hg * s * cS + cTP * u) * cN

/-- The result array as one function of the real tables of `x`, `B`, `G`, the indices `P` and the arrays `S`, `U`. -/
def OUT (X : ℕ → ℕ → ℝ) (b g : ℕ → ℝ) (p : ℕ → ℕ) (S U : (⟨1, ![8192]⟩ : Shape).Idx → EReal) :
    (⟨2, ![2048, 8192]⟩ : Shape).Idx → EReal :=
  fun idx => tail ((HGtab (Ztab (Ytab (Vtab X b)) p g) (idx 0).val (idx 1).val : ℝ) : EReal) (S (ix1 (idx 1))) (U (ix1 (idx 1)))

end Cert.Spec

end
-- ==== Proof.KernBody0.lean ====
import proofs.«427721_j65506841198938_3_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«427721_j65506841198938_3_alg».proof.Proof.Spec

noncomputable section

namespace Cert.KernBody0

open Idealize.ShloMosaic Idealize.ShloMosaic.ValueIdx Cert.KernelIdeal Cert.KernelIdeal.Gen Cert.Spec Cert.Hadamard Finset

/-!
# The first kernel's body on real tables

The body multiplies the block by the row of signs, cuts each row of 2048 = 16 * 128 entries into 16 rows of 128,
multiplies by the sign matrix of order 128, regroups so that the 16 pieces of a row become a row of 16, multiplies by
the sign matrix of order 16, and regroups back.  Each product is taken three times: with the operand, with the
operand's difference from itself, and with the difference of that difference from itself; on a finite operand the two
differences are zero, so only the first product remains.  Entry `(r, jhi * 128 + jlo)` of the result is therefore
`∑ ihi < 16, (∑ ilo < 128, V r (ihi * 128 + ilo) * H₇ ilo jlo) * H₄ ihi jhi`, which the Kronecker factorisation of
the Sylvester–Hadamard matrix turns into `∑ i < 2048, H₁₁ i (jhi * 128 + jlo) * V r i`.
-/

/-! ## Coercions of finite sums -/

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite value minus itself is zero. -/
theorem coe_sub_self (t : ℝ) : ((t : ℝ) : EReal) - ((t : ℝ) : EReal) = 0 := by
  rw [← EReal.coe_sub, sub_self, EReal.coe_zero]

/-! ## The sign word -/

/-- The word chain of the sign matrix at one entry: the conjunction of the two coordinates folded onto its lowest bit. -/
theorem fold_word (v : BitVec 32) :
    IntOp.andi
      (IntOp.xori
        (IntOp.xori (IntOp.xori (IntOp.xori (IntOp.xori v (IntOp.shrsi .vector v 16#32))
          (IntOp.shrsi .vector (IntOp.xori v (IntOp.shrsi .vector v 16#32)) 8#32))
          (IntOp.shrsi .vector (IntOp.xori (IntOp.xori v (IntOp.shrsi .vector v 16#32))
            (IntOp.shrsi .vector (IntOp.xori v (IntOp.shrsi .vector v 16#32)) 8#32)) 4#32))
          (IntOp.shrsi .vector (IntOp.xori (IntOp.xori (IntOp.xori v (IntOp.shrsi .vector v 16#32))
            (IntOp.shrsi .vector (IntOp.xori v (IntOp.shrsi .vector v 16#32)) 8#32))
            (IntOp.shrsi .vector (IntOp.xori (IntOp.xori v (IntOp.shrsi .vector v 16#32))
              (IntOp.shrsi .vector (IntOp.xori v (IntOp.shrsi .vector v 16#32)) 8#32)) 4#32)) 2#32))
        (IntOp.shrsi .vector (IntOp.xori (IntOp.xori (IntOp.xori (IntOp.xori v (IntOp.shrsi .vector v 16#32))
          (IntOp.shrsi .vector (IntOp.xori v (IntOp.shrsi .vector v 16#32)) 8#32))
          (IntOp.shrsi .vector (IntOp.xori (IntOp.xori v (IntOp.shrsi .vector v 16#32))
            (IntOp.shrsi .vector (IntOp.xori v (IntOp.shrsi .vector v 16#32)) 8#32)) 4#32))
          (IntOp.shrsi .vector (IntOp.xori (IntOp.xori (IntOp.xori v (IntOp.shrsi .vector v 16#32))
            (IntOp.shrsi .vector (IntOp.xori v (IntOp.shrsi .vector v 16#32)) 8#32))
            (IntOp.shrsi .vector (IntOp.xori (IntOp.xori v (IntOp.shrsi .vector v 16#32))
              (IntOp.shrsi .vector (IntOp.xori v (IntOp.shrsi .vector v 16#32)) 8#32)) 4#32)) 2#32)) 1#32))
      1#32 = xorfold v := by
  have sh : ∀ (x : BitVec 32) (n : ℕ) (hn : n < 32), IntOp.shrsi .vector x (BitVec.ofNat 32 n) = x.sshiftRight n := by
    intro x n hn
    unfold IntOp.shrsi
    have h1 : (BitVec.ofNat 32 n).toNat = n := by
      rw [BitVec.toNat_ofNat]; exact Nat.mod_eq_of_lt (by omega)
    rw [if_pos (by rw [h1]; exact hn)]
    show x.sshiftRight (BitVec.ofNat 32 n).toNat = _
    rw [h1]
  rw [show (16#32 : BitVec 32) = BitVec.ofNat 32 16 from rfl, show (8#32 : BitVec 32) = BitVec.ofNat 32 8 from rfl,
    show (4#32 : BitVec 32) = BitVec.ofNat 32 4 from rfl, show (2#32 : BitVec 32) = BitVec.ofNat 32 2 from rfl]
  simp only [sh _ 16 (by norm_num), sh _ 8 (by norm_num), sh _ 4 (by norm_num), sh _ 2 (by norm_num)]
  rw [show (1#32 : BitVec 32) = BitVec.ofNat 32 1 from rfl]
  simp only [sh _ 1 (by norm_num)]
  rfl

/-! ## The two float constants -/

/-- The word of the constant one. -/
theorem ofBits_one : Ideal.ofBits .f32 0x3F800000#32 = ((1 : ℝ) : EReal) := by
  simp [Ideal.ofBits, Ideal.ieee, -EReal.coe_mul]; norm_num

/-- The word of the constant two. -/
theorem ofBits_two : Ideal.ofBits .f32 0x40000000#32 = ((2 : ℝ) : EReal) := by
  simp [Ideal.ofBits, Ideal.ieee, -EReal.coe_mul]; norm_num

/-! ## The sign matrix -/

/-- The sign matrix of order `n` as the kernel builds it: row and column numbers, their conjunction folded onto its
    lowest bit, and one minus twice that bit. -/
def kSign (n : ℕ) (h0 : (⟨2, ![n, n]⟩ : Shape).Iotas .tc 32 [0]) (h1 : (⟨2, ![n, n]⟩ : Shape).Iotas .tc 32 [1])
    (hb : FTy.bits .bf16 < FTy.bits .f32) : FVec Ideal ⟨2, ![n, n]⟩ .bf16 :=
  have v7 : IVec ⟨2, ![n, n]⟩ 32 := iota .tc ⟨2, ![n, n]⟩ 32 [0] h0
  have v8 : IVec ⟨2, ![n, n]⟩ 32 := iota .tc ⟨2, ![n, n]⟩ 32 [1] h1
  have v9 : IVec ⟨2, ![n, n]⟩ 32 := andi v7 v8
  have v10 : IVec ⟨2, ![n, n]⟩ 32 := broadcast ⟨2, ![n, n]⟩ 16#32
  have v11 : IVec ⟨2, ![n, n]⟩ 32 := shrsi v9 v10
  have v12 : IVec ⟨2, ![n, n]⟩ 32 := xori v9 v11
  have v13 : IVec ⟨2, ![n, n]⟩ 32 := broadcast ⟨2, ![n, n]⟩ 8#32
  have v14 : IVec ⟨2, ![n, n]⟩ 32 := shrsi v12 v13
  have v15 : IVec ⟨2, ![n, n]⟩ 32 := xori v12 v14
  have v16 : IVec ⟨2, ![n, n]⟩ 32 := broadcast ⟨2, ![n, n]⟩ 4#32
  have v17 : IVec ⟨2, ![n, n]⟩ 32 := shrsi v15 v16
  have v18 : IVec ⟨2, ![n, n]⟩ 32 := xori v15 v17
  have v19 : IVec ⟨2, ![n, n]⟩ 32 := broadcast ⟨2, ![n, n]⟩ 2#32
  have v20 : IVec ⟨2, ![n, n]⟩ 32 := shrsi v18 v19
  have v21 : IVec ⟨2, ![n, n]⟩ 32 := xori v18 v20
  have v22 : IVec ⟨2, ![n, n]⟩ 32 := broadcast ⟨2, ![n, n]⟩ 1#32
  have v23 : IVec ⟨2, ![n, n]⟩ 32 := shrsi v21 v22
  have v24 : IVec ⟨2, ![n, n]⟩ 32 := xori v21 v23
  have v25 : IVec ⟨2, ![n, n]⟩ 32 := broadcast ⟨2, ![n, n]⟩ 1#32
  have v26 : IVec ⟨2, ![n, n]⟩ 32 := andi v24 v25
  have v27 : FVec Ideal ⟨2, ![n, n]⟩ .f32 := sitofp .f32 v26
  have cst : Ideal .f32 := Scalar.ofBits .f32 0x40000000#32
  have v28 : FVec Ideal ⟨2, ![n, n]⟩ .f32 := broadcast ⟨2, ![n, n]⟩ cst
  have v29 : FVec Ideal ⟨2, ![n, n]⟩ .f32 := mulf v28 v27
  have cst_3 : Ideal .f32 := Scalar.ofBits .f32 0x3F800000#32
  have v30 : FVec Ideal ⟨2, ![n, n]⟩ .f32 := broadcast ⟨2, ![n, n]⟩ cst_3
  have v31 : FVec Ideal ⟨2, ![n, n]⟩ .f32 := subf v30 v29
  truncf .bf16 v31 hb

/-- The entry of the kernel's sign matrix of order `2^k` (`k ≤ 7`) is the Sylvester–Hadamard sign. -/
theorem kSign_apply (k n : ℕ) (hk : k ≤ 7) (hn : n = 2 ^ k) (h0 : (⟨2, ![n, n]⟩ : Shape).Iotas .tc 32 [0])
    (h1 : (⟨2, ![n, n]⟩ : Shape).Iotas .tc 32 [1]) (hb : FTy.bits .bf16 < FTy.bits .f32) (p q : Fin n) :
    kSign n h0 h1 hb (ix2 p q) = ((hsign k p.val q.val : ℝ) : EReal) := by
  have e7 : iota .tc ⟨2, ![n, n]⟩ 32 [0] h0 (ix2 p q) = BitVec.ofNat 32 p.val := iota_single_apply _ _ _ _ _ _
  have e8 : iota .tc ⟨2, ![n, n]⟩ 32 [1] h1 (ix2 p q) = BitVec.ofNat 32 q.val := iota_single_apply _ _ _ _ _ _
  have key := fold_word (BitVec.ofNat 32 p.val &&& BitVec.ofNat 32 q.val)
  rw [← e7, ← e8] at key
  have hp : p.val < 2 ^ k := hn ▸ p.isLt
  have hq : q.val < 2 ^ k := hn ▸ q.isLt
  refine Eq.trans (congrArg (fun w : BitVec 32 =>
    Ideal.ofBits .f32 0x3F800000#32 - Ideal.ofBits .f32 0x40000000#32 * (((w.toInt : ℤ) : ℝ) : EReal)) key) ?_
  rw [e7, e8, ofBits_one, ofBits_two, ← EReal.coe_mul, ← EReal.coe_sub, one_sub_two_mul_xorfold k p.val q.val hk hp hq]

/-! ## The product taken three times -/

/-- The product as the kernel takes it: with the operand, with the operand's difference from itself, and with the
    difference of that difference from itself, the three products added. -/
def dot3 {sl sr so : Shape} (d : DotDims sl sr so) (hb : FTy.bits .bf16 < FTy.bits .f32) (x : FVec Ideal sl .f32)
    (H : FVec Ideal sr .bf16) : FVec Ideal so .f32 :=
  have v33 : FVec Ideal sl .bf16 := truncf .bf16 x hb
  have v35 : FVec Ideal sl .f32 := subf x x
  have v36 : FVec Ideal sl .bf16 := truncf .bf16 v35 hb
  have v38 : FVec Ideal sl .f32 := subf v35 v35
  have v39 : FVec Ideal sl .bf16 := truncf .bf16 v38 hb
  addf (addf (matmul d none v33 H (constant so .f32 0x00000000#32)) (matmul d none v36 H (constant so .f32 0x00000000#32)))
    (matmul d none v39 H (constant so .f32 0x00000000#32))

/-- On a finite operand the two correction products vanish: the three-fold product is the plain sum of products. -/
theorem dot3_apply {sl sr so : Shape} (d : DotDims sl sr so) (hb : FTy.bits .bf16 < FTy.bits .f32) (x : FVec Ideal sl .f32)
    (H : FVec Ideal sr .bf16) (hx : ∀ i, ∃ t : ℝ, x i = ((t : ℝ) : EReal)) (j : so.Idx) :
    dot3 d hb x H j = ∑ k : d.contr.Idx, x (d.lhsIdx j k) * H (d.rhsIdx j k) := by
  have z2 : ∑ k : d.contr.Idx, (truncf .bf16 (subf x x) hb : FVec Ideal sl .bf16) (d.lhsIdx j k) * H (d.rhsIdx j k) = 0 :=
    Finset.sum_eq_zero fun k _ => by
      obtain ⟨t, ht⟩ := hx (d.lhsIdx j k)
      show (x (d.lhsIdx j k) - x (d.lhsIdx j k)) * H (d.rhsIdx j k) = 0
      rw [ht, coe_sub_self, zero_mul]
  have z3 : ∑ k : d.contr.Idx, (truncf .bf16 (subf (subf x x) (subf x x)) hb : FVec Ideal sl .bf16) (d.lhsIdx j k) * H (d.rhsIdx j k) = 0 :=
    Finset.sum_eq_zero fun k _ => by
      obtain ⟨t, ht⟩ := hx (d.lhsIdx j k)
      show ((x (d.lhsIdx j k) - x (d.lhsIdx j k)) - (x (d.lhsIdx j k) - x (d.lhsIdx j k))) * H (d.rhsIdx j k) = 0
      rw [ht, coe_sub_self, sub_zero, zero_mul]
  unfold dot3
  show (FloatOps.matmul d none _ H (constant so .f32 0x00000000#32) j + FloatOps.matmul d none _ H (constant so .f32 0x00000000#32) j)
    + FloatOps.matmul d none _ H (constant so .f32 0x00000000#32) j = _
  rw [Ideal.matmul_constant_zero_apply, Ideal.matmul_constant_zero_apply, Ideal.matmul_constant_zero_apply, z2, z3, add_zero, add_zero]
  rfl

/-! ## The two contractions re-indexed by their one coordinate -/

/-- The left operand's row at contraction position `k` is the result's row. -/
theorem lhs_dot_S8192x128_S128x128_S8192x128_1_0_0_1_n_n_0 (j : S8192x128.Idx)
    (k : dot_S8192x128_S128x128_S8192x128_1_0_0_1_n_n.contr.Idx) :
    (dot_S8192x128_S128x128_S8192x128_1_0_0_1_n_n.lhsIdx j k 0 : ℕ) = j 0 := by
  simp [DotDims.lhsIdx, dot_S8192x128_S128x128_S8192x128_1_0_0_1_n_n]; rfl

/-- The left operand's column at contraction position `k` is `k`'s coordinate. -/
theorem lhs_dot_S8192x128_S128x128_S8192x128_1_0_0_1_n_n_1 (j : S8192x128.Idx)
    (k : dot_S8192x128_S128x128_S8192x128_1_0_0_1_n_n.contr.Idx) :
    (dot_S8192x128_S128x128_S8192x128_1_0_0_1_n_n.lhsIdx j k 1 : ℕ) = k ⟨0, by decide⟩ :=
  dot_S8192x128_S128x128_S8192x128_1_0_0_1_n_n.lhsIdx_val_of_single (cl := 1) rfl j k

/-- The right operand's row at contraction position `k` is `k`'s coordinate. -/
theorem rhs_dot_S8192x128_S128x128_S8192x128_1_0_0_1_n_n_0 (j : S8192x128.Idx)
    (k : dot_S8192x128_S128x128_S8192x128_1_0_0_1_n_n.contr.Idx) :
    (dot_S8192x128_S128x128_S8192x128_1_0_0_1_n_n.rhsIdx j k 0 : ℕ) = k ⟨0, by decide⟩ :=
  dot_S8192x128_S128x128_S8192x128_1_0_0_1_n_n.rhsIdx_val_of_single (cr := 0) rfl j k

/-- The right operand's column at contraction position `k` is the result's column. -/
theorem rhs_dot_S8192x128_S128x128_S8192x128_1_0_0_1_n_n_1 (j : S8192x128.Idx)
    (k : dot_S8192x128_S128x128_S8192x128_1_0_0_1_n_n.contr.Idx) :
    (dot_S8192x128_S128x128_S8192x128_1_0_0_1_n_n.rhsIdx j k 1 : ℕ) = j 1 := by
  simp [DotDims.rhsIdx, dot_S8192x128_S128x128_S8192x128_1_0_0_1_n_n]; rfl

/-- The first contraction's sum, over its 128 coordinates. -/
theorem sum_dot_S8192x128 (f : S8192x128.Idx → EReal) (g : S128x128.Idx → EReal) (p : Fin 8192) (q : Fin 128) :
    ∑ k : dot_S8192x128_S128x128_S8192x128_1_0_0_1_n_n.contr.Idx,
        f (dot_S8192x128_S128x128_S8192x128_1_0_0_1_n_n.lhsIdx (ix2 p q) k)
          * g (dot_S8192x128_S128x128_S8192x128_1_0_0_1_n_n.rhsIdx (ix2 p q) k)
      = ∑ c : Fin 128, f (ix2 p c) * g (ix2 c q) := by
  rw [← Equiv.sum_comp (contrEquiv1 dot_S8192x128_S128x128_S8192x128_1_0_0_1_n_n 128 rfl rfl).symm]
  refine Finset.sum_congr rfl fun c _ => ?_
  have c1 := contrEquiv1_symm_val dot_S8192x128_S128x128_S8192x128_1_0_0_1_n_n 128 rfl rfl c
  have l : dot_S8192x128_S128x128_S8192x128_1_0_0_1_n_n.lhsIdx (ix2 p q)
      ((contrEquiv1 dot_S8192x128_S128x128_S8192x128_1_0_0_1_n_n 128 rfl rfl).symm c) = ix2 p c := by
    funext ax; apply Fin.ext
    match ax with
    | ⟨0, _⟩ => exact lhs_dot_S8192x128_S128x128_S8192x128_1_0_0_1_n_n_0 _ _
    | ⟨1, _⟩ => exact (lhs_dot_S8192x128_S128x128_S8192x128_1_0_0_1_n_n_1 _ _).trans c1
  have r : dot_S8192x128_S128x128_S8192x128_1_0_0_1_n_n.rhsIdx (ix2 p q)
      ((contrEquiv1 dot_S8192x128_S128x128_S8192x128_1_0_0_1_n_n 128 rfl rfl).symm c) = ix2 c q := by
    funext ax; apply Fin.ext
    match ax with
    | ⟨0, _⟩ => exact (rhs_dot_S8192x128_S128x128_S8192x128_1_0_0_1_n_n_0 _ _).trans c1
    | ⟨1, _⟩ => exact rhs_dot_S8192x128_S128x128_S8192x128_1_0_0_1_n_n_1 _ _
  rw [l, r]

/-- The left operand's row at contraction position `k` is the result's row. -/
theorem lhs_dot_S65536x16_S16x16_S65536x16_1_0_0_1_n_n_0 (j : S65536x16.Idx)
    (k : dot_S65536x16_S16x16_S65536x16_1_0_0_1_n_n.contr.Idx) :
    (dot_S65536x16_S16x16_S65536x16_1_0_0_1_n_n.lhsIdx j k 0 : ℕ) = j 0 := by
  simp [DotDims.lhsIdx, dot_S65536x16_S16x16_S65536x16_1_0_0_1_n_n]; rfl

/-- The left operand's column at contraction position `k` is `k`'s coordinate. -/
theorem lhs_dot_S65536x16_S16x16_S65536x16_1_0_0_1_n_n_1 (j : S65536x16.Idx)
    (k : dot_S65536x16_S16x16_S65536x16_1_0_0_1_n_n.contr.Idx) :
    (dot_S65536x16_S16x16_S65536x16_1_0_0_1_n_n.lhsIdx j k 1 : ℕ) = k ⟨0, by decide⟩ :=
  dot_S65536x16_S16x16_S65536x16_1_0_0_1_n_n.lhsIdx_val_of_single (cl := 1) rfl j k

/-- The right operand's row at contraction position `k` is `k`'s coordinate. -/
theorem rhs_dot_S65536x16_S16x16_S65536x16_1_0_0_1_n_n_0 (j : S65536x16.Idx)
    (k : dot_S65536x16_S16x16_S65536x16_1_0_0_1_n_n.contr.Idx) :
    (dot_S65536x16_S16x16_S65536x16_1_0_0_1_n_n.rhsIdx j k 0 : ℕ) = k ⟨0, by decide⟩ :=
  dot_S65536x16_S16x16_S65536x16_1_0_0_1_n_n.rhsIdx_val_of_single (cr := 0) rfl j k

/-- The right operand's column at contraction position `k` is the result's column. -/
theorem rhs_dot_S65536x16_S16x16_S65536x16_1_0_0_1_n_n_1 (j : S65536x16.Idx)
    (k : dot_S65536x16_S16x16_S65536x16_1_0_0_1_n_n.contr.Idx) :
    (dot_S65536x16_S16x16_S65536x16_1_0_0_1_n_n.rhsIdx j k 1 : ℕ) = j 1 := by
  simp [DotDims.rhsIdx, dot_S65536x16_S16x16_S65536x16_1_0_0_1_n_n]; rfl

/-- The second contraction's sum, over its 16 coordinates. -/
theorem sum_dot_S65536x16 (f : S65536x16.Idx → EReal) (g : S16x16.Idx → EReal) (p : Fin 65536) (q : Fin 16) :
    ∑ k : dot_S65536x16_S16x16_S65536x16_1_0_0_1_n_n.contr.Idx,
        f (dot_S65536x16_S16x16_S65536x16_1_0_0_1_n_n.lhsIdx (ix2 p q) k)
          * g (dot_S65536x16_S16x16_S65536x16_1_0_0_1_n_n.rhsIdx (ix2 p q) k)
      = ∑ c : Fin 16, f (ix2 p c) * g (ix2 c q) := by
  rw [← Equiv.sum_comp (contrEquiv1 dot_S65536x16_S16x16_S65536x16_1_0_0_1_n_n 16 rfl rfl).symm]
  refine Finset.sum_congr rfl fun c _ => ?_
  have c1 := contrEquiv1_symm_val dot_S65536x16_S16x16_S65536x16_1_0_0_1_n_n 16 rfl rfl c
  have l : dot_S65536x16_S16x16_S65536x16_1_0_0_1_n_n.lhsIdx (ix2 p q)
      ((contrEquiv1 dot_S65536x16_S16x16_S65536x16_1_0_0_1_n_n 16 rfl rfl).symm c) = ix2 p c := by
    funext ax; apply Fin.ext
    match ax with
    | ⟨0, _⟩ => exact lhs_dot_S65536x16_S16x16_S65536x16_1_0_0_1_n_n_0 _ _
    | ⟨1, _⟩ => exact (lhs_dot_S65536x16_S16x16_S65536x16_1_0_0_1_n_n_1 _ _).trans c1
  have r : dot_S65536x16_S16x16_S65536x16_1_0_0_1_n_n.rhsIdx (ix2 p q)
      ((contrEquiv1 dot_S65536x16_S16x16_S65536x16_1_0_0_1_n_n 16 rfl rfl).symm c) = ix2 c q := by
    funext ax; apply Fin.ext
    match ax with
    | ⟨0, _⟩ => exact (rhs_dot_S65536x16_S16x16_S65536x16_1_0_0_1_n_n_0 _ _).trans c1
    | ⟨1, _⟩ => exact rhs_dot_S65536x16_S16x16_S65536x16_1_0_0_1_n_n_1 _ _
  rw [l, r]

/-! ## The stages of the body -/

/-- The block scaled by the sign row and cut row-major into rows of 128. -/
def scaled (x0 : Vec Ideal S512x2048 .f32) (x1 : Vec Ideal S2048 .f32) : FVec Ideal S8192x128 .f32 :=
  shapeCast S8192x128 (mulf (shapeCast S512x2048 x0 shapeCasts_S512x2048_S512x2048)
    (broadcastTo S512x2048 (shapeCast S1x2048 x1 shapeCasts_S2048_S1x2048) broadcasts_S1x2048_S512x2048))
    shapeCasts_S512x2048_S8192x128

/-- Rows of 128 regrouped as rows of 16: entry `(r * 128 + jlo, ihi)` is entry `(r * 16 + ihi, jlo)`. -/
def relay1 (v : FVec Ideal S8192x128 .f32) : FVec Ideal S65536x16 .f32 :=
  shapeCast S65536x16 (transpose S512x128x16 [0, 2, 1] (shapeCast S512x16x128 v shapeCasts_S8192x128_S512x16x128)
    transposes_S512x16x128_p0_2_1_S512x128x16) shapeCasts_S512x128x16_S65536x16

/-- Rows of 16 regrouped as the block's rows of 2048: entry `(r, jhi * 128 + jlo)` is entry `(r * 128 + jlo, jhi)`. -/
def relay2 (v : FVec Ideal S65536x16 .f32) : FVec Ideal S512x2048 .f32 :=
  shapeCast S512x2048 (transpose S512x16x128 [0, 2, 1] (shapeCast S512x128x16 v shapeCasts_S65536x16_S512x128x16)
    transposes_S512x128x16_p0_2_1_S512x16x128) shapeCasts_S512x16x128_S512x2048

/-- The first payload is the three-fold product of the scaled block with the sign matrix of order 128. -/
theorem k0_pay1_eq (x0 : Vec Ideal S512x2048 .f32) (x1 : Vec Ideal S2048 .f32) :
    k0_pay1 (F := Ideal) x0 x1
      = dot3 dot_S8192x128_S128x128_S8192x128_1_0_0_1_n_n bitsLt_bf16_f32 (scaled x0 x1)
          (kSign 128 iota_S128x128_d0_w32 iota_S128x128_d1_w32 bitsLt_bf16_f32) := rfl

/-- The second payload regroups, takes the three-fold product with the sign matrix of order 16, and regroups back. -/
theorem k0_pay2_eq (v : FVec Ideal S8192x128 .f32) :
    k0_pay2 (F := Ideal) v
      = relay2 (dot3 dot_S65536x16_S16x16_S65536x16_1_0_0_1_n_n bitsLt_bf16_f32 (relay1 v)
          (kSign 16 iota_S16x16_d0_w32 iota_S16x16_d1_w32 bitsLt_bf16_f32)) := rfl

/-- The scaled block at row `P = r * 16 + ihi` and column `ilo` is the scaled table at `(r, ihi * 128 + ilo)`. -/
theorem scaled_apply (x0 : Vec Ideal S512x2048 .f32) (x1 : Vec Ideal S2048 .f32) (X : ℕ → ℕ → ℝ) (b : ℕ → ℝ)
    (hx0 : Rep2 x0 X) (hx1 : Rep1 x1 b) (P : Fin 8192) (c : Fin 128) :
    scaled x0 x1 (ix2 P c) = ((Vtab X b (P.val / 16) (P.val % 16 * 128 + c.val) : ℝ) : EReal) := by
  have hr : P.val / 16 < 512 := by have := P.isLt; omega
  have hi : P.val % 16 * 128 + c.val < 2048 := by have := c.isLt; omega
  unfold scaled
  refine (shapeCast_apply _ shapeCasts_S512x2048_S8192x128 (ix2 P c)
    (ix2 (⟨P.val / 16, hr⟩ : Fin 512) (⟨P.val % 16 * 128 + c.val, hi⟩ : Fin 2048)) ?_).trans ?_
  · rw [Shape.rowMajor_val_two, Shape.rowMajor_val_two]
    show P.val / 16 * 2048 + (P.val % 16 * 128 + c.val) = P.val * 128 + c.val
    omega
  · rw [mulf_apply, shapeCast_self, broadcastTo_1b_ab_apply, shapeCast_a_1a_apply,
      hx0 (ix2 (⟨P.val / 16, hr⟩ : Fin 512) (⟨P.val % 16 * 128 + c.val, hi⟩ : Fin 2048)),
      hx1 (ix1 (⟨P.val % 16 * 128 + c.val, hi⟩ : Fin 2048)), ← EReal.coe_mul]
    rfl

/-- The regrouping into rows of 16, read at an index. -/
theorem relay1_apply (v : FVec Ideal S8192x128 .f32) (Q : Fin 65536) (c : Fin 16) :
    relay1 v (ix2 Q c)
      = v (ix2 (⟨Q.val / 128 * 16 + c.val, by have := Q.isLt; have := c.isLt; omega⟩ : Fin 8192)
          (⟨Q.val % 128, Nat.mod_lt _ (by norm_num)⟩ : Fin 128)) := by
  have hr : Q.val / 128 < 512 := by have := Q.isLt; omega
  have hl : Q.val % 128 < 128 := Nat.mod_lt _ (by norm_num)
  unfold relay1
  refine (shapeCast_apply _ shapeCasts_S512x128x16_S65536x16 (ix2 Q c)
    (ix3 (⟨Q.val / 128, hr⟩ : Fin 512) (⟨Q.val % 128, hl⟩ : Fin 128) c) ?_).trans ?_
  · rw [Shape.rowMajor_val_three, Shape.rowMajor_val_two]
    show (Q.val / 128 * 128 + Q.val % 128) * 16 + c.val = Q.val * 16 + c.val
    omega
  · rw [transpose_ix3_021_apply]
    refine shapeCast_apply _ shapeCasts_S8192x128_S512x16x128 _ _ ?_
    rw [Shape.rowMajor_val_three, Shape.rowMajor_val_two]
    rfl

/-- The regrouping back into rows of 2048, read at an index. -/
theorem relay2_apply (v : FVec Ideal S65536x16 .f32) (r : Fin 512) (J : Fin 2048) :
    relay2 v (ix2 r J)
      = v (ix2 (⟨r.val * 128 + J.val % 128, by have := r.isLt; omega⟩ : Fin 65536)
          (⟨J.val / 128, by have := J.isLt; omega⟩ : Fin 16)) := by
  have hh : J.val / 128 < 16 := by have := J.isLt; omega
  have hl : J.val % 128 < 128 := Nat.mod_lt _ (by norm_num)
  unfold relay2
  refine (shapeCast_apply _ shapeCasts_S512x16x128_S512x2048 (ix2 r J)
    (ix3 r (⟨J.val / 128, hh⟩ : Fin 16) (⟨J.val % 128, hl⟩ : Fin 128)) ?_).trans ?_
  · rw [Shape.rowMajor_val_three, Shape.rowMajor_val_two]
    show (r.val * 16 + J.val / 128) * 128 + J.val % 128 = r.val * 2048 + J.val
    omega
  · rw [transpose_ix3_021_apply]
    refine shapeCast_apply _ shapeCasts_S65536x16_S512x128x16 _ _ ?_
    rw [Shape.rowMajor_val_three, Shape.rowMajor_val_two]
    rfl

/-- The three-fold product with the sign matrix of order 128 transforms every row of 128 of a real table. -/
theorem hb_stage (v : FVec Ideal S8192x128 .f32) (T : ℕ → ℕ → ℝ) (hv : Rep2 v T) (P : Fin 8192) (j : Fin 128) :
    dot3 dot_S8192x128_S128x128_S8192x128_1_0_0_1_n_n bitsLt_bf16_f32 v
        (kSign 128 iota_S128x128_d0_w32 iota_S128x128_d1_w32 bitsLt_bf16_f32) (ix2 P j)
      = ((∑ k ∈ range 128, T P.val k * hsign 7 k j.val : ℝ) : EReal) := by
  rw [dot3_apply _ _ _ _ (fun i => ⟨_, hv i⟩), sum_dot_S8192x128, coe_sum,
    ← Fin.sum_univ_eq_sum_range (fun k => ((T P.val k * hsign 7 k j.val : ℝ) : EReal)) 128]
  refine Finset.sum_congr rfl fun c _ => ?_
  rw [hv (ix2 P c), kSign_apply 7 128 (by norm_num) (by norm_num), ← EReal.coe_mul]

/-- The three-fold product with the sign matrix of order 16 transforms every row of 16 of a real table. -/
theorem ha_stage (v : FVec Ideal S65536x16 .f32) (T : ℕ → ℕ → ℝ) (hv : Rep2 v T) (Q : Fin 65536) (j : Fin 16) :
    dot3 dot_S65536x16_S16x16_S65536x16_1_0_0_1_n_n bitsLt_bf16_f32 v
        (kSign 16 iota_S16x16_d0_w32 iota_S16x16_d1_w32 bitsLt_bf16_f32) (ix2 Q j)
      = ((∑ k ∈ range 16, T Q.val k * hsign 4 k j.val : ℝ) : EReal) := by
  rw [dot3_apply _ _ _ _ (fun i => ⟨_, hv i⟩), sum_dot_S65536x16, coe_sum,
    ← Fin.sum_univ_eq_sum_range (fun k => ((T Q.val k * hsign 4 k j.val : ℝ) : EReal)) 16]
  refine Finset.sum_congr rfl fun c _ => ?_
  rw [hv (ix2 Q c), kSign_apply 4 16 (by norm_num) (by norm_num), ← EReal.coe_mul]

/-! ## The real tables of the stages -/

/-- The scaled table cut into rows of 128: row `r * 16 + ihi`, column `ilo`. -/
def T1 (V : ℕ → ℕ → ℝ) : ℕ → ℕ → ℝ := fun P c => V (P / 16) (P % 16 * 128 + c)
/-- Every row of 128 transformed. -/
def T2 (V : ℕ → ℕ → ℝ) : ℕ → ℕ → ℝ := fun P j => ∑ k ∈ range 128, T1 V P k * hsign 7 k j
/-- Regrouped into rows of 16: row `r * 128 + jlo`, column `ihi`. -/
def T3 (V : ℕ → ℕ → ℝ) : ℕ → ℕ → ℝ := fun Q c => T2 V (Q / 128 * 16 + c) (Q % 128)

/-- Contracting the low seven bits and then the high four is the transform of order 2048 of the row. -/
theorem tables_eq (V : ℕ → ℕ → ℝ) (r J : ℕ) (hJ : J < 2048) :
    ∑ k ∈ range 16, T3 V (r * 128 + J % 128) k * hsign 4 k (J / 128) = Ytab V r J := by
  have hjhi : J / 128 < 2 ^ 4 := by norm_num; omega
  have hjlo : J % 128 < 2 ^ 7 := by norm_num; omega
  have h := kron_wht 4 7 (fun i => V r i) (J / 128) (J % 128) hjhi hjlo
  have e : J / 128 * 2 ^ 7 + J % 128 = J := by norm_num; omega
  rw [e] at h
  unfold Ytab
  refine Eq.trans ?_ h
  refine Finset.sum_congr rfl fun ihi hihi => ?_
  have hi : ihi < 16 := by simpa using hihi
  have a1 : (r * 128 + J % 128) / 128 * 16 + ihi = r * 16 + ihi := by omega
  have a2 : (r * 128 + J % 128) % 128 = J % 128 := by omega
  have a3 : (r * 16 + ihi) / 16 = r := by omega
  have a4 : (r * 16 + ihi) % 16 = ihi := by omega
  unfold T3 T2 T1
  rw [a1, a2, a3, a4]
  rfl

/-- The first kernel's body on a block of 512 rows: scaled by the signs and transformed with the Hadamard matrix of
    order 2048 = 16 * 128, contracted in two steps (the low 7 bits against the 128 x 128 sign matrix, then the high 4
    bits against the 16 x 16 one). On real tables it is the transform of every row. -/
theorem pay0 (x0 : Vec Ideal S512x2048 .f32) (x1 : Vec Ideal S2048 .f32) (X : ℕ → ℕ → ℝ) (b : ℕ → ℝ)
    (hx0 : Rep2 x0 X) (hx1 : Rep1 x1 b) :
    Rep2 (k0_pay2 (F := Ideal) (k0_pay1 (F := Ideal) x0 x1)) (Ytab (Vtab X b)) := by
  have R1 : Rep2 (scaled x0 x1) (T1 (Vtab X b)) := fun idx => by
    obtain ⟨P, c, rfl⟩ : ∃ (P : Fin 8192) (c : Fin 128), idx = ix2 P c := ⟨idx 0, idx 1, eq_ix2 idx⟩
    exact scaled_apply x0 x1 X b hx0 hx1 P c
  have R2 : Rep2 (dot3 dot_S8192x128_S128x128_S8192x128_1_0_0_1_n_n bitsLt_bf16_f32 (scaled x0 x1)
      (kSign 128 iota_S128x128_d0_w32 iota_S128x128_d1_w32 bitsLt_bf16_f32)) (T2 (Vtab X b)) := fun idx => by
    obtain ⟨P, j, rfl⟩ : ∃ (P : Fin 8192) (j : Fin 128), idx = ix2 P j := ⟨idx 0, idx 1, eq_ix2 idx⟩
    exact hb_stage _ _ R1 P j
  have R3 : Rep2 (relay1 (dot3 dot_S8192x128_S128x128_S8192x128_1_0_0_1_n_n bitsLt_bf16_f32 (scaled x0 x1)
      (kSign 128 iota_S128x128_d0_w32 iota_S128x128_d1_w32 bitsLt_bf16_f32))) (T3 (Vtab X b)) := fun idx => by
    obtain ⟨Q, c, rfl⟩ : ∃ (Q : Fin 65536) (c : Fin 16), idx = ix2 Q c := ⟨idx 0, idx 1, eq_ix2 idx⟩
    rw [relay1_apply]
    exact R2 _
  intro idx
  obtain ⟨r, J, rfl⟩ : ∃ (r : Fin 512) (J : Fin 2048), idx = ix2 r J := ⟨idx 0, idx 1, eq_ix2 idx⟩
  rw [k0_pay1_eq, k0_pay2_eq, relay2_apply, ha_stage _ _ R3]
  exact congrArg (fun t : ℝ => (t : EReal)) (tables_eq (Vtab X b) r.val J.val J.isLt)

end Cert.KernBody0

end
-- ==== Proof.KernBody1.lean ====
import proofs.«427721_j65506841198938_3_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«427721_j65506841198938_3_alg».proof.Proof.Spec

noncomputable section

namespace Cert.KernBody1

open Idealize.ShloMosaic Idealize.ShloMosaic.ValueIdx Cert.KernelIdeal Cert.KernelIdeal.Gen Cert.Spec Cert.Hadamard Finset

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Plain
variable {M K N : ℕ} {φ₁ φ₂ : FTy}

/-- The operand indices of a plain `M x K` by `K x N` product at result index `j` and contraction position `k`:
    the left one is `(j 0, k)`, the right one `(k, j 1)`. -/
theorem plain_lhs_0 (j : (⟨2, ![M, N]⟩ : Shape).Idx) (k : (DotDims.plain M K N).contr.Idx) :
    ((DotDims.plain M K N).lhsIdx j k 0).val = (j 0).val := rfl
theorem plain_lhs_1 (j : (⟨2, ![M, N]⟩ : Shape).Idx) (k : (DotDims.plain M K N).contr.Idx) :
    ((DotDims.plain M K N).lhsIdx j k 1).val = (k ⟨0, Nat.one_pos⟩).val := rfl
theorem plain_rhs_0 (j : (⟨2, ![M, N]⟩ : Shape).Idx) (k : (DotDims.plain M K N).contr.Idx) :
    ((DotDims.plain M K N).rhsIdx j k 0).val = (k ⟨0, Nat.one_pos⟩).val := rfl
theorem plain_rhs_1 (j : (⟨2, ![M, N]⟩ : Shape).Idx) (k : (DotDims.plain M K N).contr.Idx) :
    ((DotDims.plain M K N).rhsIdx j k 1).val = (j 1).val := rfl

/-- A plain matrix product into the zero accumulator, read at `(a, b)`, is the sum over the contracted coordinate. -/
theorem mm_plain_apply (prec : Option ContractPrecision) (A : FVec Ideal ⟨2, ![M, K]⟩ φ₁) (B : FVec Ideal ⟨2, ![K, N]⟩ φ₂)
    (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => exact plain_lhs_0 _ _
    | ⟨1, _⟩ => exact (plain_lhs_1 _ _).trans c2
  have r2 : (DotDims.plain M K N).rhsIdx (ix2 a b) ((contrEquiv1 _ K rfl rfl).symm c) = ix2 c b := by
    funext ax; apply Fin.ext
    match ax with
    | ⟨0, _⟩ => exact (plain_rhs_0 _ _).trans c2
    | ⟨1, _⟩ => exact plain_rhs_1 _ _
  rw [l2, r2]

end Plain

/-! ## The sign matrix built from two coordinate arrays -/

/-- The matrix `1 - 2 * parity` a kernel builds from two arrays of words. -/
def signMat {s : Shape} (a b : IVec s 32) : FVec Ideal s .bf16 :=
  have v5 : IVec s 32 := andi a b
  have v6 : IVec s 32 := broadcast s 16#32
  have v7 : IVec s 32 := shrsi v5 v6
  have v8 : IVec s 32 := xori v5 v7
  have v9 : IVec s 32 := broadcast s 8#32
  have v10 : IVec s 32 := shrsi v8 v9
  have v11 : IVec s 32 := xori v8 v10
  have v12 : IVec s 32 := broadcast s 4#32
  have v13 : IVec s 32 := shrsi v11 v12
  have v14 : IVec s 32 := xori v11 v13
  have v15 : IVec s 32 := broadcast s 2#32
  have v16 : IVec s 32 := shrsi v14 v15
  have v17 : IVec s 32 := xori v14 v16
  have v18 : IVec s 32 := broadcast s 1#32
  have v19 : IVec s 32 := shrsi v17 v18
  have v20 : IVec s 32 := xori v17 v19
  have v21 : IVec s 32 := broadcast s 1#32
  have v22 : IVec s 32 := andi v20 v21
  have v23 : FVec Ideal s .f32 := sitofp .f32 v22
  have cst : Ideal .f32 := Scalar.ofBits .f32 0x40000000#32
  have v24 : FVec Ideal s .f32 := broadcast s cst
  have v25 : FVec Ideal s .f32 := mulf v24 v23
  have cst_2 : Ideal .f32 := Scalar.ofBits .f32 0x3F800000#32
  have v26 : FVec Ideal s .f32 := broadcast s cst_2
  have v27 : FVec Ideal s .f32 := subf v26 v25
  truncf .bf16 v27 bitsLt_bf16_f32

theorem ofBits_two : Ideal.ofBits .f32 0x40000000#32 = ((2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num

/-- At an index the matrix is one minus twice the folded parity of the conjunction of the two words. -/
theorem signMat_apply {s : Shape} (a b : IVec s 32) (i : s.Idx) :
    signMat a b i = (((1 : ℝ) - 2 * (((xorfold (a i &&& b i)).toInt : ℤ) : ℝ) : ℝ) : EReal) := by
  have h : signMat a b i
      = Ideal.ofBits .f32 0x3F800000#32 - Ideal.ofBits .f32 0x40000000#32 * ((((xorfold (a i &&& b i)).toInt : ℤ) : ℝ) : EReal) := rfl
  rw [h, ofBits_two, ofBits_one, ← EReal.coe_mul, ← EReal.coe_sub]

/-! ## The product taken three times, on a finite operand -/

/-- The matrix product as a kernel takes it: with the operand, with the operand minus itself, and with that
    difference minus itself, the three products added. -/
def mm3 {M K N : ℕ} (d : DotDims ⟨2, ![M, K]⟩ ⟨2, ![K, N]⟩ ⟨2, ![M, N]⟩) (v : FVec Ideal ⟨2, ![M, K]⟩ .f32)
    (h : FVec Ideal ⟨2, ![K, N]⟩ .bf16) : FVec Ideal ⟨2, ![M, N]⟩ .f32 :=
  have v29 : FVec Ideal ⟨2, ![M, K]⟩ .bf16 := truncf .bf16 v bitsLt_bf16_f32
  have v31 : FVec Ideal ⟨2, ![M, K]⟩ .f32 := subf v v
  have v32 : FVec Ideal ⟨2, ![M, K]⟩ .bf16 := truncf .bf16 v31 bitsLt_bf16_f32
  have v34 : FVec Ideal ⟨2, ![M, K]⟩ .f32 := subf v31 v31
  have v35 : FVec Ideal ⟨2, ![M, K]⟩ .bf16 := truncf .bf16 v34 bitsLt_bf16_f32
  have v36 : FVec Ideal ⟨2, ![M, N]⟩ .f32 := matmul d none v29 h (constant ⟨2, ![M, N]⟩ .f32 0x00000000#32)
  have v37 : FVec Ideal ⟨2, ![M, N]⟩ .f32 := matmul d none v32 h (constant ⟨2, ![M, N]⟩ .f32 0x00000000#32)
  have v38 : FVec Ideal ⟨2, ![M, N]⟩ .f32 := addf v36 v37
  have v39 : FVec Ideal ⟨2, ![M, N]⟩ .f32 := matmul d none v35 h (constant ⟨2, ![M, N]⟩ .f32 0x00000000#32)
  addf v38 v39

/-- On an operand that is a real table, against a matrix that is a real table, the three products add up to the
    one product of the tables: the two differences are zero. -/
theorem mm3_plain_apply {M K N : ℕ} (v : FVec Ideal ⟨2, ![M, K]⟩ .f32) (h : FVec Ideal ⟨2, ![K, N]⟩ .bf16)
    (T H : ℕ → ℕ → ℝ) (hv : ∀ (p : Fin M) (k : Fin K), v (ix2 p k) = ((T p.val k.val : ℝ) : EReal))
    (hh : ∀ (k : Fin K) (j : Fin N), h (ix2 k j) = ((H k.val j.val : ℝ) : EReal)) (p : Fin M) (j : Fin N) :
    mm3 (DotDims.plain M K N) v h (ix2 p j) = ((∑ k ∈ range K, T p.val k * H k j.val : ℝ) : EReal) := by
  have e : mm3 (DotDims.plain M K N) v h (ix2 p j)
      = (FloatOps.matmul (DotDims.plain M K N) none (truncf .bf16 v bitsLt_bf16_f32) h
            (constant ⟨2, ![M, N]⟩ .f32 0x00000000#32) (ix2 p j)
          + FloatOps.matmul (DotDims.plain M K N) none (truncf .bf16 (subf v v) bitsLt_bf16_f32) h
            (constant ⟨2, ![M, N]⟩ .f32 0x00000000#32) (ix2 p j))
        + FloatOps.matmul (DotDims.plain M K N) none (truncf .bf16 (subf (subf v v) (subf v v)) bitsLt_bf16_f32) h
            (constant ⟨2, ![M, N]⟩ .f32 0x00000000#32) (ix2 p j) := rfl
  rw [e, mm_plain_apply, mm_plain_apply, mm_plain_apply]
  have z1 : ∀ c : Fin K, (truncf .bf16 (subf v v) bitsLt_bf16_f32 : FVec Ideal ⟨2, ![M, K]⟩ .bf16) (ix2 p c) = 0 := by
    intro c
    show v (ix2 p c) - v (ix2 p c) = 0
    rw [hv p c, ← EReal.coe_sub, sub_self, EReal.coe_zero]
  have z2 : ∀ c : Fin K,
      (truncf .bf16 (subf (subf v v) (subf v v)) bitsLt_bf16_f32 : FVec Ideal ⟨2, ![M, K]⟩ .bf16) (ix2 p c) = 0 := by
    intro c
    show (v (ix2 p c) - v (ix2 p c)) - (v (ix2 p c) - v (ix2 p c)) = 0
    have t : v (ix2 p c) - v (ix2 p c) = 0 := by rw [hv p c, ← EReal.coe_sub, sub_self, EReal.coe_zero]
    rw [t, sub_zero]
  have s1 : ∑ c : Fin K, (truncf .bf16 (subf v v) bitsLt_bf16_f32 : FVec Ideal ⟨2, ![M, K]⟩ .bf16) (ix2 p c) * h (ix2 c j) = 0 :=
    Finset.sum_eq_zero fun c _ => by rw [z1 c, zero_mul]
  have s2 : ∑ c : Fin K, (truncf .bf16 (subf (subf v v) (subf v v)) bitsLt_bf16_f32 : FVec Ideal ⟨2, ![M, K]⟩ .bf16) (ix2 p c)
      * h (ix2 c j) = 0 :=
    Finset.sum_eq_zero fun c _ => by rw [z2 c, zero_mul]
  rw [s1, s2, add_zero, add_zero, coe_sum, ← Fin.sum_univ_eq_sum_range (fun k => ((T p.val k * H k j.val : ℝ) : EReal))]
  refine Finset.sum_congr rfl fun c _ => ?_
  show v (ix2 p c) * h (ix2 c j) = _
  rw [hv p c, hh c j, EReal.coe_mul]

theorem dotA_eq : dot_S8192x128_S128x128_S8192x128_1_0_0_1_n_n = DotDims.plain 8192 128 128 := rfl
theorem dotB_eq : dot_S16384x64_S64x64_S16384x64_1_0_0_1_n_n = DotDims.plain 16384 64 64 := rfl

/-! ## The first stage: the low seven bits -/

/-- The first payload as its stages. -/
theorem pay2_eq (x0 : Vec Ideal S128x8192 .f32) :
    k1_pay2 (F := Ideal) x0
      = shapeCast S16384x64 (transpose S128x128x64 [0, 2, 1] (shapeCast S128x64x128
          (mm3 dot_S8192x128_S128x128_S8192x128_1_0_0_1_n_n
            (shapeCast S8192x128 (shapeCast S128x8192 x0 shapeCasts_S128x8192_S128x8192) shapeCasts_S128x8192_S8192x128)
            (signMat (iota .tc S128x128 32 [0] iota_S128x128_d0_w32) (iota .tc S128x128 32 [1] iota_S128x128_d1_w32)))
          shapeCasts_S8192x128_S128x64x128) transposes_S128x64x128_p0_2_1_S128x128x64) shapeCasts_S128x128x64_S16384x64 :=
  rfl

/-- The sign matrix of two coordinate arrays of an `n x n` square, `n = 2^k` at most 128, is the Hadamard sign. -/
theorem signMat_iota {n : ℕ} (k : ℕ) (hk : k ≤ 7) (hn : n = 2 ^ k)
    (h0 : (⟨2, ![n, n]⟩ : Shape).Iotas .tc 32 [0]) (h1 : (⟨2, ![n, n]⟩ : Shape).Iotas .tc 32 [1]) (i j : Fin n) :
    signMat (iota .tc ⟨2, ![n, n]⟩ 32 [0] h0) (iota .tc ⟨2, ![n, n]⟩ 32 [1] h1) (ix2 i j)
      = ((hsign k i.val j.val : ℝ) : EReal) := by
  rw [signMat_apply, iota_single_apply, iota_single_apply]
  show (((1 : ℝ) - 2 * (((xorfold (BitVec.ofNat 32 i.val &&& BitVec.ofNat 32 j.val)).toInt : ℤ) : ℝ) : ℝ) : EReal) = _
  rw [one_sub_two_mul_xorfold k i.val j.val hk (hn ▸ i.isLt) (hn ▸ j.isLt)]

/-- The block cut into rows of 128 is the real table read at `(p / 64, (p % 64) * 128 + q)`. -/
theorem cut_apply (x0 : Vec Ideal S128x8192 .f32) (Z : ℕ → ℕ → ℝ) (hx0 : Rep2 x0 Z) (p : Fin 8192) (q : Fin 128) :
    shapeCast S8192x128 (shapeCast S128x8192 x0 shapeCasts_S128x8192_S128x8192) shapeCasts_S128x8192_S8192x128 (ix2 p q)
      = ((Z (p.val / 64) ((p.val % 64) * 128 + q.val) : ℝ) : EReal) := by
  rw [shapeCast_self]
  have hr : p.val / 64 < 128 := by have := p.isLt; omega
  have hc : (p.val % 64) * 128 + q.val < 8192 := by have := q.isLt; omega
  refine (shapeCast_apply x0 shapeCasts_S128x8192_S8192x128 (ix2 p q)
    (ix2 (⟨p.val / 64, hr⟩ : Fin 128) (⟨(p.val % 64) * 128 + q.val, hc⟩ : Fin 8192)) ?_).trans ?_
  · rw [Shape.rowMajor_val_two, Shape.rowMajor_val_two]
    show p.val / 64 * 8192 + ((p.val % 64) * 128 + q.val) = p.val * 128 + q.val
    omega
  · exact hx0 _

/-- The first payload at `(P, c)`: the contraction of the low seven bits, at row `P / 128`, high part `c`, low
    output part `P % 128`. -/
theorem pay2_apply (x0 : Vec Ideal S128x8192 .f32) (Z : ℕ → ℕ → ℝ) (hx0 : Rep2 x0 Z) (P : Fin 16384) (c : Fin 64) :
    k1_pay2 (F := Ideal) x0 (ix2 P c)
      = ((∑ k ∈ range 128, Z (P.val / 128) (c.val * 128 + k) * hsign 7 k (P.val % 128) : ℝ) : EReal) := by
  have hr : P.val / 128 < 128 := by have := P.isLt; omega
  have hl : P.val % 128 < 128 := Nat.mod_lt _ (by norm_num)
  have hp : (P.val / 128) * 64 + c.val < 8192 := by have := c.isLt; omega
  rw [pay2_eq]
  refine (shapeCast_apply _ shapeCasts_S128x128x64_S16384x64 (ix2 P c)
    (ix3 (⟨P.val / 128, hr⟩ : Fin 128) (⟨P.val % 128, hl⟩ : Fin 128) c) ?_).trans ?_
  · rw [Shape.rowMajor_val_three, Shape.rowMajor_val_two]
    show (P.val / 128 * 128 + P.val % 128) * 64 + c.val = P.val * 64 + c.val
    omega
  refine (transpose_ix3_021_apply _ transposes_S128x64x128_p0_2_1_S128x128x64 _ _ _).trans ?_
  refine (shapeCast_apply _ shapeCasts_S8192x128_S128x64x128 _
    (ix2 (⟨(P.val / 128) * 64 + c.val, hp⟩ : Fin 8192) (⟨P.val % 128, hl⟩ : Fin 128)) ?_).trans ?_
  · rw [Shape.rowMajor_val_three, Shape.rowMajor_val_two]
    rfl
  rw [dotA_eq]
  refine (mm3_plain_apply _ _ (fun p k => Z (p / 64) ((p % 64) * 128 + k)) (fun k j => hsign 7 k j)
    (fun p k => cut_apply x0 Z hx0 p k)
    (fun k j => signMat_iota 7 (le_refl 7) (by norm_num) iota_S128x128_d0_w32 iota_S128x128_d1_w32 k j) _ _).trans ?_
  show ((∑ k ∈ range 128, Z (((P.val / 128) * 64 + c.val) / 64) ((((P.val / 128) * 64 + c.val) % 64) * 128 + k)
      * hsign 7 k (P.val % 128) : ℝ) : EReal) = _
  have e1 : ((P.val / 128) * 64 + c.val) / 64 = P.val / 128 := by have := c.isLt; omega
  have e2 : ((P.val / 128) * 64 + c.val) % 64 = c.val := by have := c.isLt; omega
  rw [e1, e2]

/-! ## The second stage: the high six bits -/

/-- The transform part of the second payload: the product with the 64 x 64 sign matrix, laid back out as a block. -/
def hg (v43 : FVec Ideal S16384x64 .f32) (v44 v45 : IVec S64x64 32) : FVec Ideal S128x8192 .f32 :=
  shapeCast S128x8192 (transpose S128x64x128 [0, 2, 1] (shapeCast S128x128x64
    (mm3 dot_S16384x64_S64x64_S16384x64_1_0_0_1_n_n v43 (signMat v44 v45))
    shapeCasts_S16384x64_S128x128x64) transposes_S128x128x64_p0_2_1_S128x64x128) shapeCasts_S128x64x128_S128x8192

/-- The second and third payloads at `(r, o)`: the cosine feature of the transform part there. -/
theorem pay13_apply (v43 : FVec Ideal S16384x64 .f32) (v44 v45 : IVec S64x64 32) (s u : Vec Ideal S8192 .f32)
    (r : Fin 128) (o : Fin 8192) :
    k1_pay1 (F := Ideal) (k1_pay3 (F := Ideal) v43 v44 v45 s) u (ix2 r o)
      = tail (hg v43 v44 v45 (ix2 r o)) (s (ix1 o)) (u (ix1 o)) := by
  have e : k1_pay1 (F := Ideal) (k1_pay3 (F := Ideal) v43 v44 v45 s) u (ix2 r o)
      = Ideal.cos (hg v43 v44 v45 (ix2 r o)
            * broadcastTo S128x8192 (shapeCast S1x8192 s shapeCasts_S8192_S1x8192) broadcasts_S1x8192_S128x8192 (ix2 r o)
            * Ideal.ofBits .f32 0x3C3504F3#32
          + broadcastTo S128x8192 (shapeCast S1x8192
              (mulf (broadcast S8192 (Scalar.ofBits (F := Ideal) .f32 0x40C90FDB#32)) u) shapeCasts_S8192_S1x8192)
              broadcasts_S1x8192_S128x8192 (ix2 r o))
        * Ideal.ofBits .f32 0x3C800000#32 := rfl
  rw [e, broadcastTo_1b_ab_apply, broadcastTo_1b_ab_apply, shapeCast_a_1a_apply, shapeCast_a_1a_apply]
  rfl

/-- The transform part at `(r, o)`, on the first payload of a real table: the Hadamard transform of order 8192 of
    row `r` at `o`. -/
theorem hg_apply (v43 : FVec Ideal S16384x64 .f32) (Z : ℕ → ℕ → ℝ)
    (hv : ∀ (P : Fin 16384) (c : Fin 64), v43 (ix2 P c)
      = ((∑ k ∈ range 128, Z (P.val / 128) (c.val * 128 + k) * hsign 7 k (P.val % 128) : ℝ) : EReal))
    (r : Fin 128) (o : Fin 8192) :
    hg v43 (iota .tc S64x64 32 [0] iota_S64x64_d0_w32) (iota .tc S64x64 32 [1] iota_S64x64_d1_w32) (ix2 r o)
      = ((HGtab Z r.val o.val : ℝ) : EReal) := by
  have hjh : o.val / 128 < 64 := by have := o.isLt; omega
  have hjl : o.val % 128 < 128 := Nat.mod_lt _ (by norm_num)
  have hP : r.val * 128 + o.val % 128 < 16384 := by have := r.isLt; omega
  unfold hg
  refine (shapeCast_apply _ shapeCasts_S128x64x128_S128x8192 (ix2 r o)
    (ix3 r (⟨o.val / 128, hjh⟩ : Fin 64) (⟨o.val % 128, hjl⟩ : Fin 128)) ?_).trans ?_
  · rw [Shape.rowMajor_val_three, Shape.rowMajor_val_two]
    show (r.val * 64 + o.val / 128) * 128 + o.val % 128 = r.val * 8192 + o.val
    omega
  refine (transpose_ix3_021_apply _ transposes_S128x128x64_p0_2_1_S128x64x128 _ _ _).trans ?_
  refine (shapeCast_apply _ shapeCasts_S16384x64_S128x128x64 _
    (ix2 (⟨r.val * 128 + o.val % 128, hP⟩ : Fin 16384) (⟨o.val / 128, hjh⟩ : Fin 64)) ?_).trans ?_
  · rw [Shape.rowMajor_val_three, Shape.rowMajor_val_two]
    rfl
  rw [dotB_eq]
  refine (mm3_plain_apply _ _
    (fun P c => ∑ k ∈ range 128, Z (P / 128) (c * 128 + k) * hsign 7 k (P % 128)) (fun c j => hsign 6 c j)
    (fun P c => hv P c)
    (fun c j => signMat_iota 6 (by norm_num) (by norm_num) iota_S64x64_d0_w32 iota_S64x64_d1_w32 c j) _ _).trans ?_
  refine congrArg (fun t : ℝ => (t : EReal)) ?_
  show ∑ c ∈ range 64, (∑ k ∈ range 128, Z ((r.val * 128 + o.val % 128) / 128) (c * 128 + k)
      * hsign 7 k ((r.val * 128 + o.val % 128) % 128)) * hsign 6 c (o.val / 128) = HGtab Z r.val o.val
  have e1 : (r.val * 128 + o.val % 128) / 128 = r.val := by omega
  have e2 : (r.val * 128 + o.val % 128) % 128 = o.val % 128 := by omega
  rw [e1, e2]
  have h := kron_wht 6 7 (Z r.val) (o.val / 128) (o.val % 128) (by norm_num; exact hjh) (by norm_num; exact hjl)
  rw [show (6 + 7 : ℕ) = 13 from rfl, show (2 : ℕ) ^ 6 = 64 from by norm_num, show (2 : ℕ) ^ 7 = 128 from by norm_num,
    show (2 : ℕ) ^ 13 = 8192 from by norm_num, Nat.div_add_mod' o.val 128] at h
  exact h

/-- The second kernel's body on a block of 128 rows: transformed with the Hadamard matrix of order 8192 = 64 * 128
    (the low 7 bits against the 128 x 128 sign matrix, then the high 6 bits against the 64 x 64 one), then the cosine
    feature with the block's `S` and `U`. -/
theorem pay1 (x0 : Vec Ideal S128x8192 .f32) (s u : Vec Ideal S8192 .f32) (Z : ℕ → ℕ → ℝ) (hx0 : Rep2 x0 Z)
    (idx : S128x8192.Idx) :
    k1_pay1 (F := Ideal) (k1_pay3 (F := Ideal) (k1_pay2 (F := Ideal) x0)
        (iota .tc S64x64 32 [0] iota_S64x64_d0_w32) (iota .tc S64x64 32 [1] iota_S64x64_d1_w32) s) u idx
      = tail ((HGtab Z (idx 0).val (idx 1).val : ℝ) : EReal) (s (ix1 (idx 1))) (u (ix1 (idx 1))) := by
  obtain ⟨r, o, rfl⟩ : ∃ (r : Fin 128) (o : Fin 8192), idx = ix2 r o := ⟨idx 0, idx 1, eq_ix2 idx⟩
  rw [pay13_apply, hg_apply _ Z (fun P c => pay2_apply x0 Z hx0 P c) r o]

end Cert.KernBody1

end
-- ==== Proof.KernRegions.lean ====
import proofs.«427721_j65506841198938_3_alg».proof.Proof.Gen.KernelIdeal.Frame
import proofs.«427721_j65506841198938_3_alg».proof.Proof.KernBody0
import proofs.«427721_j65506841198938_3_alg».proof.Proof.KernBody1
import Idealize.ShloMosaic.Lib.Pipeline.Value

/-!
# From blocks to arrays: what each kernel region leaves in its output array

Region 0 runs the first body on the four blocks of 512 rows of the `2048 x 2048` input; region 1 runs the second
body on the sixteen blocks of 128 rows of the `2048 x 8192` input.  Each block of the output array is what the
body wrote for that block, the blocks cover the array, and the body's value at a row only depends on that row:
so the output array is the row-wise function of the whole input array.
-/

noncomputable section

namespace Cert.KernRegions

open Idealize.ShloMosaic Idealize.ShloMosaic.TcCoe Idealize.ShloMosaic.ValueIdx Idealize.SL.Sem
open Cert.KernelIdeal Cert.KernelIdeal.Gen Cert.Spec Cert.Hadamard
open Idealize.ShloMosaic.Pipeline (Dat)

variable (V : (c : Dev nD) → (b : Ref sig .tc) → Buf (Elt Ideal) ((c : Thread nD τ).loc b))

/-! ## Region 0 -/

theorem hz2 : (![0, 0] : Fin 2 → Nat) = fun _ => 0 := funext fun a => by
  match a with
  | ⟨0, _⟩ => rfl
  | ⟨1, _⟩ => rfl

theorem hz1 : (![0] : Fin 1 → Nat) = fun _ => 0 := funext fun a => by
  match a with
  | ⟨0, _⟩ => rfl

/-- The block index maps of region 0 over its four points: the matrix windows sit at block (t, 0), the sign vector is whole. -/
theorem idx_facts0 : ∀ t : Fin cfg0.N, win0_0.index t (0 : Fin 2) = t.val ∧ win0_0.index t (1 : Fin 2) = 0
    ∧ win0_1.index t (0 : Fin 1) = 0
    ∧ win0_2.index t (0 : Fin 2) = t.val ∧ win0_2.index t (1 : Fin 2) = 0 :=
  (by decide +kernel : ∀ t : Fin grid0.N, _)

/-- The input block of point t is rows 512 t ... 512 t + 511 of the input array. -/
theorem iblk0_0_rep (c : Dev nD) (t : Fin cfg0.N) (X : ℕ → ℕ → ℝ)
    (hX : Rep2 (V c main_v0 : S2048x2048.Idx → EReal) X) :
    Rep2 (iblk0 (F := Ideal) V c 0 t : Vec Ideal S512x2048 .f32) (fun r i => X (t.val * 512 + r) i) := by
  intro j
  obtain ⟨e0, e1, -, -, -⟩ := idx_facts0 t
  unfold iblk0
  rw [View.read_apply]
  show (V c main_v0 : S2048x2048.Idx → EReal) (((cfg0.win 0).blk t).view.emb j) = _
  refine (hX _).trans ?_
  have c0 : ((((cfg0.win 0).blk t).view.emb j) 0).val = t.val * 512 + (j 0).val := by
    show win0_0.index t (0 : Fin 2) * 512 + 1 * (j 0).val = _
    rw [e0]; omega
  have c1 : ((((cfg0.win 0).blk t).view.emb j) 1).val = (j 1).val := by
    show win0_0.index t (1 : Fin 2) * 2048 + 1 * (j 1).val = _
    rw [e1]; omega
  rw [c0, c1]

/-- The sign block of every point is the whole sign vector. -/
theorem iblk0_1_rep (c : Dev nD) (t : Fin cfg0.N) (b : ℕ → ℝ)
    (hb : Rep1 (V c main_arg1 : S2048.Idx → EReal) b) :
    Rep1 (iblk0 (F := Ideal) V c 1 t : Vec Ideal S2048 .f32) b := by
  intro j
  obtain ⟨-, -, e2, -, -⟩ := idx_facts0 t
  unfold iblk0
  rw [View.read_apply]
  show (V c main_arg1 : S2048.Idx → EReal) (((cfg0.win 1).blk t).view.emb j) = _
  refine (hb _).trans ?_
  have c0 : ((((cfg0.win 1).blk t).view.emb j) 0).val = (j 0).val := by
    show win0_1.index t (0 : Fin 1) * 2048 + 1 * (j 0).val = _
    rw [e2]; omega
  rw [c0]

/-- The array region 0 leaves: the transform of every row of the sign-scaled input. -/
abbrev G0 (X : ℕ → ℕ → ℝ) (b : ℕ → ℝ) : S2048x2048.Idx → EReal :=
  fun idx => ((Ytab (Vtab X b) (idx 0).val (idx 1).val : ℝ) : EReal)

/-- What point t writes back is block t of that array. -/
theorem flushed0_eq (c : Dev nD) (X : ℕ → ℕ → ℝ) (b : ℕ → ℝ)
    (hX : Rep2 (V c main_v0 : S2048x2048.Idx → EReal) X) (hb : Rep1 (V c main_arg1 : S2048.Idx → EReal) b) (t : Fin cfg0.N) :
    (dat0 (F := Ideal) V c).flushed 2 t = ((cfg0.win 2).blk t).view.read (Elt Ideal) (G0 X b) := by
  show (cfg0.win 2).cut (grid0.coords t) ((dat0 (F := Ideal) V c).after 2 t) = _
  rw [after0_2]
  unfold out0_2
  rw [View.canon_unit_zero hz2]
  simp only [View.ld_unit_zero (S := S512x2048) hz2, View.ld_unit_zero (S := S2048) hz1]
  funext j
  have hp := Cert.KernBody0.pay0 (iblk0 (F := Ideal) V c 0 t) (iblk0 (F := Ideal) V c 1 t) _ b
    (iblk0_0_rep V c t X hX) (iblk0_1_rep V c t b hb) j
  obtain ⟨-, -, -, e3, e4⟩ := idx_facts0 t
  show k0_pay2 (F := Ideal) (k0_pay1 (F := Ideal) (iblk0 (F := Ideal) V c 0 t) (iblk0 (F := Ideal) V c 1 t)) j
    = G0 X b (((cfg0.win 2).blk t).view.emb j)
  refine hp.trans ?_
  have c0 : ((((cfg0.win 2).blk t).view.emb j) 0).val = t.val * 512 + (j 0).val := by
    show win0_2.index t (0 : Fin 2) * 512 + 1 * (j 0).val = _
    rw [e3]; omega
  have c1 : ((((cfg0.win 2).blk t).view.emb j) 1).val = (j 1).val := by
    show win0_2.index t (1 : Fin 2) * 2048 + 1 * (j 1).val = _
    rw [e4]; omega
  show ((Ytab (Vtab (fun r i => X (t.val * 512 + r) i) b) (j 0).val (j 1).val : ℝ) : EReal)
    = ((Ytab (Vtab X b) ((((cfg0.win 2).blk t).view.emb j) 0).val ((((cfg0.win 2).blk t).view.emb j) 1).val : ℝ) : EReal)
  rw [c0, c1]
  rfl

/-- An index of the array is in point t's block iff each coordinate is in the block's range on its axis. -/
theorem mem_blk0 (t : Fin cfg0.N) (i : S2048x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v1).slice (win0_2.rect t)).set ↔ _
  rw [View.set_slice_whole, Rect.mem_set_unit]
  exact Iff.rfl

/-- Every index of the array is in the block of the point its row falls in. -/
theorem cover0 (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  have ht : (i 0).val / 512 < cfg0.N := by
    show (i 0).val / 512 < 4
    omega
  refine ⟨⟨(i 0).val / 512, ht⟩, flush0_2 _, ?_⟩
  rw [mem_blk0]
  obtain ⟨-, -, -, e3, e4⟩ := idx_facts0 ⟨(i 0).val / 512, ht⟩
  intro a
  match a with
  | ⟨0, _⟩ =>
    show win0_2.index ⟨(i 0).val / 512, ht⟩ (0 : Fin 2) * 512 ≤ (i 0).val ∧ (i 0).val < win0_2.index ⟨(i 0).val / 512, ht⟩ (0 : Fin 2) * 512 + 512
    rw [e3]
    show (i 0).val / 512 * 512 ≤ (i 0).val ∧ (i 0).val < (i 0).val / 512 * 512 + 512
    omega
  | ⟨1, _⟩ =>
    show win0_2.index ⟨(i 0).val / 512, ht⟩ (1 : Fin 2) * 2048 ≤ (i 1).val ∧ (i 1).val < win0_2.index ⟨(i 0).val / 512, ht⟩ (1 : Fin 2) * 2048 + 2048
    rw [e4]
    omega

/-- Region 0's output array, from the region's entry contents: the Hadamard transform of order 2048 of every row
    of the sign-scaled input. -/
theorem final0 (c : Dev nD) (X : ℕ → ℕ → ℝ) (b : ℕ → ℝ)
    (hX : Rep2 (V c main_v0 : S2048x2048.Idx → EReal) X) (hb : Rep1 (V c main_arg1 : S2048.Idx → EReal) b) :
    Rep2 ((dat0 (F := Ideal) V c).arrAt 2 cfg0.N : S2048x2048.Idx → EReal) (Ytab (Vtab X b)) := by
  have h := (dat0 (F := Ideal) V c).arrAt_eq_of_cover 2 (G0 X b) (fun t _ => flushed0_eq V c X b hX hb t) cover0
  intro idx
  rw [h]

/-! ## Region 1 -/

/-- The block index maps of region 1 over its sixteen points: the matrix windows sit at block (t, 0), the two vectors are whole. -/
theorem idx_facts1 : ∀ t : Fin cfg1.N, win1_0.index t (0 : Fin 2) = t.val ∧ win1_0.index t (1 : Fin 2) = 0
    ∧ win1_1.index t (0 : Fin 1) = 0 ∧ win1_2.index t (0 : Fin 1) = 0
    ∧ win1_3.index t (0 : Fin 2) = t.val ∧ win1_3.index t (1 : Fin 2) = 0 :=
  (by decide +kernel : ∀ t : Fin grid1.N, _)

/-- The input block of point t is rows 128 t ... 128 t + 127 of the input array. -/
theorem iblk1_0_rep (c : Dev nD) (t : Fin cfg1.N) (Z : ℕ → ℕ → ℝ)
    (hZ : Rep2 (V c main_v6 : S2048x8192.Idx → EReal) Z) :
    Rep2 (iblk1 (F := Ideal) V c 0 t : Vec Ideal S128x8192 .f32) (fun r i => Z (t.val * 128 + r) i) := by
  intro j
  obtain ⟨e0, e1, -, -, -, -⟩ := idx_facts1 t
  unfold iblk1
  rw [View.read_apply]
  show (V c main_v6 : S2048x8192.Idx → EReal) (((cfg1.win 0).blk t).view.emb j) = _
  refine (hZ _).trans ?_
  have c0 : ((((cfg1.win 0).blk t).view.emb j) 0).val = t.val * 128 + (j 0).val := by
    show win1_0.index t (0 : Fin 2) * 128 + 1 * (j 0).val = _
    rw [e0]; omega
  have c1 : ((((cfg1.win 0).blk t).view.emb j) 1).val = (j 1).val := by
    show win1_0.index t (1 : Fin 2) * 8192 + 1 * (j 1).val = _
    rw [e1]; omega
  rw [c0, c1]

/-- The array region 1 leaves: the cosine feature of the transform of every row. -/
abbrev G1 (c : Dev nD) (Z : ℕ → ℕ → ℝ) : S2048x8192.Idx → EReal :=
  fun idx => tail ((HGtab Z (idx 0).val (idx 1).val : ℝ) : EReal)
    ((V c main_arg3 : S8192.Idx → EReal) (ix1 (idx 1))) ((V c main_arg5 : S8192.Idx → EReal) (ix1 (idx 1)))

/-- What point t writes back is block t of that array. -/
theorem flushed1_eq (c : Dev nD) (Z : ℕ → ℕ → ℝ) (hZ : Rep2 (V c main_v6 : S2048x8192.Idx → EReal) Z) (t : Fin cfg1.N) :
    (dat1 (F := Ideal) V c).flushed 3 t = ((cfg1.win 3).blk t).view.read (Elt Ideal) (G1 V c Z) := by
  show (cfg1.win 3).cut (grid1.coords t) ((dat1 (F := Ideal) V c).after 3 t) = _
  rw [after1_3]
  unfold out1_3
  rw [View.canon_unit_zero hz2]
  simp only [View.ld_unit_zero (S := S128x8192) hz2, View.ld_unit_zero (S := S8192) hz1]
  funext j
  have hp := Cert.KernBody1.pay1 (iblk1 (F := Ideal) V c 0 t) (iblk1 (F := Ideal) V c 1 t) (iblk1 (F := Ideal) V c 2 t) _
    (iblk1_0_rep V c t Z hZ) j
  obtain ⟨-, -, e2, e3, e4, e5⟩ := idx_facts1 t
  show k1_pay1 (F := Ideal) (k1_pay3 (F := Ideal) (k1_pay2 (F := Ideal) (iblk1 (F := Ideal) V c 0 t))
        (iota .tc S64x64 32 [0] iota_S64x64_d0_w32) (iota .tc S64x64 32 [1] iota_S64x64_d1_w32) (iblk1 (F := Ideal) V c 1 t))
        (iblk1 (F := Ideal) V c 2 t) j
    = G1 V c Z (((cfg1.win 3).blk t).view.emb j)
  refine hp.trans ?_
  have c0 : ((((cfg1.win 3).blk t).view.emb j) 0).val = t.val * 128 + (j 0).val := by
    show win1_3.index t (0 : Fin 2) * 128 + 1 * (j 0).val = _
    rw [e4]; omega
  have c1 : ((((cfg1.win 3).blk t).view.emb j) 1).val = (j 1).val := by
    show win1_3.index t (1 : Fin 2) * 8192 + 1 * (j 1).val = _
    rw [e5]; omega
  have s_eq : (iblk1 (F := Ideal) V c 1 t : Vec Ideal S8192 .f32) (ix1 (j 1))
      = (V c main_arg3 : S8192.Idx → EReal) (ix1 ((((cfg1.win 3).blk t).view.emb j) 1)) := by
    unfold iblk1
    rw [View.read_apply]
    show (V c main_arg3 : S8192.Idx → EReal) (((cfg1.win 1).blk t).view.emb (ix1 (j 1))) = _
    congr 1
    funext a
    apply Fin.ext
    match a with
    | ⟨0, _⟩ =>
      show win1_1.index t (0 : Fin 1) * 8192 + 1 * (j 1).val = win1_3.index t (1 : Fin 2) * 8192 + 1 * (j 1).val
      rw [e2, e5]
  have u_eq : (iblk1 (F := Ideal) V c 2 t : Vec Ideal S8192 .f32) (ix1 (j 1))
      = (V c main_arg5 : S8192.Idx → EReal) (ix1 ((((cfg1.win 3).blk t).view.emb j) 1)) := by
    unfold iblk1
    rw [View.read_apply]
    show (V c main_arg5 : S8192.Idx → EReal) (((cfg1.win 2).blk t).view.emb (ix1 (j 1))) = _
    congr 1
    funext a
    apply Fin.ext
    match a with
    | ⟨0, _⟩ =>
      show win1_2.index t (0 : Fin 1) * 8192 + 1 * (j 1).val = win1_3.index t (1 : Fin 2) * 8192 + 1 * (j 1).val
      rw [e3, e5]
  show tail ((HGtab (fun r i => Z (t.val * 128 + r) i) (j 0).val (j 1).val : ℝ) : EReal)
      ((iblk1 (F := Ideal) V c 1 t : Vec Ideal S8192 .f32) (ix1 (j 1))) ((iblk1 (F := Ideal) V c 2 t : Vec Ideal S8192 .f32) (ix1 (j 1)))
    = tail ((HGtab Z ((((cfg1.win 3).blk t).view.emb j) 0).val ((((cfg1.win 3).blk t).view.emb j) 1).val : ℝ) : EReal)
      ((V c main_arg3 : S8192.Idx → EReal) (ix1 ((((cfg1.win 3).blk t).view.emb j) 1)))
      ((V c main_arg5 : S8192.Idx → EReal) (ix1 ((((cfg1.win 3).blk t).view.emb j) 1)))
  rw [s_eq, u_eq, c0, c1]
  rfl

/-- An index of the array is in point t's block iff each coordinate is in the block's range on its axis. -/
theorem mem_blk1 (t : Fin cfg1.N) (i : S2048x8192.Idx) :
    i ∈ ((cfg1.win 3).blk t).view.set ↔ ∀ a : Fin 2, win1_3.index t a * S128x8192.size a ≤ (i a).val ∧ (i a).val < win1_3.index t a * S128x8192.size a + S128x8192.size a := by
  show i ∈ ((View.whole main_v7).slice (win1_3.rect t)).set ↔ _
  rw [View.set_slice_whole, Rect.mem_set_unit]
  exact Iff.rfl

/-- Every index of the array is in the block of the point its row falls in. -/
theorem cover1 (i : S2048x8192.Idx) :
    ∃ t : Fin cfg1.N, (cfg1.win 3).flush t = true ∧ i ∈ ((cfg1.win 3).blk t).view.set := by
  have hi0 : (i 0).val < 2048 := (i 0).isLt
  have hi1 : (i 1).val < 8192 := (i 1).isLt
  have ht : (i 0).val / 128 < cfg1.N := by
    show (i 0).val / 128 < 16
    omega
  refine ⟨⟨(i 0).val / 128, ht⟩, flush1_3 _, ?_⟩
  rw [mem_blk1]
  obtain ⟨-, -, -, -, e4, e5⟩ := idx_facts1 ⟨(i 0).val / 128, ht⟩
  intro a
  match a with
  | ⟨0, _⟩ =>
    show win1_3.index ⟨(i 0).val / 128, ht⟩ (0 : Fin 2) * 128 ≤ (i 0).val ∧ (i 0).val < win1_3.index ⟨(i 0).val / 128, ht⟩ (0 : Fin 2) * 128 + 128
    rw [e4]
    show (i 0).val / 128 * 128 ≤ (i 0).val ∧ (i 0).val < (i 0).val / 128 * 128 + 128
    omega
  | ⟨1, _⟩ =>
    show win1_3.index ⟨(i 0).val / 128, ht⟩ (1 : Fin 2) * 8192 ≤ (i 1).val ∧ (i 1).val < win1_3.index ⟨(i 0).val / 128, ht⟩ (1 : Fin 2) * 8192 + 8192
    rw [e5]
    omega

/-- Region 1's output array, from the region's entry contents: the cosine feature of the Hadamard transform of
    order 8192 of every row. -/
theorem final1 (c : Dev nD) (Z : ℕ → ℕ → ℝ) (hZ : Rep2 (V c main_v6 : S2048x8192.Idx → EReal) Z) :
    ((dat1 (F := Ideal) V c).arrAt 3 cfg1.N : S2048x8192.Idx → EReal)
      = fun idx => tail ((HGtab Z (idx 0).val (idx 1).val : ℝ) : EReal)
          ((V c main_arg3 : S8192.Idx → EReal) (ix1 (idx 1))) ((V c main_arg5 : S8192.Idx → EReal) (ix1 (idx 1))) := by
  exact (dat1 (F := Ideal) V c).arrAt_eq_of_cover 3 (G1 V c Z) (fun t _ => flushed1_eq V c Z hZ t) cover1

end Cert.KernRegions

end
-- ==== Proof.LibGather.lean ====
import Idealize.ShloMosaic.Lib.ValueIdx

/-!
# `stablehlo.gather` of columns of a matrix, read at an index

What `x[:, idx]` (`jnp.take(x, idx, axis=1)`) of a matrix `x : [M, N]` at an integer array `idx : [C]` lowers to:
`stablehlo.gather` with offset_dims `[0]`, collapsed_slice_dims `[1]`, start_index_map `[1]`, index_vector_dim 1 and
slice_sizes `[M, 1]` over the indices as `[C, 1]`.  Result element `(r, q)` is `x` at row `r` and at the column the
start index `idx[q, 0]` names, read as a signed integer and clamped into `[0, N − 1]`, as StableHLO's gather clamps
every start index.
-/

noncomputable section

namespace Cert.LibGather

open Idealize.ShloMosaic Idealize.ShloMosaic.ValueIdx

variable {α : Type}

/-- Those dimension numbers for an operand `[M, N]`, start indices `[C, 1]` and result `[M, C]`; their conditions
    `wf` are decided on a program's literal shapes. -/
abbrev colsDims (M N C : Nat) (wf : GatherDims.WF ⟨2, ![M, N]⟩ ⟨2, ![C, 1]⟩ ⟨2, ![M, C]⟩ [0] [1] [] [1] [] 1 ![M, 1]) :
    GatherDims ⟨2, ![M, N]⟩ ⟨2, ![C, 1]⟩ ⟨2, ![M, C]⟩ where
  offsetDims := [0]
  collapsedSliceDims := [1]
  operandBatchingDims := []
  startIndicesBatchingDims := []
  startIndexMap := [1]
  indexVectorDim := 1
  sliceSizes := ![M, 1]
  wf := wf

/-- THE GATHER READ AT `(r, q)`: the operand at row `r` and at the column the start index `idx[q, 0]` names, read
    signed and clamped into `[0, N − 1]`. -/
theorem gather_cols_apply {M N C w : Nat} (hN : 0 < N)
    (wf : GatherDims.WF ⟨2, ![M, N]⟩ ⟨2, ![C, 1]⟩ ⟨2, ![M, C]⟩ [0] [1] [] [1] [] 1 ![M, 1])
    (x : (⟨2, ![M, N]⟩ : Shape).Idx → α) (idx : IVec ⟨2, ![C, 1]⟩ w) (y : (⟨2, ![M, C]⟩ : Shape).Idx) :
    Host.gather (colsDims M N C wf) x idx y
      = x (ix2 ⟨(y 0).val, idx2_lt0 y⟩
          ⟨min (idx (ix2 ⟨(y 1).val, idx2_lt1 y⟩ ⟨0, Nat.one_pos⟩)).toInt.toNat (N - 1), by omega⟩) := by
  unfold Host.gather
  congr 1
  funext a
  refine Fin.ext ?_
  match a with
  | ⟨0, _⟩ =>
    -- the row axis: not in the start index map, not a batching axis, the one kept axis, which offset axis 0 reads
    show (colsDims M N C wf).start y idx 0 + (colsDims M N C wf).batchCoord y 0 + (colsDims M N C wf).offCoord y 0 = (y 0).val
    rw [GatherDims.batchCoord_eq_zero _ _ _ List.not_mem_nil]
    unfold GatherDims.start GatherDims.offCoord
    have h01 : (0 : Fin 2) ∉ ([1] : List (Fin 2)) := by decide
    rw [dif_neg (show (0 : Fin 2) ∉ (colsDims M N C wf).startIndexMap from h01),
      dif_pos (show (0 : Fin 2) ∈ (colsDims M N C wf).sKept from (GatherDims.mem_sKept _ _).mpr ⟨h01, List.not_mem_nil⟩)]
    simp only [Nat.add_zero, Nat.zero_add]
    rfl
  | ⟨1, _⟩ =>
    -- the column axis: collapsed, so no offset; its start is the clamped start index
    show (colsDims M N C wf).start y idx 1 + (colsDims M N C wf).batchCoord y 1 + (colsDims M N C wf).offCoord y 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims M N C wf).startIndexMap from List.mem_singleton.mpr rfl)]
    have hsi : (colsDims M N C wf).siIdx y ⟨List.idxOf (1 : Fin 2) (colsDims M N C wf).startIndexMap,
        List.idxOf_lt_length_iff.2 (List.mem_singleton.mpr rfl)⟩ = ix2 ⟨(y 1).val, idx2_lt1 y⟩ ⟨0, Nat.one_pos⟩ := by
      funext b; refine Fin.ext ?_
      match b with
      | ⟨0, _⟩ => rfl
      | ⟨1, _⟩ => rfl
    rw [hsi]
    rfl

end Cert.LibGather

end
-- ==== Proof.KernValue.lean ====
import proofs.«427721_j65506841198938_3_alg».proof.Proof.Gen.KernelIdeal.Frame
import proofs.«427721_j65506841198938_3_alg».proof.Proof.KernRegions
import proofs.«427721_j65506841198938_3_alg».proof.Proof.LibGather
import Idealize.ShloMosaic.Lib.StableHlo.Run
import Idealize.ShloMosaic.Lib.Affine
import Idealize.ShloMosaic.Lib.Pipeline.Value
import Idealize.ShloMosaic.PureOps.Reduce

/-!
# The kernel program's result array as one function of the arguments

Between the launch and the return the kernel program reshapes `x` to `2048 x 2048`, runs region 0 (the Hadamard
transform of order 2048 of the sign-scaled rows), reduces the indices `P` modulo 2048 (a truncated remainder with
the sign repaired, which on `0 ≤ P < 8192` is the plain remainder), gathers those columns (the bounds mask of the
take is all true and its fill is never used), scales by `G`, and runs region 1 (the transform of order 8192 and the
cosine feature).  Read through, the result array is `Cert.Spec.OUT`.
-/

noncomputable section

namespace Cert.KernValue

open Idealize.ShloMosaic Idealize.ShloMosaic.TcCoe Idealize.ShloMosaic.ValueIdx Idealize.ShloMosaic.StableHlo Idealize.SL.Sem
open Cert.KernelIdeal Cert.KernelIdeal.Gen Cert.Spec Cert.Hadamard

/-! ## The remainder of one index word -/

/-- The floored remainder by 2048 of one 32-bit word: the truncated remainder, plus 2048 when it is nonzero and its sign
    differs from the divisor's. -/
def remW (p : BitVec 32) : BitVec 32 :=
  Scalar.select
    (IntOp.andi
      (IntOp.cmpi .ne (IntOp.cmpi .slt (IntOp.remsi .host p 2048#32) 0#32) (IntOp.cmpi .slt (2048#32 : BitVec 32) 0#32))
      (IntOp.cmpi .ne (IntOp.remsi .host p 2048#32) 0#32))
    (IntOp.addi (IntOp.remsi .host p 2048#32) 2048#32)
    (IntOp.remsi .host p 2048#32)

/-- The truncated remainder by 2048 of a nonnegative word, read unsigned: the remainder of naturals. -/
theorem remsi_toNat {p : BitVec 32} (h0 : 0 ≤ p.toInt) : (IntOp.remsi .host p 2048#32).toNat = p.toNat % 2048 := by
  have hp : 2 * p.toNat < 2 ^ 32 := BitVec.toInt_pos_iff.mp h0
  exact IntOp.toNat_remsi .host hp 2048 (by decide) (by decide)

/-- … and read signed it is the same natural. -/
theorem remsi_toInt {p : BitVec 32} (h0 : 0 ≤ p.toInt) : (IntOp.remsi .host p 2048#32).toInt = ((p.toNat % 2048 : ℕ) : ℤ) := by
  have h := remsi_toNat h0
  have hlt : p.toNat % 2048 < 2048 := Nat.mod_lt _ (by decide)
  rw [BitVec.toInt_eq_toNat_of_lt (by omega), h]

/-- On a nonnegative word the sign repair does nothing. -/
theorem remW_of_nonneg {p : BitVec 32} (h0 : 0 ≤ p.toInt) : remW p = IntOp.remsi .host p 2048#32 := by
  have hi := remsi_toInt h0
  have hs : IntOp.cmpi .slt (IntOp.remsi .host p 2048#32) 0#32 = 0#1 := by
    refine eq_zero_of_ne_one fun h => ?_
    have := IntOp.cmpi_slt.mp h
    rw [hi, show (0#32 : BitVec 32).toInt = 0 from by decide] at this
    omega
  unfold remW
  rw [hs, show IntOp.cmpi .slt (2048#32 : BitVec 32) 0#32 = 0#1 from by decide,
    show IntOp.cmpi .ne (0#1 : BitVec 1) 0#1 = 0#1 from by decide,
    show ∀ c : BitVec 1, IntOp.andi 0#1 c = 0#1 from by decide, select_zero]

/-! ## The first stretch: the indices reduced modulo 2048 -/

/-- After the constant 2048 and the 21 operations of the remainder, the buffer of reduced indices holds `remW` of each
    index word, whatever the other buffers held before. -/
theorem rem_stretch (W : Valuation τ sig (Elt Ideal)) :
    (StableHlo.after hostOps1_1 (StableHlo.after hostOps1 W) (Proc.devRef .tc main_v2) : S8192.Idx → BitVec 32)
      = fun idx => remW ((W (Proc.devRef .tc main_arg4) : S8192.Idx → BitVec 32) idx) := by
  show StableHlo.after hostOps1_1 _ (Proc.devRef .tc main_v2) = _
  after_results_simp
  rfl

/-! ## The second stretch: the take of columns -/

/-- The take's index repair: 2048 is added to a negative index. -/
def wrapI (I : IVec S8192 32) : IVec S8192 32 :=
  select (cmpi .slt I (broadcastInDim S8192 ![] bcast_S_S8192 (constantI S_ 32 0#32)))
    (addi I (broadcastInDim S8192 ![] bcast_S_S8192 (constantI S_ 32 2048#32))) I

/-- The repaired indices as a column of start indices. -/
def colI (I : IVec S8192 32) : IVec S8192x1 32 := broadcastInDim S8192x1 ![0] bcast_S8192_S8192x1_0 (wrapI I)

/-- The take's bounds mask: every start index in `[0, 2047]`, reduced by `and` over the unit axis. -/
def maskI (I : IVec S8192 32) : IVec S8192 1 :=
  Host.reduce IntOp.andi
    (andi (cmpi .sge (colI I) (broadcastInDim S8192x1 ![] bcast_S_S8192x1 (constantI S_ 32 0#32)))
      (cmpi .sle (colI I) (broadcastInDim S8192x1 ![0, 1] bcast_S1x1_S8192x1_0_1
        (broadcastInDim S1x1 ![1] bcast_S1_S1x1_1 (constantI S1 32 2047#32)))))
    (constantI S_ 1 1#1) reducesTo_S8192x1_S8192_d1 h_S_

/-- The take: the gathered columns where the mask holds, the fill elsewhere. -/
def takeT (Y : S2048x2048.Idx → EReal) (I : IVec S8192 32) : S2048x8192.Idx → EReal :=
  select (broadcastInDim S2048x8192 ![1] bcast_S8192_S2048x8192_1 (maskI I))
    (Host.gather gather_S2048x2048_S8192x1_S2048x8192_0_1_n_n_1_1_20481 Y (colI I))
    (broadcastInDim S2048x8192 ![] bcast_S_S2048x8192 (constant (F := Ideal) S_ .f32 0x7FC00000#32))

/-- After the 23 operations of the take, its result buffer holds `takeT` of the gathered operand and the index buffer,
    whatever the other buffers held before. -/
theorem take_stretch (W : Valuation τ sig (Elt Ideal)) :
    (StableHlo.after hostOps1_2 W (Proc.devRef .tc main_v3) : S2048x8192.Idx → EReal)
      = takeT (W (Proc.devRef .tc main_v1)) (W (Proc.devRef .tc main_v2)) := by
  show StableHlo.after hostOps1_2 _ (Proc.devRef .tc main_v3) = _
  after_results_simp
  rfl

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

section Take
variable (Y : S2048x2048.Idx → EReal) (I : IVec S8192 32) (hI : ∀ q, 0 ≤ (I q).toInt ∧ (I q).toInt ≤ 2047)
include hI

/-- A nonnegative index is left as it is. -/
theorem wrapI_apply (q : S8192.Idx) : wrapI I q = I q := by
  show Scalar.select (IntOp.cmpi .slt (I q) 0#32) (IntOp.addi (I q) 2048#32) (I q) = I q
  have hs : IntOp.cmpi .slt (I q) 0#32 = 0#1 := by
    refine eq_zero_of_ne_one fun h => ?_
    have := IntOp.cmpi_slt.mp h
    rw [show (0#32 : BitVec 32).toInt = 0 from by decide] at this
    have := (hI q).1
    omega
  rw [hs, select_zero]

/-- The column of start indices at `(q, 0)` is index `q`. -/
theorem colI_apply (j : S8192x1.Idx) : colI I j = I (ix1 (j 0)) := by
  unfold colI
  rw [broadcastInDim_apply (![0]) bcast_S8192_S8192x1_0 (wrapI I) j (ix1 (j 0)) (fun a => by
    match a with
    | ⟨0, _⟩ => rfl)]
  exact wrapI_apply I hI _

/-- Every start index is in bounds, so the mask holds everywhere. -/
theorem maskI_apply (q : S8192.Idx) : maskI I q = 1#1 := by
  unfold maskI
  rw [Host.reduce_eq_foldl]
  refine foldl_andi_one _ _ fun j _ => ?_
  show IntOp.andi (IntOp.cmpi .sge (colI I j) 0#32) (IntOp.cmpi .sle (colI I j) 2047#32) = 1#1
  rw [colI_apply I hI j]
  have h := hI (ix1 (j 0))
  rw [IntOp.andi_eq_one, IntOp.cmpi_sge, IntOp.cmpi_sle, show (0#32 : BitVec 32).toInt = 0 from by decide,
    show (2047#32 : BitVec 32).toInt = 2047 from by decide]
  exact h

/-- THE TAKE AT `(r, q)`: the operand at row `r` and at the column index `q` names. -/
theorem takeT_apply (idx : S2048x8192.Idx) :
    takeT Y I idx = Y (ix2 (⟨(idx 0).val, idx2_lt0 idx⟩ : Fin 2048)
      (⟨(I (ix1 (⟨(idx 1).val, idx2_lt1 idx⟩ : Fin 8192))).toInt.toNat, by
        have := hI (ix1 (⟨(idx 1).val, idx2_lt1 idx⟩ : Fin 8192)); omega⟩ : Fin 2048)) := by
  unfold takeT
  rw [select_apply, broadcastInDim_apply (![1]) bcast_S8192_S2048x8192_1 (maskI I) idx (ix1 (idx 1)) (fun a => by
    match a with
    | ⟨0, _⟩ => rfl), maskI_apply I hI, select_one]
  show Host.gather (Cert.LibGather.colsDims 2048 2048 8192 gather_S2048x2048_S8192x1_S2048x8192_0_1_n_n_1_1_20481_wf) Y (colI I) idx = _
  rw [Cert.LibGather.gather_cols_apply (by decide)]
  refine congrArg Y (funext fun a => Fin.ext ?_)
  have := hI (ix1 (⟨(idx 1).val, idx2_lt1 idx⟩ : Fin 8192))
  match a with
  | ⟨0, _⟩ => rfl
  | ⟨1, _⟩ =>
    show min (colI I (ix2 (⟨(idx 1).val, idx2_lt1 idx⟩ : Fin 8192) (⟨0, Nat.one_pos⟩ : Fin 1))).toInt.toNat (2048 - 1)
      = (I (ix1 (⟨(idx 1).val, idx2_lt1 idx⟩ : Fin 8192))).toInt.toNat
    rw [colI_apply I hI]
    show min (I (ix1 (⟨(idx 1).val, idx2_lt1 idx⟩ : Fin 8192))).toInt.toNat (2048 - 1) = _
    omega

end Take

/-! ## The third stretch: the scaling by `G` -/

/-- After the two broadcasts and the product, region 1's input holds the take times `G` along the rows. -/
theorem mul_stretch (W : Valuation τ sig (Elt Ideal)) :
    (StableHlo.after hostOps1_3 W (Proc.devRef .tc main_v6) : S2048x8192.Idx → EReal)
      = mulf (F := Ideal) (s := S2048x8192) (φ := .f32) (W (Proc.devRef .tc main_v3))
          (broadcastInDim S2048x8192 ![0, 1] bcast_S1x8192_S2048x8192_0_1
            (broadcastInDim S1x8192 ![1] bcast_S8192_S1x8192_1 (W (Proc.devRef .tc main_arg2) : S8192.Idx → EReal))) := by
  show StableHlo.after hostOps1_3 _ (Proc.devRef .tc main_v6) = _
  after_results_simp

/-- The row broadcast of a vector at `(r, q)` is the vector at `q`. -/
theorem rowBcast_apply (v : S8192.Idx → EReal) (idx : S2048x8192.Idx) :
    broadcastInDim S2048x8192 ![0, 1] bcast_S1x8192_S2048x8192_0_1 (broadcastInDim S1x8192 ![1] bcast_S8192_S1x8192_1 v) idx
      = v (ix1 (⟨(idx 1).val, idx2_lt1 idx⟩ : Fin 8192)) := by
  rw [broadcastInDim_apply (![0, 1]) bcast_S1x8192_S2048x8192_0_1 _ idx
      (ix2 (⟨0, Nat.one_pos⟩ : Fin 1) (⟨(idx 1).val, idx2_lt1 idx⟩ : Fin 8192)) (fun a => by
    match a with
    | ⟨0, _⟩ => rfl
    | ⟨1, _⟩ => rfl),
    broadcastInDim_apply (![1]) bcast_S8192_S1x8192_1 v _ (ix1 (⟨(idx 1).val, idx2_lt1 idx⟩ : Fin 8192)) (fun a => by
    match a with
    | ⟨0, _⟩ => rfl)]

/-! ## What the stretches leave alone -/

/-- The remainder's operations write neither region 0's array nor `G` … -/
theorem keep11_v1 (W : Valuation τ sig (Elt Ideal)) :
    StableHlo.after hostOps1_1 (StableHlo.after hostOps1 W) (Proc.devRef .tc main_v1) = W (Proc.devRef .tc main_v1) := by
  show StableHlo.after hostOps1_1 _ (Proc.devRef .tc main_v1) = _
  after_results_simp
theorem keep11_arg2 (W : Valuation τ sig (Elt Ideal)) :
    StableHlo.after hostOps1_1 (StableHlo.after hostOps1 W) (Proc.devRef .tc main_arg2) = W (Proc.devRef .tc main_arg2) := by
  show StableHlo.after hostOps1_1 _ (Proc.devRef .tc main_arg2) = _
  after_results_simp
/-- … and the take's operations do not write `G`. -/
theorem keep12_arg2 (W : Valuation τ sig (Elt Ideal)) :
    StableHlo.after hostOps1_2 W (Proc.devRef .tc main_arg2) = W (Proc.devRef .tc main_arg2) := by
  show StableHlo.after hostOps1_2 _ (Proc.devRef .tc main_arg2) = _
  after_results_simp

/-! ## The run read through -/

section Run
variable (m : (ℓ : Loc nD τ sig) → Buf (Elt Ideal) ℓ) (ρ : Dev nD → PrngReg) (c : Dev nD)

/-- Region 0 is entered with the reshaped `x` … -/
theorem V1_v0 : (V1 m ρ c main_v0 : S2048x2048.Idx → EReal)
    = shapeCast S2048x2048 (m ((c.tc : Thread nD τ).loc main_arg0)) shapeCasts_S2x512x2x2048_S2048x2048 := by
  show StableHlo.after hostOps0 (W0 m ρ c) (Proc.devRef .tc main_v0) = _
  after_results_simp
  rfl
/-- … and with `B` as launched. -/
theorem V1_arg1 : V1 m ρ c main_arg1 = m ((c.tc : Thread nD τ).loc main_arg1) := by
  show StableHlo.after hostOps0 (W0 m ρ c) (Proc.devRef .tc main_arg1) = _
  after_results_simp
/-- At region 0's exit `G` and `P` are as launched. -/
theorem W2_arg2 : W2 m ρ c (Proc.devRef .tc main_arg2) = m ((c.tc : Thread nD τ).loc main_arg2) := by
  refine (W2_of_ne m ρ c main_arg2 (by decide)).trans ?_
  show StableHlo.after hostOps0 (W0 m ρ c) (Proc.devRef .tc main_arg2) = _
  after_results_simp
theorem W2_arg4 : W2 m ρ c (Proc.devRef .tc main_arg4) = m ((c.tc : Thread nD τ).loc main_arg4) := by
  refine (W2_of_ne m ρ c main_arg4 (by decide)).trans ?_
  show StableHlo.after hostOps0 (W0 m ρ c) (Proc.devRef .tc main_arg4) = _
  after_results_simp

end Run

/-! ## Region 1's input, and the result -/

section Value
variable (m : (ℓ : Loc nD τ sig) → Buf (Elt Ideal) ℓ) (ρ : Dev nD → PrngReg) (c : Dev nD)

/-- Region 1 is entered with the take, by the reduced indices, of region 0's array, times `G` along the rows. -/
theorem V6_v6 : (V6 m ρ c main_v6 : S2048x8192.Idx → EReal)
    = mulf (F := Ideal) (s := S2048x8192) (φ := .f32)
        (takeT (W2 m ρ c (Proc.devRef .tc main_v1))
          (fun idx => remW ((m ((c.tc : Thread nD τ).loc main_arg4) : S8192.Idx → BitVec 32) idx)))
        (broadcastInDim S2048x8192 ![0, 1] bcast_S1x8192_S2048x8192_0_1
          (broadcastInDim S1x8192 ![1] bcast_S8192_S1x8192_1 (m ((c.tc : Thread nD τ).loc main_arg2) : S8192.Idx → EReal))) := by
  have e3 : W5 m ρ c (Proc.devRef .tc main_v3)
      = takeT (W4 m ρ c (Proc.devRef .tc main_v1)) (W4 m ρ c (Proc.devRef .tc main_v2)) := take_stretch (W4 m ρ c)
  have e1 : W4 m ρ c (Proc.devRef .tc main_v1) = W2 m ρ c (Proc.devRef .tc main_v1) := keep11_v1 (W2 m ρ c)
  have e2 : (W4 m ρ c (Proc.devRef .tc main_v2) : S8192.Idx → BitVec 32)
      = fun idx => remW ((W2 m ρ c (Proc.devRef .tc main_arg4) : S8192.Idx → BitVec 32) idx) := rem_stretch (W2 m ρ c)
  have eg : W5 m ρ c (Proc.devRef .tc main_arg2) = m ((c.tc : Thread nD τ).loc main_arg2) :=
    (keep12_arg2 (W4 m ρ c)).trans ((keep11_arg2 (W2 m ρ c)).trans (W2_arg2 m ρ c))
  have e6 := mul_stretch (W5 m ρ c)
  rw [e3, e1, e2, eg, W2_arg4 m ρ c] at e6
  exact e6

/-- The reduced index of a word in `[0, 8192)`: nonnegative, at most 2047, and the remainder of its natural. -/
theorem remW_facts {p : BitVec 32} (h0 : 0 ≤ p.toInt) :
    0 ≤ (remW p).toInt ∧ (remW p).toInt ≤ 2047 ∧ (remW p).toInt.toNat = p.toNat % 2048 := by
  rw [remW_of_nonneg h0, remsi_toInt h0]
  have hlt : p.toNat % 2048 < 2048 := Nat.mod_lt _ (by decide)
  refine ⟨by omega, by omega, Int.toNat_natCast _⟩

end Value

/-- The result array at the last boundary of the run is the specification's function of the launch contents. -/
theorem kernel_value (m : (ℓ : Loc nD τ sig) → Buf (Elt Ideal) ℓ) (ρ : Dev nD → PrngReg) (c : Dev nD)
    (X : ℕ → ℕ → ℝ) (b g : ℕ → ℝ)
    (hX : Rep2 (shapeCast S2048x2048 (m ((c.tc : Thread nD τ).loc main_arg0)) shapeCasts_S2x512x2x2048_S2048x2048 : S2048x2048.Idx → EReal) X)
    (hb : Rep1 (m ((c.tc : Thread nD τ).loc main_arg1) : S2048.Idx → EReal) b)
    (hg : Rep1 (m ((c.tc : Thread nD τ).loc main_arg2) : S8192.Idx → EReal) g)
    (hP : ∀ idx : S8192.Idx, 0 ≤ ((m ((c.tc : Thread nD τ).loc main_arg4) : S8192.Idx → BitVec 32) idx).toInt
      ∧ ((m ((c.tc : Thread nD τ).loc main_arg4) : S8192.Idx → BitVec 32) idx).toInt < 8192) :
    (W7 (F := Ideal) m ρ c (Proc.devRef .tc main_v7) : S2048x8192.Idx → EReal)
      = OUT X b g (ptab (m ((c.tc : Thread nD τ).loc main_arg4))) (m ((c.tc : Thread nD τ).loc main_arg3))
          (m ((c.tc : Thread nD τ).loc main_arg5)) := by
  -- region 0's array is the transform of the sign-scaled rows
  have hY : Rep2 (W2 m ρ c (Proc.devRef .tc main_v1) : S2048x2048.Idx → EReal) (Ytab (Vtab X b)) := by
    rw [show W2 m ρ c (Proc.devRef .tc main_v1) = (dat0 (V1 m ρ) c).arrAt 2 cfg0.N from W2_arr m ρ c 2]
    refine Cert.KernRegions.final0 (V1 m ρ) c X b ?_ ?_
    · rw [V1_v0 m ρ c]; exact hX
    · rw [V1_arg1 m ρ c]; exact hb
  -- region 1's input is the permuted, scaled copy
  have hZ : Rep2 (V6 m ρ c main_v6 : S2048x8192.Idx → EReal)
      (Ztab (Ytab (Vtab X b)) (ptab (m ((c.tc : Thread nD τ).loc main_arg4))) g) := by
    intro idx
    have hI : ∀ q : S8192.Idx, 0 ≤ (remW ((m ((c.tc : Thread nD τ).loc main_arg4) : S8192.Idx → BitVec 32) q)).toInt
        ∧ (remW ((m ((c.tc : Thread nD τ).loc main_arg4) : S8192.Idx → BitVec 32) q)).toInt ≤ 2047 :=
      fun q => ⟨(remW_facts (hP q).1).1, (remW_facts (hP q).1).2.1⟩
    rw [V6_v6 m ρ c, mulf_apply, rowBcast_apply, takeT_apply _ _ hI idx, hY, hg, ← EReal.coe_mul]
    have h1 : (idx 1).val < 8192 := idx2_lt1 idx
    show ((Ytab (Vtab X b) (idx 0).val
        (remW ((m ((c.tc : Thread nD τ).loc main_arg4) : S8192.Idx → BitVec 32) (ix1 (⟨(idx 1).val, h1⟩ : Fin 8192)))).toInt.toNat
        * g (idx 1).val : ℝ) : EReal) = _
    rw [(remW_facts (hP (ix1 (⟨(idx 1).val, h1⟩ : Fin 8192))).1).2.2]
    unfold Ztab ptab
    rw [dif_pos h1]
  -- region 1's array, and its two vector arguments as launched
  have e3 : V6 m ρ c main_arg3 = m ((c.tc : Thread nD τ).loc main_arg3) :=
    ((W7_arr m ρ c 1).trans (((dat1 (V6 m ρ) c).arrAt_in 1 rfl _).trans (A_eq1 (V6 m ρ) c 1))).symm.trans (W7_main_arg3 m ρ c)
  have e5 : V6 m ρ c main_arg5 = m ((c.tc : Thread nD τ).loc main_arg5) :=
    ((W7_arr m ρ c 2).trans (((dat1 (V6 m ρ) c).arrAt_in 2 rfl _).trans (A_eq1 (V6 m ρ) c 2))).symm.trans (W7_main_arg5 m ρ c)
  rw [show W7 m ρ c (Proc.devRef .tc main_v7) = (dat1 (V6 m ρ) c).arrAt 3 cfg1.N from W7_arr m ρ c 3,
    Cert.KernRegions.final1 (V6 m ρ) c _ hZ, e3, e5]
  rfl

end Cert.KernValue

end
-- ==== Proof.RefStage.lean ====
import Idealize.ShloMosaic.PureOps.Ideal
import Idealize.ShloMosaic.Lib.ValueIdx
import Idealize.ShloMosaic.Lib.Pipeline.Value
import proofs.«427721_j65506841198938_3_alg».proof.Proof.Spec

/-!
# One butterfly pass of the reference, read on real tables

The reference's fast transform views a row of length `q * 2 * h` as `q` groups of two halves of length `h`
(the array `[R, q, 2, h]`), adds and subtracts the two halves, and stacks sum and difference back along the
axis of length 2.  On the real table of the row this is the butterfly pass of stride `h`
(`Cert.Hadamard.bfly h`).  Between passes the array is flattened to `[R, n]` and cut again with the next
stride; both reshapes keep the row-major position, hence the table.

Everything is stated for arbitrary extents `R q h`, so that one lemma serves every pass.
-/

noncomputable section

namespace Cert.RefStage

open Idealize.ShloMosaic Idealize.ShloMosaic.ValueIdx Cert.Spec Cert.Hadamard

variable {R q h : ℕ}

/-! ## Arithmetic of the cut: position i = a * (2 * h) + s * h + t -/

/-- The number of entries of a matrix. -/
theorem numel2 (R n : ℕ) : (⟨2, ![R, n]⟩ : Shape).numel = R * n := by
  simp [Shape.numel, Fin.prod_univ_succ]

/-- The number of entries of the cut array. -/
theorem numel4 (R q h : ℕ) : (⟨4, ![R, q, 2, h]⟩ : Shape).numel = R * (q * (2 * h)) := by
  simp [Shape.numel, Fin.prod_univ_succ]

/-- A position (a, s, t) of the cut row lies inside the row. -/
theorem pos_lt {a s t q h : ℕ} (ha : a < q) (hs : s < 2) (ht : t < h) :
    a * (2 * h) + s * h + t < q * (2 * h) := by
  have h1 : s * h ≤ 1 * h := Nat.mul_le_mul_right h (by omega)
  have h2 : (a + 1) * (2 * h) ≤ q * (2 * h) := Nat.mul_le_mul_right _ (by omega)
  have h3 : (a + 1) * (2 * h) = a * (2 * h) + 2 * h := by ring
  omega

/-- The row-major position in [R, q, 2, h] is the row-major position in [R, q * (2 * h)]. -/
theorem pos4_eq (r a s t q h : ℕ) :
    ((r * q + a) * 2 + s) * h + t = r * (q * (2 * h)) + (a * (2 * h) + s * h + t) := by ring

/-- Every position of the row is the position of its coordinates (i / (2h), (i / h) % 2, i % h). -/
theorem split_pos (i h : ℕ) : i / (2 * h) * (2 * h) + (i / h) % 2 * h + i % h = i := by
  have e1 : i / (2 * h) = i / h / 2 := by rw [Nat.mul_comm 2 h, Nat.div_div_eq_div_mul]
  have e2 := Nat.div_add_mod (i / h) 2
  have e3 := Nat.div_add_mod i h
  have e4 : i / h / 2 * (2 * h) + (i / h) % 2 * h = h * (i / h) := by
    conv_rhs => rw [← e2]
    ring
  rw [e1]; omega

/-- Two shapes with a row and the same number of entries: the row length of the matrix is q * (2 * h). -/
theorem rowlen_eq {R q h n r : ℕ} (hr : r < R)
    (e : (⟨2, ![R, n]⟩ : Shape).numel = (⟨4, ![R, q, 2, h]⟩ : Shape).numel) : n = q * (2 * h) := by
  rw [numel2, numel4] at e
  exact Nat.eq_of_mul_eq_mul_left (by omega) e

/-! ## The butterfly at the two halves of a group -/

/-- In the first half of group a the pass adds the entry one stride up. -/
theorem bfly_lo (f : ℕ → ℝ) (a t h : ℕ) (ht : t < h) :
    bfly h f (a * (2 * h) + 0 * h + t) = f (a * (2 * h) + 0 * h + t) + f (a * (2 * h) + 1 * h + t) := by
  have hh : 0 < h := by omega
  have e : a * (2 * h) + 0 * h + t = t + h * (2 * a) := by ring
  have hd : (a * (2 * h) + 0 * h + t) / h % 2 = 0 := by
    rw [e, Nat.add_mul_div_left _ _ hh, Nat.div_eq_of_lt ht, Nat.zero_add, Nat.mul_mod_right]
  unfold bfly
  rw [if_pos hd]
  have e2 : a * (2 * h) + 0 * h + t + h = a * (2 * h) + 1 * h + t := by omega
  rw [e2]

/-- In the second half of group a the pass subtracts from the entry one stride down. -/
theorem bfly_hi (f : ℕ → ℝ) (a t h : ℕ) (ht : t < h) :
    bfly h f (a * (2 * h) + 1 * h + t) = f (a * (2 * h) + 0 * h + t) - f (a * (2 * h) + 1 * h + t) := by
  have hh : 0 < h := by omega
  have e : a * (2 * h) + 1 * h + t = t + h * (2 * a + 1) := by ring
  have hd : ¬ (a * (2 * h) + 1 * h + t) / h % 2 = 0 := by
    rw [e, Nat.add_mul_div_left _ _ hh, Nat.div_eq_of_lt ht, Nat.zero_add]
    omega
  unfold bfly
  rw [if_neg hd]
  have e2 : a * (2 * h) + 1 * h + t - h = a * (2 * h) + 0 * h + t := by omega
  rw [e2]

/-! ## One half of every group, read at an index -/

/-- Half s of group (k 1) of row (k 0), as the rank-3 array the pass adds and subtracts, is the table at
    (k 1) * (2 * h) + s * h + (k 2). -/
theorem half_read (y : (⟨4, ![R, q, 2, h]⟩ : Shape).Idx → EReal) (X : ℕ → ℕ → ℝ) (hy : Rep4 y X) (s : ℕ) (hs : s < 2)
    (hsl : (⟨4, ![R, q, 2, h]⟩ : Shape).Slices ![0, 0, s, 0] ⟨4, ![R, q, 1, h]⟩)
    (hc : (⟨4, ![R, q, 1, h]⟩ : Shape).ShapeCasts ⟨3, ![R, q, h]⟩) (k : (⟨3, ![R, q, h]⟩ : Shape).Idx) :
    shapeCast (⟨3, ![R, q, h]⟩ : Shape) (extractStridedSlice (⟨4, ![R, q, 1, h]⟩ : Shape) ![0, 0, s, 0] y hsl) hc k
      = ((X (k 0).val ((k 1).val * (2 * h) + s * h + (k 2).val) : ℝ) : EReal) := by
  have h0 : (k 0).val < R := (k 0).isLt
  have h1 : (k 1).val < q := (k 1).isLt
  have h2 : (k 2).val < h := (k 2).isLt
  refine (shapeCast_apply _ hc k (ix4 ⟨(k 0).val, h0⟩ ⟨(k 1).val, h1⟩ ⟨0, by omega⟩ ⟨(k 2).val, h2⟩) ?_).trans ?_
  · rw [Shape.rowMajor_val_four, Shape.rowMajor_val_three]
    show (((k 0).val * q + (k 1).val) * 1 + 0) * h + (k 2).val = ((k 0).val * q + (k 1).val) * h + (k 2).val
    rw [Nat.mul_one, Nat.add_zero]
  · refine (extractStridedSlice_apply _ y hsl _ (ix4 ⟨(k 0).val, h0⟩ ⟨(k 1).val, h1⟩ ⟨s, hs⟩ ⟨(k 2).val, h2⟩) ?_).trans ?_
    · intro a
      match a with
      | ⟨0, _⟩ => show (k 0).val = 0 + (k 0).val; omega
      | ⟨1, _⟩ => show (k 1).val = 0 + (k 1).val; omega
      | ⟨2, _⟩ => show s = s + 0; omega
      | ⟨3, _⟩ => show (k 2).val = 0 + (k 2).val; omega
    · exact hy _

/-- Sum and difference of the two halves, stacked: the butterfly pass of stride `h` on the table. -/
theorem stage_core (y : (⟨4, ![R, q, 2, h]⟩ : Shape).Idx → EReal) (X : ℕ → ℕ → ℝ) (hy : Rep4 y X)
    (hs0 : (⟨4, ![R, q, 2, h]⟩ : Shape).Slices ![0, 0, 0, 0] ⟨4, ![R, q, 1, h]⟩)
    (hs1 : (⟨4, ![R, q, 2, h]⟩ : Shape).Slices ![0, 0, 1, 0] ⟨4, ![R, q, 1, h]⟩)
    (hc : (⟨4, ![R, q, 1, h]⟩ : Shape).ShapeCasts ⟨3, ![R, q, h]⟩)
    (hb : (⟨3, ![R, q, h]⟩ : Shape).BroadcastsInDim ⟨4, ![R, q, 1, h]⟩ (![0, 1, 3] : Fin 3 → Fin 4))
    (hcat : Shape.Concatenates [(⟨4, ![R, q, 1, h]⟩ : Shape), (⟨4, ![R, q, 1, h]⟩ : Shape)] (⟨4, ![R, q, 2, h]⟩ : Shape) 2) :
    Rep4 (concatenate (⟨4, ![R, q, 2, h]⟩ : Shape) 2
      [⟨(⟨4, ![R, q, 1, h]⟩ : Shape), broadcastInDim (⟨4, ![R, q, 1, h]⟩ : Shape) (![0, 1, 3] : Fin 3 → Fin 4) hb
          (addf (F := Ideal) (φ := .f32)
            (shapeCast (⟨3, ![R, q, h]⟩ : Shape) (extractStridedSlice (⟨4, ![R, q, 1, h]⟩ : Shape) ![0, 0, 0, 0] y hs0) hc)
            (shapeCast (⟨3, ![R, q, h]⟩ : Shape) (extractStridedSlice (⟨4, ![R, q, 1, h]⟩ : Shape) ![0, 0, 1, 0] y hs1) hc))⟩,
       ⟨(⟨4, ![R, q, 1, h]⟩ : Shape), broadcastInDim (⟨4, ![R, q, 1, h]⟩ : Shape) (![0, 1, 3] : Fin 3 → Fin 4) hb
          (subf (F := Ideal) (φ := .f32)
            (shapeCast (⟨3, ![R, q, h]⟩ : Shape) (extractStridedSlice (⟨4, ![R, q, 1, h]⟩ : Shape) ![0, 0, 0, 0] y hs0) hc)
            (shapeCast (⟨3, ![R, q, h]⟩ : Shape) (extractStridedSlice (⟨4, ![R, q, 1, h]⟩ : Shape) ![0, 0, 1, 0] y hs1) hc))⟩]
      hcat)
      (fun r => bfly h (X r)) := by
  intro idx
  have h0 : (idx 0).val < R := (idx 0).isLt
  have h1 : (idx 1).val < q := (idx 1).isLt
  have h2 : (idx 2).val < 2 := (idx 2).isLt
  have h3 : (idx 3).val < h := (idx 3).isLt
  -- the rank-3 index (row, group, place in the half) both pieces are read at
  have hk : ∀ a : Fin 3, ((ix3 (n0 := R) (n1 := q) (n2 := h) ⟨(idx 0).val, h0⟩ ⟨(idx 1).val, h1⟩ ⟨(idx 3).val, h3⟩) a).val
      = if (⟨3, ![R, q, h]⟩ : Shape).size a = 1 then 0
        else ((ix4 (n0 := R) (n1 := q) (n2 := 1) (n3 := h) ⟨(idx 0).val, h0⟩ ⟨(idx 1).val, h1⟩ ⟨0, Nat.one_pos⟩ ⟨(idx 3).val, h3⟩)
          ((![0, 1, 3] : Fin 3 → Fin 4) a)).val := by
    intro a
    match a with
    | ⟨0, _⟩ =>
      show (idx 0).val = if R = 1 then 0 else (idx 0).val
      split <;> omega
    | ⟨1, _⟩ =>
      show (idx 1).val = if q = 1 then 0 else (idx 1).val
      split <;> omega
    | ⟨2, _⟩ =>
      show (idx 3).val = if h = 1 then 0 else (idx 3).val
      split <;> omega
  rcases Nat.lt_or_ge (idx 2).val 1 with hs | hs
  · -- the first piece: the sums
    have e2 : (idx 2).val = 0 := by omega
    refine (concatenate_pair_apply_left _ _ _ hcat idx rfl
      (ix4 ⟨(idx 0).val, h0⟩ ⟨(idx 1).val, h1⟩ ⟨0, Nat.one_pos⟩ ⟨(idx 3).val, h3⟩) ?_).trans ?_
    · intro b
      match b with
      | ⟨0, _⟩ => rfl
      | ⟨1, _⟩ => rfl
      | ⟨2, _⟩ => exact e2.symm
      | ⟨3, _⟩ => rfl
    · refine (broadcastInDim_apply _ hb _ _ (ix3 ⟨(idx 0).val, h0⟩ ⟨(idx 1).val, h1⟩ ⟨(idx 3).val, h3⟩) hk).trans ?_
      rw [addf_apply, half_read y X hy 0 (by omega) hs0 hc, half_read y X hy 1 (by omega) hs1 hc, ← EReal.coe_add]
      show ((X (idx 0).val ((idx 1).val * (2 * h) + 0 * h + (idx 3).val)
          + X (idx 0).val ((idx 1).val * (2 * h) + 1 * h + (idx 3).val) : ℝ) : EReal)
        = ((bfly h (X (idx 0).val) ((idx 1).val * (2 * h) + (idx 2).val * h + (idx 3).val) : ℝ) : EReal)
      rw [e2, bfly_lo _ _ _ _ h3]
  · -- the second piece: the differences
    have e2 : (idx 2).val = 1 := by omega
    refine (concatenate_pair_apply_right _ _ _ hcat idx rfl rfl
      (ix4 ⟨(idx 0).val, h0⟩ ⟨(idx 1).val, h1⟩ ⟨0, Nat.one_pos⟩ ⟨(idx 3).val, h3⟩) ?_ ?_).trans ?_
    · intro b hb2
      match b with
      | ⟨0, _⟩ => rfl
      | ⟨1, _⟩ => rfl
      | ⟨2, _⟩ => exact absurd rfl hb2
      | ⟨3, _⟩ => rfl
    · show 0 + 1 = (idx 2).val
      omega
    · refine (broadcastInDim_apply _ hb _ _ (ix3 ⟨(idx 0).val, h0⟩ ⟨(idx 1).val, h1⟩ ⟨(idx 3).val, h3⟩) hk).trans ?_
      rw [subf_apply, half_read y X hy 0 (by omega) hs0 hc, half_read y X hy 1 (by omega) hs1 hc, ← EReal.coe_sub]
      show ((X (idx 0).val ((idx 1).val * (2 * h) + 0 * h + (idx 3).val)
          - X (idx 0).val ((idx 1).val * (2 * h) + 1 * h + (idx 3).val) : ℝ) : EReal)
        = ((bfly h (X (idx 0).val) ((idx 1).val * (2 * h) + (idx 2).val * h + (idx 3).val) : ℝ) : EReal)
      rw [e2, bfly_hi _ _ _ _ h3]

/-- Flattening `[R, q, 2, h]` to `[R, n]` keeps the table. -/
theorem flatten4 {n : ℕ} (y : (⟨4, ![R, q, 2, h]⟩ : Shape).Idx → EReal) (X : ℕ → ℕ → ℝ) (hy : Rep4 y X)
    (hsc : (⟨4, ![R, q, 2, h]⟩ : Shape).ShapeCasts ⟨2, ![R, n]⟩) :
    Rep2 (shapeCast (⟨2, ![R, n]⟩ : Shape) y hsc) X := by
  intro idx
  have h0 : (idx 0).val < R := (idx 0).isLt
  have h1 : (idx 1).val < n := (idx 1).isLt
  have hn : n = q * (2 * h) := rowlen_eq h0 hsc
  subst hn
  generalize hi : (idx 1).val = i at h1
  have hh : 0 < h := by
    rcases Nat.eq_zero_or_pos h with e | e
    · subst e; simp at h1
    · exact e
  have ha : i / (2 * h) < q := by
    rw [Nat.div_lt_iff_lt_mul (by omega)]; exact h1
  have hs : (i / h) % 2 < 2 := Nat.mod_lt _ (by omega)
  have ht : i % h < h := Nat.mod_lt _ hh
  refine (shapeCast_apply y hsc idx (ix4 ⟨(idx 0).val, h0⟩ ⟨i / (2 * h), ha⟩ ⟨(i / h) % 2, hs⟩ ⟨i % h, ht⟩) ?_).trans ?_
  · rw [Shape.rowMajor_val_two, Shape.rowMajor_val_four]
    show (((idx 0).val * q + i / (2 * h)) * 2 + (i / h) % 2) * h + i % h = (idx 0).val * (q * (2 * h)) + (idx 1).val
    rw [pos4_eq, split_pos, hi]
  · rw [hy]
    show ((X (idx 0).val (i / (2 * h) * (2 * h) + (i / h) % 2 * h + i % h) : ℝ) : EReal) = _
    rw [split_pos]

/-- Cutting `[R, n]` into `[R, q, 2, h]` keeps the table. -/
theorem unflatten4 {n : ℕ} (z : (⟨2, ![R, n]⟩ : Shape).Idx → EReal) (X : ℕ → ℕ → ℝ) (hz : Rep2 z X)
    (hsc : (⟨2, ![R, n]⟩ : Shape).ShapeCasts ⟨4, ![R, q, 2, h]⟩) :
    Rep4 (shapeCast (⟨4, ![R, q, 2, h]⟩ : Shape) z hsc) X := by
  intro idx
  have h0 : (idx 0).val < R := (idx 0).isLt
  have h1 : (idx 1).val < q := (idx 1).isLt
  have h2 : (idx 2).val < 2 := (idx 2).isLt
  have h3 : (idx 3).val < h := (idx 3).isLt
  have hn : n = q * (2 * h) := rowlen_eq h0 hsc.symm
  subst hn
  have hp := pos_lt h1 h2 h3
  refine (shapeCast_apply z hsc idx (ix2 ⟨(idx 0).val, h0⟩ ⟨(idx 1).val * (2 * h) + (idx 2).val * h + (idx 3).val, hp⟩) ?_).trans ?_
  · rw [Shape.rowMajor_val_two, Shape.rowMajor_val_four]
    show (idx 0).val * (q * (2 * h)) + ((idx 1).val * (2 * h) + (idx 2).val * h + (idx 3).val)
      = (((idx 0).val * q + (idx 1).val) * 2 + (idx 2).val) * h + (idx 3).val
    exact (pos4_eq _ _ _ _ _ _).symm
  · exact hz _

end Cert.RefStage

end
-- ==== Proof.RefLib.lean ====
import Idealize.ShloMosaic.PureOps.Ideal
import Idealize.ShloMosaic.Lib.ValueIdx
import Idealize.ShloMosaic.Lib.Pipeline.Value
import proofs.«427721_j65506841198938_3_alg».proof.Proof.Hadamard
import proofs.«427721_j65506841198938_3_alg».proof.Proof.Spec
import proofs.«427721_j65506841198938_3_alg».proof.Proof.RefStage

/-!
# Small facts shared by the reading of the reference on real tables

* A vector repeated down the rows of a matrix reads, at (r, c), its entry c; a scalar repeated over an array
  reads that scalar everywhere.  So the product of a real table with a real sequence spread over the rows is the
  table of the products `X r i * b i`.
* One pass of the fast transform, between two cuts of the rows: if the array cut with stride `2^k` holds the table
  after `k` passes, then the stacked sums and differences of the halves, flattened and cut again (or only
  flattened), hold the table after `k + 1` passes.
* Eleven passes on rows of length 2048, and thirteen on rows of length 8192, are the Hadamard transforms of those
  orders: the tables `Ytab` and `HGtab`.
-/

noncomputable section

namespace Cert.RefLib

open Idealize.ShloMosaic Idealize.ShloMosaic.ValueIdx Cert.Spec Cert.Hadamard Cert.RefStage Finset

/-! ## A vector broadcast over the rows of a matrix -/

/-- A vector made a one-row matrix and repeated down the rows reads, at (r, c), its entry c. -/
theorem bcast_row_apply {α : Type} {R n : ℕ} (v : (⟨1, ![n]⟩ : Shape).Idx → α)
    (hb1 : (⟨1, ![n]⟩ : Shape).BroadcastsInDim ⟨2, ![1, n]⟩ (![1] : Fin 1 → Fin 2))
    (hb2 : (⟨2, ![1, n]⟩ : Shape).BroadcastsInDim ⟨2, ![R, n]⟩ (![0, 1] : Fin 2 → Fin 2))
    (idx : (⟨2, ![R, n]⟩ : Shape).Idx) :
    broadcastInDim (⟨2, ![R, n]⟩ : Shape) (![0, 1] : Fin 2 → Fin 2) hb2
      (broadcastInDim (⟨2, ![1, n]⟩ : Shape) (![1] : Fin 1 → Fin 2) hb1 v) idx = v (ix1 (idx 1)) := by
  have h1 : (idx 1).val < n := (idx 1).isLt
  refine (broadcastInDim_apply _ hb2 _ idx (ix2 ⟨0, Nat.one_pos⟩ (idx 1)) ?_).trans ?_
  · intro a
    match a with
    | ⟨0, _⟩ =>
      show (0 : ℕ) = if (1 : ℕ) = 1 then 0 else (idx 0).val
      rw [if_pos rfl]
    | ⟨1, _⟩ =>
      show (idx 1).val = if n = 1 then 0 else (idx 1).val
      split <;> omega
  · refine broadcastInDim_apply _ hb1 _ _ (ix1 (idx 1)) ?_
    intro a
    match a with
    | ⟨0, _⟩ =>
      show (idx 1).val = if n = 1 then 0 else (idx 1).val
      split <;> omega

/-- A scalar repeated over a whole array reads that scalar everywhere. -/
theorem bcast_scalar_apply {α : Type} {t : Shape} (x : (⟨0, ![]⟩ : Shape).Idx → α)
    (hb : (⟨0, ![]⟩ : Shape).BroadcastsInDim t (![] : Fin 0 → Fin t.rank)) (idx : t.Idx) :
    broadcastInDim t (![] : Fin 0 → Fin t.rank) hb x idx = x ix0 :=
  broadcastInDim_apply _ hb _ idx ix0 (fun a => a.elim0)

/-- The product of a real table with a real sequence repeated down the rows is the table of the products. -/
theorem rep2_mul_row {R n : ℕ} (z : (⟨2, ![R, n]⟩ : Shape).Idx → EReal) (v : (⟨1, ![n]⟩ : Shape).Idx → EReal)
    (X : ℕ → ℕ → ℝ) (b : ℕ → ℝ) (hz : Rep2 z X) (hv : Rep1 v b)
    (hb1 : (⟨1, ![n]⟩ : Shape).BroadcastsInDim ⟨2, ![1, n]⟩ (![1] : Fin 1 → Fin 2))
    (hb2 : (⟨2, ![1, n]⟩ : Shape).BroadcastsInDim ⟨2, ![R, n]⟩ (![0, 1] : Fin 2 → Fin 2)) :
    Rep2 (mulf (F := Ideal) (φ := .f32) z
      (broadcastInDim (⟨2, ![R, n]⟩ : Shape) (![0, 1] : Fin 2 → Fin 2) hb2
        (broadcastInDim (⟨2, ![1, n]⟩ : Shape) (![1] : Fin 1 → Fin 2) hb1 v))) (fun r i => X r i * b i) := by
  intro idx
  rw [mulf_apply, bcast_row_apply, hz idx, hv, ← EReal.coe_mul]
  rfl

/-! ## The passes of the fast transform, chained -/

/-- One more pass: if the cut array holds the table after `k` passes and its half-length is `2^k`, then the
    stacked sums and differences, flattened and cut again, hold the table after `k + 1` passes. -/
theorem rep4_step {R q h q' h' n k : ℕ} (y : (⟨4, ![R, q, 2, h]⟩ : Shape).Idx → EReal) (T : ℕ → ℕ → ℝ)
    (hy : Rep4 y (fun r => bflyChain k (T r))) (hh : h = 2 ^ k)
    (hs0 : (⟨4, ![R, q, 2, h]⟩ : Shape).Slices ![0, 0, 0, 0] ⟨4, ![R, q, 1, h]⟩)
    (hs1 : (⟨4, ![R, q, 2, h]⟩ : Shape).Slices ![0, 0, 1, 0] ⟨4, ![R, q, 1, h]⟩)
    (hc : (⟨4, ![R, q, 1, h]⟩ : Shape).ShapeCasts ⟨3, ![R, q, h]⟩)
    (hb : (⟨3, ![R, q, h]⟩ : Shape).BroadcastsInDim ⟨4, ![R, q, 1, h]⟩ (![0, 1, 3] : Fin 3 → Fin 4))
    (hcat : Shape.Concatenates [(⟨4, ![R, q, 1, h]⟩ : Shape), (⟨4, ![R, q, 1, h]⟩ : Shape)] (⟨4, ![R, q, 2, h]⟩ : Shape) 2)
    (hsc : (⟨4, ![R, q, 2, h]⟩ : Shape).ShapeCasts ⟨2, ![R, n]⟩)
    (hsc' : (⟨2, ![R, n]⟩ : Shape).ShapeCasts ⟨4, ![R, q', 2, h']⟩) :
    Rep4 (shapeCast (⟨4, ![R, q', 2, h']⟩ : Shape) (shapeCast (⟨2, ![R, n]⟩ : Shape)
      (concatenate (⟨4, ![R, q, 2, h]⟩ : Shape) 2
        [⟨(⟨4, ![R, q, 1, h]⟩ : Shape), broadcastInDim (⟨4, ![R, q, 1, h]⟩ : Shape) (![0, 1, 3] : Fin 3 → Fin 4) hb
            (addf (F := Ideal) (φ := .f32)
              (shapeCast (⟨3, ![R, q, h]⟩ : Shape) (extractStridedSlice (⟨4, ![R, q, 1, h]⟩ : Shape) ![0, 0, 0, 0] y hs0) hc)
              (shapeCast (⟨3, ![R, q, h]⟩ : Shape) (extractStridedSlice (⟨4, ![R, q, 1, h]⟩ : Shape) ![0, 0, 1, 0] y hs1) hc))⟩,
         ⟨(⟨4, ![R, q, 1, h]⟩ : Shape), broadcastInDim (⟨4, ![R, q, 1, h]⟩ : Shape) (![0, 1, 3] : Fin 3 → Fin 4) hb
            (subf (F := Ideal) (φ := .f32)
              (shapeCast (⟨3, ![R, q, h]⟩ : Shape) (extractStridedSlice (⟨4, ![R, q, 1, h]⟩ : Shape) ![0, 0, 0, 0] y hs0) hc)
              (shapeCast (⟨3, ![R, q, h]⟩ : Shape) (extractStridedSlice (⟨4, ![R, q, 1, h]⟩ : Shape) ![0, 0, 1, 0] y hs1) hc))⟩]
        hcat) hsc) hsc')
      (fun r => bflyChain (k + 1) (T r)) := by
  subst hh
  exact unflatten4 _ _ (flatten4 _ _ (stage_core _ _ hy hs0 hs1 hc hb hcat) hsc) hsc'

/-- The last pass, flattened only: the matrix holds the table after `k + 1` passes. -/
theorem rep2_last {R q h n k : ℕ} (y : (⟨4, ![R, q, 2, h]⟩ : Shape).Idx → EReal) (T : ℕ → ℕ → ℝ)
    (hy : Rep4 y (fun r => bflyChain k (T r))) (hh : h = 2 ^ k)
    (hs0 : (⟨4, ![R, q, 2, h]⟩ : Shape).Slices ![0, 0, 0, 0] ⟨4, ![R, q, 1, h]⟩)
    (hs1 : (⟨4, ![R, q, 2, h]⟩ : Shape).Slices ![0, 0, 1, 0] ⟨4, ![R, q, 1, h]⟩)
    (hc : (⟨4, ![R, q, 1, h]⟩ : Shape).ShapeCasts ⟨3, ![R, q, h]⟩)
    (hb : (⟨3, ![R, q, h]⟩ : Shape).BroadcastsInDim ⟨4, ![R, q, 1, h]⟩ (![0, 1, 3] : Fin 3 → Fin 4))
    (hcat : Shape.Concatenates [(⟨4, ![R, q, 1, h]⟩ : Shape), (⟨4, ![R, q, 1, h]⟩ : Shape)] (⟨4, ![R, q, 2, h]⟩ : Shape) 2)
    (hsc : (⟨4, ![R, q, 2, h]⟩ : Shape).ShapeCasts ⟨2, ![R, n]⟩) :
    Rep2 (shapeCast (⟨2, ![R, n]⟩ : Shape)
      (concatenate (⟨4, ![R, q, 2, h]⟩ : Shape) 2
        [⟨(⟨4, ![R, q, 1, h]⟩ : Shape), broadcastInDim (⟨4, ![R, q, 1, h]⟩ : Shape) (![0, 1, 3] : Fin 3 → Fin 4) hb
            (addf (F := Ideal) (φ := .f32)
              (shapeCast (⟨3, ![R, q, h]⟩ : Shape) (extractStridedSlice (⟨4, ![R, q, 1, h]⟩ : Shape) ![0, 0, 0, 0] y hs0) hc)
              (shapeCast (⟨3, ![R, q, h]⟩ : Shape) (extractStridedSlice (⟨4, ![R, q, 1, h]⟩ : Shape) ![0, 0, 1, 0] y hs1) hc))⟩,
         ⟨(⟨4, ![R, q, 1, h]⟩ : Shape), broadcastInDim (⟨4, ![R, q, 1, h]⟩ : Shape) (![0, 1, 3] : Fin 3 → Fin 4) hb
            (subf (F := Ideal) (φ := .f32)
              (shapeCast (⟨3, ![R, q, h]⟩ : Shape) (extractStridedSlice (⟨4, ![R, q, 1, h]⟩ : Shape) ![0, 0, 0, 0] y hs0) hc)
              (shapeCast (⟨3, ![R, q, h]⟩ : Shape) (extractStridedSlice (⟨4, ![R, q, 1, h]⟩ : Shape) ![0, 0, 1, 0] y hs1) hc))⟩]
        hcat) hsc)
      (fun r => bflyChain (k + 1) (T r)) := by
  subst hh
  exact flatten4 _ _ (stage_core _ _ hy hs0 hs1 hc hb hcat) hsc

/-- Eleven passes on rows of length 2048 are the Hadamard transform of order 2048. -/
theorem rep2_ytab {R : ℕ} (w : (⟨2, ![R, 2048]⟩ : Shape).Idx → EReal) (V : ℕ → ℕ → ℝ)
    (hw : Rep2 w (fun r => bflyChain 11 (V r))) : Rep2 w (Ytab V) := by
  intro idx
  have h1 : (idx 1).val < 2048 := (idx 1).isLt
  have h1' : (idx 1).val < 2 ^ 11 := lt_of_lt_of_eq h1 (by norm_num)
  rw [hw idx]
  show ((bflyChain 11 (V (idx 0).val) (idx 1).val : ℝ) : EReal) = ((Ytab V (idx 0).val (idx 1).val : ℝ) : EReal)
  rw [bflyChain_eq_zero 11 _ _ h1']
  unfold Ytab
  norm_num

/-- Thirteen passes on rows of length 8192 are the Hadamard transform of order 8192. -/
theorem rep2_hgtab {R : ℕ} (w : (⟨2, ![R, 8192]⟩ : Shape).Idx → EReal) (Z : ℕ → ℕ → ℝ)
    (hw : Rep2 w (fun r => bflyChain 13 (Z r))) : Rep2 w (HGtab Z) := by
  intro idx
  have h1 : (idx 1).val < 8192 := (idx 1).isLt
  have h1' : (idx 1).val < 2 ^ 13 := lt_of_lt_of_eq h1 (by norm_num)
  rw [hw idx]
  show ((bflyChain 13 (Z (idx 0).val) (idx 1).val : ℝ) : EReal) = ((HGtab Z (idx 0).val (idx 1).val : ℝ) : EReal)
  rw [bflyChain_eq_zero 13 _ _ h1']
  unfold HGtab
  norm_num

end Cert.RefLib

end
-- ==== Proof.RefChain1.lean ====
import Idealize.ShloMosaic.PureOps.Ideal
import Idealize.ShloMosaic.Lib.ValueIdx
import Idealize.ShloMosaic.Lib.Pipeline.Value
import proofs.«427721_j65506841198938_3_alg».proof.Proof.Hadamard
import proofs.«427721_j65506841198938_3_alg».proof.Proof.Spec
import proofs.«427721_j65506841198938_3_alg».proof.Proof.RefStage
import proofs.«427721_j65506841198938_3_alg».proof.Proof.RefLib
import proofs.«427721_j65506841198938_3_alg».proof.Proof.Gen.ReferenceIdeal.Run

/-!
# The first ten passes of the reference's first transform

The reference scales the input matrix `x` (2048 rows of length 2048) by the sign vector `B` along every row,
and then runs the fast Walsh–Hadamard transform on each row: passes of strides `1, 2, 4, …`, each one cutting the
row into groups of two halves of the stride's length, stacking the sums and the differences of the halves, and
flattening back.

On real tables: the scaled input is `V r i = x r i * b i`, and after `k` passes the array holds
`bflyChain k (V r)` in row `r`.  This file follows the first ten passes (strides `1` to `512`); the array after
them is cut as 2048 rows of one group of two halves of length 1024, ready for the eleventh pass.
-/

noncomputable section

namespace Cert.RefChain1

open Idealize.ShloMosaic Idealize.ShloMosaic.TcCoe Idealize.ShloMosaic.ValueIdx Idealize.ShloMosaic.StableHlo
  Cert.ReferenceIdeal Cert.ReferenceIdeal.Gen Cert.ReferenceIdeal.Value Cert.Spec Cert.Hadamard Cert.RefStage Cert.RefLib

/-! ## The scaled input, and the ten passes in turn -/

set_option maxRecDepth 8192 in
/-- The input scaled by the signs and cut with stride 1: the table `V`, before any pass. -/
theorem rep_v4 (V0 : Valuation τ sig (Elt Ideal)) (X : ℕ → ℕ → ℝ) (b : ℕ → ℝ)
    (hX : Rep2 (shapeCast S2048x2048 (V0 (Proc.devRef .tc main_arg0)) shapeCasts_S2x512x2x2048_S2048x2048 : S2048x2048.Idx → EReal) X)
    (hb : Rep1 (V0 (Proc.devRef .tc main_arg1) : S2048.Idx → EReal) b) :
    Rep4 (res_main_v4 V0 : S2048x1024x2x1.Idx → EReal) (fun r => bflyChain 0 (Vtab X b r)) := by
  unfold res_main_v4
  exact unflatten4 _ _ (rep2_mul_row _ _ X b hX hb _ _) _

set_option maxRecDepth 8192 in
/-- After the pass of stride 1: 1 pass done, the array cut with stride 2. -/
theorem rep_v19 (V0 : Valuation τ sig (Elt Ideal)) (X : ℕ → ℕ → ℝ) (b : ℕ → ℝ)
    (hX : Rep2 (shapeCast S2048x2048 (V0 (Proc.devRef .tc main_arg0)) shapeCasts_S2x512x2x2048_S2048x2048 : S2048x2048.Idx → EReal) X)
    (hb : Rep1 (V0 (Proc.devRef .tc main_arg1) : S2048.Idx → EReal) b) :
    Rep4 (res_main_v19 V0 : S2048x512x2x2.Idx → EReal) (fun r => bflyChain 1 (Vtab X b r)) := by
  unfold res_main_v19
  exact rep4_step (k := 0) _ _ (rep_v4 V0 X b hX hb) (by norm_num) _ _ _ _ _ _ _

set_option maxRecDepth 8192 in
/-- After the pass of stride 2: 2 passes done, the array cut with stride 4. -/
theorem rep_v34 (V0 : Valuation τ sig (Elt Ideal)) (X : ℕ → ℕ → ℝ) (b : ℕ → ℝ)
    (hX : Rep2 (shapeCast S2048x2048 (V0 (Proc.devRef .tc main_arg0)) shapeCasts_S2x512x2x2048_S2048x2048 : S2048x2048.Idx → EReal) X)
    (hb : Rep1 (V0 (Proc.devRef .tc main_arg1) : S2048.Idx → EReal) b) :
    Rep4 (res_main_v34 V0 : S2048x256x2x4.Idx → EReal) (fun r => bflyChain 2 (Vtab X b r)) := by
  unfold res_main_v34
  exact rep4_step (k := 1) _ _ (rep_v19 V0 X b hX hb) (by norm_num) _ _ _ _ _ _ _

set_option maxRecDepth 8192 in
/-- After the pass of stride 4: 3 passes done, the array cut with stride 8. -/
theorem rep_v49 (V0 : Valuation τ sig (Elt Ideal)) (X : ℕ → ℕ → ℝ) (b : ℕ → ℝ)
    (hX : Rep2 (shapeCast S2048x2048 (V0 (Proc.devRef .tc main_arg0)) shapeCasts_S2x512x2x2048_S2048x2048 : S2048x2048.Idx → EReal) X)
    (hb : Rep1 (V0 (Proc.devRef .tc main_arg1) : S2048.Idx → EReal) b) :
    Rep4 (res_main_v49 V0 : S2048x128x2x8.Idx → EReal) (fun r => bflyChain 3 (Vtab X b r)) := by
  unfold res_main_v49
  exact rep4_step (k := 2) _ _ (rep_v34 V0 X b hX hb) (by norm_num) _ _ _ _ _ _ _

set_option maxRecDepth 8192 in
/-- After the pass of stride 8: 4 passes done, the array cut with stride 16. -/
theorem rep_v64 (V0 : Valuation τ sig (Elt Ideal)) (X : ℕ → ℕ → ℝ) (b : ℕ → ℝ)
    (hX : Rep2 (shapeCast S2048x2048 (V0 (Proc.devRef .tc main_arg0)) shapeCasts_S2x512x2x2048_S2048x2048 : S2048x2048.Idx → EReal) X)
    (hb : Rep1 (V0 (Proc.devRef .tc main_arg1) : S2048.Idx → EReal) b) :
    Rep4 (res_main_v64 V0 : S2048x64x2x16.Idx → EReal) (fun r => bflyChain 4 (Vtab X b r)) := by
  unfold res_main_v64
  exact rep4_step (k := 3) _ _ (rep_v49 V0 X b hX hb) (by norm_num) _ _ _ _ _ _ _

set_option maxRecDepth 8192 in
/-- After the pass of stride 16: 5 passes done, the array cut with stride 32. -/
theorem rep_v79 (V0 : Valuation τ sig (Elt Ideal)) (X : ℕ → ℕ → ℝ) (b : ℕ → ℝ)
    (hX : Rep2 (shapeCast S2048x2048 (V0 (Proc.devRef .tc main_arg0)) shapeCasts_S2x512x2x2048_S2048x2048 : S2048x2048.Idx → EReal) X)
    (hb : Rep1 (V0 (Proc.devRef .tc main_arg1) : S2048.Idx → EReal) b) :
    Rep4 (res_main_v79 V0 : S2048x32x2x32.Idx → EReal) (fun r => bflyChain 5 (Vtab X b r)) := by
  unfold res_main_v79
  exact rep4_step (k := 4) _ _ (rep_v64 V0 X b hX hb) (by norm_num) _ _ _ _ _ _ _

set_option maxRecDepth 8192 in
/-- After the pass of stride 32: 6 passes done, the array cut with stride 64. -/
theorem rep_v94 (V0 : Valuation τ sig (Elt Ideal)) (X : ℕ → ℕ → ℝ) (b : ℕ → ℝ)
    (hX : Rep2 (shapeCast S2048x2048 (V0 (Proc.devRef .tc main_arg0)) shapeCasts_S2x512x2x2048_S2048x2048 : S2048x2048.Idx → EReal) X)
    (hb : Rep1 (V0 (Proc.devRef .tc main_arg1) : S2048.Idx → EReal) b) :
    Rep4 (res_main_v94 V0 : S2048x16x2x64.Idx → EReal) (fun r => bflyChain 6 (Vtab X b r)) := by
  unfold res_main_v94
  exact rep4_step (k := 5) _ _ (rep_v79 V0 X b hX hb) (by norm_num) _ _ _ _ _ _ _

set_option maxRecDepth 8192 in
/-- After the pass of stride 64: 7 passes done, the array cut with stride 128. -/
theorem rep_v109 (V0 : Valuation τ sig (Elt Ideal)) (X : ℕ → ℕ → ℝ) (b : ℕ → ℝ)
    (hX : Rep2 (shapeCast S2048x2048 (V0 (Proc.devRef .tc main_arg0)) shapeCasts_S2x512x2x2048_S2048x2048 : S2048x2048.Idx → EReal) X)
    (hb : Rep1 (V0 (Proc.devRef .tc main_arg1) : S2048.Idx → EReal) b) :
    Rep4 (res_main_v109 V0 : S2048x8x2x128.Idx → EReal) (fun r => bflyChain 7 (Vtab X b r)) := by
  unfold res_main_v109
  exact rep4_step (k := 6) _ _ (rep_v94 V0 X b hX hb) (by norm_num) _ _ _ _ _ _ _

set_option maxRecDepth 8192 in
/-- After the pass of stride 128: 8 passes done, the array cut with stride 256. -/
theorem rep_v124 (V0 : Valuation τ sig (Elt Ideal)) (X : ℕ → ℕ → ℝ) (b : ℕ → ℝ)
    (hX : Rep2 (shapeCast S2048x2048 (V0 (Proc.devRef .tc main_arg0)) shapeCasts_S2x512x2x2048_S2048x2048 : S2048x2048.Idx → EReal) X)
    (hb : Rep1 (V0 (Proc.devRef .tc main_arg1) : S2048.Idx → EReal) b) :
    Rep4 (res_main_v124 V0 : S2048x4x2x256.Idx → EReal) (fun r => bflyChain 8 (Vtab X b r)) := by
  unfold res_main_v124
  exact rep4_step (k := 7) _ _ (rep_v109 V0 X b hX hb) (by norm_num) _ _ _ _ _ _ _

set_option maxRecDepth 8192 in
/-- After the pass of stride 256: 9 passes done, the array cut with stride 512. -/
theorem rep_v139 (V0 : Valuation τ sig (Elt Ideal)) (X : ℕ → ℕ → ℝ) (b : ℕ → ℝ)
    (hX : Rep2 (shapeCast S2048x2048 (V0 (Proc.devRef .tc main_arg0)) shapeCasts_S2x512x2x2048_S2048x2048 : S2048x2048.Idx → EReal) X)
    (hb : Rep1 (V0 (Proc.devRef .tc main_arg1) : S2048.Idx → EReal) b) :
    Rep4 (res_main_v139 V0 : S2048x2x2x512.Idx → EReal) (fun r => bflyChain 9 (Vtab X b r)) := by
  unfold res_main_v139
  exact rep4_step (k := 8) _ _ (rep_v124 V0 X b hX hb) (by norm_num) _ _ _ _ _ _ _

set_option maxRecDepth 8192 in
/-- After the pass of stride 512: 10 passes done, the array cut with stride 1024. -/
theorem rep_v154 (V0 : Valuation τ sig (Elt Ideal)) (X : ℕ → ℕ → ℝ) (b : ℕ → ℝ)
    (hX : Rep2 (shapeCast S2048x2048 (V0 (Proc.devRef .tc main_arg0)) shapeCasts_S2x512x2x2048_S2048x2048 : S2048x2048.Idx → EReal) X)
    (hb : Rep1 (V0 (Proc.devRef .tc main_arg1) : S2048.Idx → EReal) b) :
    Rep4 (res_main_v154 V0 : S2048x1x2x1024.Idx → EReal) (fun r => bflyChain 10 (Vtab X b r)) := by
  unfold res_main_v154
  exact rep4_step (k := 9) _ _ (rep_v139 V0 X b hX hb) (by norm_num) _ _ _ _ _ _ _

/-- The array after the first ten passes holds, in row `r`, ten passes of the fast transform of `V r`. -/
theorem chain1 (V0 : Valuation τ sig (Elt Ideal)) (X : ℕ → ℕ → ℝ) (b : ℕ → ℝ)
    (hX : Rep2 (shapeCast S2048x2048 (V0 (Proc.devRef .tc main_arg0)) shapeCasts_S2x512x2x2048_S2048x2048 : S2048x2048.Idx → EReal) X)
    (hb : Rep1 (V0 (Proc.devRef .tc main_arg1) : S2048.Idx → EReal) b) :
    Rep4 (res_main_v154 V0 : S2048x1x2x1024.Idx → EReal) (fun r => bflyChain 10 (Vtab X b r)) :=
  rep_v154 V0 X b hX hb

end Cert.RefChain1

end
-- ==== Proof.RefMid.lean ====
import proofs.«427721_j65506841198938_3_alg».proof.Proof.Gen.ReferenceIdeal.Run
import Idealize.ShloMosaic.PureOps.Ideal
import Idealize.ShloMosaic.Lib.ValueIdx
import Idealize.ShloMosaic.Lib.Affine
import Idealize.ShloMosaic.Lib.Pipeline.Value
import proofs.«427721_j65506841198938_3_alg».proof.Proof.Spec
import proofs.«427721_j65506841198938_3_alg».proof.Proof.Hadamard
import proofs.«427721_j65506841198938_3_alg».proof.Proof.RefStage
import proofs.«427721_j65506841198938_3_alg».proof.Proof.LibGather

/-!
# Between the two transforms of the reference

After ten butterfly passes the reference holds every row of length 2048 cut as `[2048, 1, 2, 1024]`.  What follows,
up to the array `[2048, 4096, 2, 1]` the second transform starts from, is:

* the eleventh pass, of stride 1024, and the flattening to `[2048, 2048]`;
* the tiling: every row repeated four times side by side, so that the row of length 8192 at column `q` is the row
  of length 2048 at `q % 2048`;
* the gather of columns at the index vector `P` (negative indices wrapped by 8192, every start index clamped into
  `[0, 8191]`): on indices that are naturals below 8192 both the wrap and the clamp are the identity, and column `q`
  of the result is column `P q` of the tiled matrix;
* the product with the vector `G` repeated over the rows;
* the cut into `[2048, 4096, 2, 1]`, which keeps the row-major position.

On real tables: `Z r q = bfly 1024 (W r) (P q % 2048) * g q`.
-/

noncomputable section

namespace Cert.RefMid

open Idealize.ShloMosaic Idealize.ShloMosaic.TcCoe Idealize.ShloMosaic.ValueIdx Idealize.ShloMosaic.StableHlo Cert.ReferenceIdeal Cert.ReferenceIdeal.Gen Cert.ReferenceIdeal.Value Cert.Spec Cert.Hadamard Cert.RefStage

/-! ## The tiling: four copies of every row side by side -/

/-- A `[2048, 2048]` matrix viewed `[1, 2048, 1, 2048]`, repeated four times along the third axis and flattened to
    `[2048, 8192]`: the row at column `q` is the row at `q % 2048`. -/
theorem tiled_rep (z : S2048x2048.Idx → EReal) (T : ℕ → ℕ → ℝ) (hz : Rep2 z T)
    (hc1 : S2048x2048.ShapeCasts S1x2048x1x2048)
    (hb : S1x2048x1x2048.BroadcastsInDim S1x2048x4x2048 (![0, 1, 2, 3] : Fin 4 → Fin 4))
    (hc2 : S1x2048x4x2048.ShapeCasts S2048x8192) :
    Rep2 (shapeCast S2048x8192 (broadcastInDim S1x2048x4x2048 ![0, 1, 2, 3] hb (shapeCast S1x2048x1x2048 z hc1)) hc2)
      (fun r q => T r (q % 2048)) := by
  intro idx
  have h0 : (idx 0).val < 2048 := idx2_lt0 idx
  have h1 : (idx 1).val < 8192 := idx2_lt1 idx
  have hd : (idx 1).val / 2048 < 4 := by omega
  have hm : (idx 1).val % 2048 < 2048 := Nat.mod_lt _ (by norm_num)
  refine (shapeCast_apply _ hc2 idx
    (ix4 (0 : Fin 1) (⟨(idx 0).val, h0⟩ : Fin 2048) (⟨(idx 1).val / 2048, hd⟩ : Fin 4) (⟨(idx 1).val % 2048, hm⟩ : Fin 2048)) ?_).trans ?_
  · rw [Shape.rowMajor_val_four, Shape.rowMajor_val_two]
    show ((0 * 2048 + (idx 0).val) * 4 + (idx 1).val / 2048) * 2048 + (idx 1).val % 2048 = (idx 0).val * 8192 + (idx 1).val
    omega
  refine (broadcastInDim_apply _ hb _ _
    (ix4 (0 : Fin 1) (⟨(idx 0).val, h0⟩ : Fin 2048) (0 : Fin 1) (⟨(idx 1).val % 2048, hm⟩ : Fin 2048)) ?_).trans ?_
  · intro a
    match a with
    | ⟨0, _⟩ => rfl
    | ⟨1, _⟩ => rfl
    | ⟨2, _⟩ => rfl
    | ⟨3, _⟩ => rfl
  refine (shapeCast_apply z hc1 _ (ix2 (⟨(idx 0).val, h0⟩ : Fin 2048) (⟨(idx 1).val % 2048, hm⟩ : Fin 2048)) ?_).trans ?_
  · rw [Shape.rowMajor_val_four, Shape.rowMajor_val_two]
    show (idx 0).val * 2048 + (idx 1).val % 2048 = ((0 * 2048 + (idx 0).val) * 1 + 0) * 2048 + (idx 1).val % 2048
    omega
  exact hz _

/-! ## The index column and the scale row -/

/-- An index word that is a natural below 8192, read signed. -/
theorem toNat_of_toInt (v : BitVec 32) (h0 : 0 ≤ v.toInt) (h1 : v.toInt < 8192) :
    v.toInt.toNat = v.toNat ∧ v.toNat < 8192 := by
  have hc := BitVec.toInt_eq_toNat_cond v
  have hl := v.isLt
  split at hc <;> omega

/-- The indices wrapped where negative and laid out as a column: on indices that are naturals below 8192, the
    indices themselves. -/
theorem pidx_apply (P : S8192.Idx → BitVec 32) (hP : ∀ i : S8192.Idx, 0 ≤ (P i).toInt ∧ (P i).toInt < 8192)
    (hb0 : S_.BroadcastsInDim S8192 (![] : Fin 0 → Fin 1))
    (hb1 : S8192.BroadcastsInDim S8192x1 (![0] : Fin 1 → Fin 2)) (q : Fin 8192) (u : Fin 1) :
    broadcastInDim S8192x1 ![0] hb1
        (select (cmpi .slt P (broadcastInDim S8192 ![] hb0 (constantI S_ 32 0#32)))
          (addi P (broadcastInDim S8192 ![] hb0 (constantI S_ 32 8192#32))) P) (ix2 q u)
      = P (ix1 q) := by
  refine (broadcastInDim_apply _ hb1 _ _ (ix1 q) ?_).trans ?_
  · intro a
    match a with
    | ⟨0, _⟩ => rfl
  rw [select_apply]
  have hc : cmpi .slt P (broadcastInDim S8192 ![] hb0 (constantI S_ 32 0#32)) (ix1 q) = 0#1 := by
    refine eq_zero_of_ne_one fun h => ?_
    have h' : (P (ix1 q)).toInt < (0#32 : BitVec 32).toInt := IntOp.cmpi_slt.mp h
    have hz : (0#32 : BitVec 32).toInt = 0 := by decide
    have := (hP (ix1 q)).1
    omega
  rw [hc, select_zero]

/-- A vector laid out as a row and repeated over the rows of a `[2048, 8192]` matrix reads its entry at the column. -/
theorem gbcast_apply (G : S8192.Idx → EReal) (h1 : S8192.BroadcastsInDim S1x8192 (![1] : Fin 1 → Fin 2))
    (h2 : S1x8192.BroadcastsInDim S2048x8192 (![0, 1] : Fin 2 → Fin 2)) (r : Fin 2048) (q : Fin 8192) :
    broadcastInDim S2048x8192 ![0, 1] h2 (broadcastInDim S1x8192 ![1] h1 G) (ix2 r q) = G (ix1 q) := by
  refine (broadcastInDim_apply _ h2 _ _ (ix2 (0 : Fin 1) q) ?_).trans ?_
  · intro a
    match a with
    | ⟨0, _⟩ => rfl
    | ⟨1, _⟩ => rfl
  refine (broadcastInDim_apply _ h1 _ _ (ix1 q) ?_).trans rfl
  intro a
  match a with
  | ⟨0, _⟩ => rfl

/-! ## The gather of columns, scaled -/

/-- Columns gathered at indices that are naturals below 8192, then every column scaled: the table read at the
    index's natural, times the scale. -/
theorem gather_mul_rep (x : S2048x8192.Idx → EReal) (idx : IVec S8192x1 32) (GB : S2048x8192.Idx → EReal)
    (P : S8192.Idx → BitVec 32) (G : S8192.Idx → EReal) (T : ℕ → ℕ → ℝ) (g : ℕ → ℝ) (hx : Rep2 x T)
    (hidx : ∀ (q : Fin 8192) (u : Fin 1), idx (ix2 q u) = P (ix1 q))
    (hGB : ∀ (r : Fin 2048) (q : Fin 8192), GB (ix2 r q) = G (ix1 q)) (hg : Rep1 G g)
    (hP : ∀ i : S8192.Idx, 0 ≤ (P i).toInt ∧ (P i).toInt < 8192)
    (wf : GatherDims.WF S2048x8192 S8192x1 S2048x8192 [0] [1] [] [1] [] 1 ![2048, 1]) :
    Rep2 (mulf (F := Ideal) (φ := .f32) (Host.gather (LibGather.colsDims 2048 8192 8192 wf) x idx) GB)
      (fun r q => T r (ptab P q) * g q) := by
  intro y
  have h0 : (y 0).val < 2048 := idx2_lt0 y
  have h1 : (y 1).val < 8192 := idx2_lt1 y
  show Host.gather (LibGather.colsDims 2048 8192 8192 wf) x idx y * GB y
    = ((T (y 0).val (ptab P (y 1).val) * g (y 1).val : ℝ) : EReal)
  rw [LibGather.gather_cols_apply (by norm_num) wf x idx y, hx]
  show ((T (y 0).val (min (idx (ix2 ⟨(y 1).val, idx2_lt1 y⟩ ⟨0, Nat.one_pos⟩)).toInt.toNat (8192 - 1)) : ℝ) : EReal) * GB y = _
  rw [hidx]
  obtain ⟨e1, e2⟩ := toNat_of_toInt (P (ix1 ⟨(y 1).val, idx2_lt1 y⟩)) (hP _).1 (hP _).2
  have ep : ptab P (y 1).val = (P (ix1 ⟨(y 1).val, idx2_lt1 y⟩)).toNat := by
    unfold ptab
    rw [dif_pos h1]
  have em : min (P (ix1 ⟨(y 1).val, idx2_lt1 y⟩)).toInt.toNat (8192 - 1) = ptab P (y 1).val := by
    rw [ep, e1]
    omega
  have eG : GB y = ((g (y 1).val : ℝ) : EReal) := by
    have ey : (ix2 (⟨(y 0).val, h0⟩ : Fin 2048) (⟨(y 1).val, h1⟩ : Fin 8192) : S2048x8192.Idx) = y := (eq_ix2 y).symm
    exact (congrArg GB ey.symm).trans ((hGB _ _).trans (hg _))
  rw [eG, em, EReal.coe_mul]

/-! ## The whole passage -/

/-- From the row tables after ten passes to the permuted, scaled tables of width 8192 the second transform starts from. -/
theorem mid (V0 : Valuation τ sig (Elt Ideal)) (W : ℕ → ℕ → ℝ) (g : ℕ → ℝ)
    (hW : Rep4 (res_main_v154 V0 : S2048x1x2x1024.Idx → EReal) W)
    (hg : Rep1 (V0 (Proc.devRef .tc main_arg2) : S8192.Idx → EReal) g)
    (hP : ∀ idx : S8192.Idx, 0 ≤ ((V0 (Proc.devRef .tc main_arg4) : S8192.Idx → BitVec 32) idx).toInt
      ∧ ((V0 (Proc.devRef .tc main_arg4) : S8192.Idx → BitVec 32) idx).toInt < 8192) :
    Rep4 (res_main_v182 V0 : S2048x4096x2x1.Idx → EReal)
      (fun r q => bfly 1024 (W r) (ptab (V0 (Proc.devRef .tc main_arg4)) q % 2048) * g q) := by
  unfold res_main_v182
  exact unflatten4 _ _
    (gather_mul_rep _ _ _ (V0 (Proc.devRef .tc main_arg4)) (V0 (Proc.devRef .tc main_arg2))
      (fun r q => bfly 1024 (W r) (q % 2048)) g
      (tiled_rep _ _ (flatten4 _ _ (stage_core _ _ hW _ _ _ _ _) _) _ _ _)
      (fun q u => pidx_apply _ hP _ _ q u) (fun r q => gbcast_apply _ _ _ r q) hg hP _) _

end Cert.RefMid

end
-- ==== Proof.RefChain2.lean ====
import proofs.«427721_j65506841198938_3_alg».proof.Proof.RefStage
import proofs.«427721_j65506841198938_3_alg».proof.Proof.Spec
import proofs.«427721_j65506841198938_3_alg».proof.Proof.Hadamard
import proofs.«427721_j65506841198938_3_alg».proof.Proof.Gen.ReferenceIdeal.Run

/-!
# The reference's transform of order 8192: its first twelve butterfly passes

Every row of the permuted, scaled array of width 8192 goes through butterfly passes of strides
1, 2, 4, …, 2048.  Before the pass of stride `h` the row is cut into `8192 / (2 * h)` groups of two halves of length
`h` (the array `[2048, 8192 / (2 * h), 2, h]`); the pass adds and subtracts the two halves and stacks sum and
difference; the row is then flattened and cut again for the stride `2 * h`.  On the real table of the row a pass is
`bfly h` and the two reshapes keep the table, so after `k` passes the table is `bflyChain k` of the table the
passes started from.  One lemma per pass, then their composition.
-/

noncomputable section

namespace Cert.RefChain2

open Idealize.ShloMosaic Idealize.ShloMosaic.TcCoe Idealize.ShloMosaic.ValueIdx Idealize.ShloMosaic.StableHlo Cert.ReferenceIdeal Cert.ReferenceIdeal.Gen Cert.ReferenceIdeal.Value Cert.Spec Cert.Hadamard Cert.RefStage

/-- The pass of stride 1: from the cut `[2048, 4096, 2, 1]` of a table `T` to the cut `[2048, 2048, 2, 2]` of `bfly 1` of its rows. -/
theorem pass1 (V0 : Valuation τ sig (Elt Ideal)) (T : ℕ → ℕ → ℝ)
    (hT : Rep4 (res_main_v182 V0 : S2048x4096x2x1.Idx → EReal) T) :
    Rep4 (res_main_v197 V0 : S2048x2048x2x2.Idx → EReal) (fun r => bfly 1 (T r)) := by
  unfold res_main_v197
  exact unflatten4 _ _ (flatten4 _ _ (stage_core _ _ hT _ _ _ _ _) _) _

/-- The pass of stride 2: from the cut `[2048, 2048, 2, 2]` of a table `T` to the cut `[2048, 1024, 2, 4]` of `bfly 2` of its rows. -/
theorem pass2 (V0 : Valuation τ sig (Elt Ideal)) (T : ℕ → ℕ → ℝ)
    (hT : Rep4 (res_main_v197 V0 : S2048x2048x2x2.Idx → EReal) T) :
    Rep4 (res_main_v212 V0 : S2048x1024x2x4.Idx → EReal) (fun r => bfly 2 (T r)) := by
  unfold res_main_v212
  exact unflatten4 _ _ (flatten4 _ _ (stage_core _ _ hT _ _ _ _ _) _) _

/-- The pass of stride 4: from the cut `[2048, 1024, 2, 4]` of a table `T` to the cut `[2048, 512, 2, 8]` of `bfly 4` of its rows. -/
theorem pass4 (V0 : Valuation τ sig (Elt Ideal)) (T : ℕ → ℕ → ℝ)
    (hT : Rep4 (res_main_v212 V0 : S2048x1024x2x4.Idx → EReal) T) :
    Rep4 (res_main_v227 V0 : S2048x512x2x8.Idx → EReal) (fun r => bfly 4 (T r)) := by
  unfold res_main_v227
  exact unflatten4 _ _ (flatten4 _ _ (stage_core _ _ hT _ _ _ _ _) _) _

/-- The pass of stride 8: from the cut `[2048, 512, 2, 8]` of a table `T` to the cut `[2048, 256, 2, 16]` of `bfly 8` of its rows. -/
theorem pass8 (V0 : Valuation τ sig (Elt Ideal)) (T : ℕ → ℕ → ℝ)
    (hT : Rep4 (res_main_v227 V0 : S2048x512x2x8.Idx → EReal) T) :
    Rep4 (res_main_v242 V0 : S2048x256x2x16.Idx → EReal) (fun r => bfly 8 (T r)) := by
  unfold res_main_v242
  exact unflatten4 _ _ (flatten4 _ _ (stage_core _ _ hT _ _ _ _ _) _) _

/-- The pass of stride 16: from the cut `[2048, 256, 2, 16]` of a table `T` to the cut `[2048, 128, 2, 32]` of `bfly 16` of its rows. -/
theorem pass16 (V0 : Valuation τ sig (Elt Ideal)) (T : ℕ → ℕ → ℝ)
    (hT : Rep4 (res_main_v242 V0 : S2048x256x2x16.Idx → EReal) T) :
    Rep4 (res_main_v257 V0 : S2048x128x2x32.Idx → EReal) (fun r => bfly 16 (T r)) := by
  unfold res_main_v257
  exact unflatten4 _ _ (flatten4 _ _ (stage_core _ _ hT _ _ _ _ _) _) _

/-- The pass of stride 32: from the cut `[2048, 128, 2, 32]` of a table `T` to the cut `[2048, 64, 2, 64]` of `bfly 32` of its rows. -/
theorem pass32 (V0 : Valuation τ sig (Elt Ideal)) (T : ℕ → ℕ → ℝ)
    (hT : Rep4 (res_main_v257 V0 : S2048x128x2x32.Idx → EReal) T) :
    Rep4 (res_main_v272 V0 : S2048x64x2x64.Idx → EReal) (fun r => bfly 32 (T r)) := by
  unfold res_main_v272
  exact unflatten4 _ _ (flatten4 _ _ (stage_core _ _ hT _ _ _ _ _) _) _

/-- The pass of stride 64: from the cut `[2048, 64, 2, 64]` of a table `T` to the cut `[2048, 32, 2, 128]` of `bfly 64` of its rows. -/
theorem pass64 (V0 : Valuation τ sig (Elt Ideal)) (T : ℕ → ℕ → ℝ)
    (hT : Rep4 (res_main_v272 V0 : S2048x64x2x64.Idx → EReal) T) :
    Rep4 (res_main_v287 V0 : S2048x32x2x128.Idx → EReal) (fun r => bfly 64 (T r)) := by
  unfold res_main_v287
  exact unflatten4 _ _ (flatten4 _ _ (stage_core _ _ hT _ _ _ _ _) _) _

/-- The pass of stride 128: from the cut `[2048, 32, 2, 128]` of a table `T` to the cut `[2048, 16, 2, 256]` of `bfly 128` of its rows. -/
theorem pass128 (V0 : Valuation τ sig (Elt Ideal)) (T : ℕ → ℕ → ℝ)
    (hT : Rep4 (res_main_v287 V0 : S2048x32x2x128.Idx → EReal) T) :
    Rep4 (res_main_v302 V0 : S2048x16x2x256.Idx → EReal) (fun r => bfly 128 (T r)) := by
  unfold res_main_v302
  exact unflatten4 _ _ (flatten4 _ _ (stage_core _ _ hT _ _ _ _ _) _) _

/-- The pass of stride 256: from the cut `[2048, 16, 2, 256]` of a table `T` to the cut `[2048, 8, 2, 512]` of `bfly 256` of its rows. -/
theorem pass256 (V0 : Valuation τ sig (Elt Ideal)) (T : ℕ → ℕ → ℝ)
    (hT : Rep4 (res_main_v302 V0 : S2048x16x2x256.Idx → EReal) T) :
    Rep4 (res_main_v317 V0 : S2048x8x2x512.Idx → EReal) (fun r => bfly 256 (T r)) := by
  unfold res_main_v317
  exact unflatten4 _ _ (flatten4 _ _ (stage_core _ _ hT _ _ _ _ _) _) _

/-- The pass of stride 512: from the cut `[2048, 8, 2, 512]` of a table `T` to the cut `[2048, 4, 2, 1024]` of `bfly 512` of its rows. -/
theorem pass512 (V0 : Valuation τ sig (Elt Ideal)) (T : ℕ → ℕ → ℝ)
    (hT : Rep4 (res_main_v317 V0 : S2048x8x2x512.Idx → EReal) T) :
    Rep4 (res_main_v332 V0 : S2048x4x2x1024.Idx → EReal) (fun r => bfly 512 (T r)) := by
  unfold res_main_v332
  exact unflatten4 _ _ (flatten4 _ _ (stage_core _ _ hT _ _ _ _ _) _) _

/-- The pass of stride 1024: from the cut `[2048, 4, 2, 1024]` of a table `T` to the cut `[2048, 2, 2, 2048]` of `bfly 1024` of its rows. -/
theorem pass1024 (V0 : Valuation τ sig (Elt Ideal)) (T : ℕ → ℕ → ℝ)
    (hT : Rep4 (res_main_v332 V0 : S2048x4x2x1024.Idx → EReal) T) :
    Rep4 (res_main_v347 V0 : S2048x2x2x2048.Idx → EReal) (fun r => bfly 1024 (T r)) := by
  unfold res_main_v347
  exact unflatten4 _ _ (flatten4 _ _ (stage_core _ _ hT _ _ _ _ _) _) _

/-- The pass of stride 2048: from the cut `[2048, 2, 2, 2048]` of a table `T` to the cut `[2048, 1, 2, 4096]` of `bfly 2048` of its rows. -/
theorem pass2048 (V0 : Valuation τ sig (Elt Ideal)) (T : ℕ → ℕ → ℝ)
    (hT : Rep4 (res_main_v347 V0 : S2048x2x2x2048.Idx → EReal) T) :
    Rep4 (res_main_v362 V0 : S2048x1x2x4096.Idx → EReal) (fun r => bfly 2048 (T r)) := by
  unfold res_main_v362
  exact unflatten4 _ _ (flatten4 _ _ (stage_core _ _ hT _ _ _ _ _) _) _

/-- THE TWELVE PASSES: from the cut `[2048, 4096, 2, 1]` of a table `Z` to the cut `[2048, 1, 2, 4096]` of the first
    twelve passes of the fast transform of its rows (`bflyChain (k + 1) f = bfly (2 ^ k) (bflyChain k f)` by
    definition, so each step is the pass of stride `2 ^ k` on the table of the step before). -/
theorem chain2 (V0 : Valuation τ sig (Elt Ideal)) (Z : ℕ → ℕ → ℝ)
    (hZ : Rep4 (res_main_v182 V0 : S2048x4096x2x1.Idx → EReal) Z) :
    Rep4 (res_main_v362 V0 : S2048x1x2x4096.Idx → EReal) (fun r => bflyChain 12 (Z r)) := by
  have h1 : Rep4 (res_main_v197 V0 : S2048x2048x2x2.Idx → EReal) (fun r => bflyChain 1 (Z r)) :=
    pass1 V0 _ hZ
  have h2 : Rep4 (res_main_v212 V0 : S2048x1024x2x4.Idx → EReal) (fun r => bflyChain 2 (Z r)) :=
    pass2 V0 _ h1
  have h3 : Rep4 (res_main_v227 V0 : S2048x512x2x8.Idx → EReal) (fun r => bflyChain 3 (Z r)) :=
    pass4 V0 _ h2
  have h4 : Rep4 (res_main_v242 V0 : S2048x256x2x16.Idx → EReal) (fun r => bflyChain 4 (Z r)) :=
    pass8 V0 _ h3
  have h5 : Rep4 (res_main_v257 V0 : S2048x128x2x32.Idx → EReal) (fun r => bflyChain 5 (Z r)) :=
    pass16 V0 _ h4
  have h6 : Rep4 (res_main_v272 V0 : S2048x64x2x64.Idx → EReal) (fun r => bflyChain 6 (Z r)) :=
    pass32 V0 _ h5
  have h7 : Rep4 (res_main_v287 V0 : S2048x32x2x128.Idx → EReal) (fun r => bflyChain 7 (Z r)) :=
    pass64 V0 _ h6
  have h8 : Rep4 (res_main_v302 V0 : S2048x16x2x256.Idx → EReal) (fun r => bflyChain 8 (Z r)) :=
    pass128 V0 _ h7
  have h9 : Rep4 (res_main_v317 V0 : S2048x8x2x512.Idx → EReal) (fun r => bflyChain 9 (Z r)) :=
    pass256 V0 _ h8
  have h10 : Rep4 (res_main_v332 V0 : S2048x4x2x1024.Idx → EReal) (fun r => bflyChain 10 (Z r)) :=
    pass512 V0 _ h9
  have h11 : Rep4 (res_main_v347 V0 : S2048x2x2x2048.Idx → EReal) (fun r => bflyChain 11 (Z r)) :=
    pass1024 V0 _ h10
  exact pass2048 V0 _ h11

end Cert.RefChain2

end
-- ==== Proof.RefValue.lean ====
import proofs.«427721_j65506841198938_3_alg».proof.Proof.Gen.ReferenceIdeal.Run
import proofs.«427721_j65506841198938_3_alg».proof.Proof.RefStage
import proofs.«427721_j65506841198938_3_alg».proof.Proof.Spec
import proofs.«427721_j65506841198938_3_alg».proof.Proof.Hadamard
import proofs.«427721_j65506841198938_3_alg».proof.Proof.RefChain1
import proofs.«427721_j65506841198938_3_alg».proof.Proof.RefMid
import proofs.«427721_j65506841198938_3_alg».proof.Proof.RefChain2
import Idealize.ShloMosaic.PureOps.Ideal
import Idealize.ShloMosaic.PureOps.Ideal.Laws
import Idealize.ShloMosaic.Lib.ValueIdx
import Idealize.ShloMosaic.Lib.Pipeline.Value

/-!
# The reference's result array as the specification's function of the arguments

The reference scales the rows by the signs and runs eleven butterfly passes (strides 1, 2, …, 1024): by
`Cert.Hadamard.bflyChain_eq_zero` the row then holds its Sylvester–Hadamard transform of order 2048, the table `Ytab`.
It reads that row at the permuted columns (the tiling has period 2048) and scales by the Gaussian row: the table
`Ztab`.  Thirteen more passes (strides 1, 2, …, 4096) give the transform of order 8192, the table `HGtab`; the last of
them is spelt inside the result term itself, followed by the flattening to `2048 x 8192`.  The tail multiplies by the
scale row and a constant, adds a constant times the phase row, takes the cosine and multiplies by a last constant:
entry by entry that is `Cert.Spec.tail`, the constants being the same words on both sides.
-/

noncomputable section

namespace Cert.RefValue

open Idealize.ShloMosaic Idealize.ShloMosaic.TcCoe Idealize.ShloMosaic.ValueIdx Idealize.ShloMosaic.StableHlo Cert.ReferenceIdeal Cert.ReferenceIdeal.Gen Cert.ReferenceIdeal.Value Cert.Spec Cert.Hadamard Cert.RefStage

/-! ## The cosine tail, read at an index -/

/-- A vector laid as one row and repeated down the rows of a matrix reads, at `(r, o)`, the vector at `o`. -/
theorem bcast_row {α : Type} {R n : ℕ}
    (hb1 : (⟨1, ![n]⟩ : Shape).BroadcastsInDim ⟨2, ![1, n]⟩ (![1] : Fin 1 → Fin 2))
    (hb2 : (⟨2, ![1, n]⟩ : Shape).BroadcastsInDim ⟨2, ![R, n]⟩ (![0, 1] : Fin 2 → Fin 2))
    (w : (⟨1, ![n]⟩ : Shape).Idx → α) (idx : (⟨2, ![R, n]⟩ : Shape).Idx) :
    broadcastInDim (⟨2, ![R, n]⟩ : Shape) (![0, 1] : Fin 2 → Fin 2) hb2
        (broadcastInDim (⟨2, ![1, n]⟩ : Shape) (![1] : Fin 1 → Fin 2) hb1 w) idx
      = w (ix1 (⟨(idx 1).val, (idx 1).isLt⟩ : Fin n)) := by
  have h1 : (idx 1).val < n := (idx 1).isLt
  refine (broadcastInDim_apply _ hb2 _ idx (ix2 (⟨0, Nat.one_pos⟩ : Fin 1) (⟨(idx 1).val, h1⟩ : Fin n)) ?_).trans ?_
  · intro a
    match a with
    | ⟨0, _⟩ => exact (if_pos rfl).symm
    | ⟨1, _⟩ =>
      show (idx 1).val = if n = 1 then 0 else (idx 1).val
      split <;> omega
  · refine broadcastInDim_apply _ hb1 _ _ (ix1 (⟨(idx 1).val, h1⟩ : Fin n)) ?_
    intro a
    match a with
    | ⟨0, _⟩ =>
      show (idx 1).val = if n = 1 then 0 else (idx 1).val
      split <;> omega

/-- The tail of the reference at an index: the transformed entry times its scale and the constant, plus the constant
    times the phase, under the cosine, times the last constant. -/
theorem tail_apply {R n : ℕ}
    (hb1 : (⟨1, ![n]⟩ : Shape).BroadcastsInDim ⟨2, ![1, n]⟩ (![1] : Fin 1 → Fin 2))
    (hb2 : (⟨2, ![1, n]⟩ : Shape).BroadcastsInDim ⟨2, ![R, n]⟩ (![0, 1] : Fin 2 → Fin 2))
    (hb0 : (⟨0, ![]⟩ : Shape).BroadcastsInDim ⟨2, ![R, n]⟩ (![] : Fin 0 → Fin 2))
    (hb0' : (⟨0, ![]⟩ : Shape).BroadcastsInDim ⟨1, ![n]⟩ (![] : Fin 0 → Fin 1))
    (hg : FVec Ideal ⟨2, ![R, n]⟩ .f32) (s u : FVec Ideal ⟨1, ![n]⟩ .f32) (wS wT wN : BitVec 32)
    (idx : (⟨2, ![R, n]⟩ : Shape).Idx) :
    mulf (Host.cos (addf
        (mulf (mulf hg (broadcastInDim (⟨2, ![R, n]⟩ : Shape) (![0, 1] : Fin 2 → Fin 2) hb2
            (broadcastInDim (⟨2, ![1, n]⟩ : Shape) (![1] : Fin 1 → Fin 2) hb1 s)))
          (broadcastInDim (⟨2, ![R, n]⟩ : Shape) (![] : Fin 0 → Fin 2) hb0 (constant (⟨0, ![]⟩ : Shape) .f32 wS)))
        (broadcastInDim (⟨2, ![R, n]⟩ : Shape) (![0, 1] : Fin 2 → Fin 2) hb2
          (broadcastInDim (⟨2, ![1, n]⟩ : Shape) (![1] : Fin 1 → Fin 2) hb1
            (mulf (broadcastInDim (⟨1, ![n]⟩ : Shape) (![] : Fin 0 → Fin 1) hb0' (constant (⟨0, ![]⟩ : Shape) .f32 wT)) u)))))
      (broadcastInDim (⟨2, ![R, n]⟩ : Shape) (![] : Fin 0 → Fin 2) hb0 (constant (⟨0, ![]⟩ : Shape) .f32 wN)) idx
      = Ideal.cos (hg idx * s (ix1 (⟨(idx 1).val, (idx 1).isLt⟩ : Fin n)) * Ideal.ofBits .f32 wS
          + Ideal.ofBits .f32 wT * u (ix1 (⟨(idx 1).val, (idx 1).isLt⟩ : Fin n))) * Ideal.ofBits .f32 wN := by
  have es := bcast_row hb1 hb2 s idx
  have eu := bcast_row hb1 hb2
    (mulf (broadcastInDim (⟨1, ![n]⟩ : Shape) (![] : Fin 0 → Fin 1) hb0' (constant (F := Ideal) (⟨0, ![]⟩ : Shape) .f32 wT)) u) idx
  show Ideal.cos (hg idx * (broadcastInDim (⟨2, ![R, n]⟩ : Shape) (![0, 1] : Fin 2 → Fin 2) hb2
          (broadcastInDim (⟨2, ![1, n]⟩ : Shape) (![1] : Fin 1 → Fin 2) hb1 s) idx) * Ideal.ofBits .f32 wS
        + (broadcastInDim (⟨2, ![R, n]⟩ : Shape) (![0, 1] : Fin 2 → Fin 2) hb2
          (broadcastInDim (⟨2, ![1, n]⟩ : Shape) (![1] : Fin 1 → Fin 2) hb1
            (mulf (broadcastInDim (⟨1, ![n]⟩ : Shape) (![] : Fin 0 → Fin 1) hb0' (constant (F := Ideal) (⟨0, ![]⟩ : Shape) .f32 wT)) u)) idx))
      * Ideal.ofBits .f32 wN = _
  rw [es, eu]
  rfl

/-! ## The chains of passes as the transforms of the specification -/

/-- Eleven passes on a row, read at a column below 2048, are the transform of order 2048. -/
theorem chain11_eq (V : ℕ → ℕ → ℝ) (r j : ℕ) (hj : j < 2048) :
    bfly 1024 (bflyChain 10 (V r)) j = Ytab V r j := by
  have h := bflyChain_eq_zero 11 (V r) j (by norm_num; exact hj)
  have e : bfly 1024 (bflyChain 10 (V r)) = bflyChain 11 (V r) := rfl
  rw [e, h]
  unfold Ytab
  norm_num

/-- The table between the two transforms: the first transform's row read at the permuted column, scaled. -/
theorem mid_table (V : ℕ → ℕ → ℝ) (p : ℕ → ℕ) (g : ℕ → ℝ) :
    (fun r q => bfly 1024 (bflyChain 10 (V r)) (p q % 2048) * g q) = Ztab (Ytab V) p g := by
  funext r q
  unfold Ztab
  rw [chain11_eq V r (p q % 2048) (Nat.mod_lt _ (by norm_num))]

/-- Thirteen passes on a row, read at a column below 8192, are the transform of order 8192. -/
theorem chain13_eq (Z : ℕ → ℕ → ℝ) (r o : ℕ) (ho : o < 8192) :
    bfly 4096 (bflyChain 12 (Z r)) o = HGtab Z r o := by
  have h := bflyChain_eq_zero 13 (Z r) o (by norm_num; exact ho)
  have e : bfly 4096 (bflyChain 12 (Z r)) = bflyChain 13 (Z r) := rfl
  rw [e, h]
  unfold HGtab
  norm_num

/-! ## The last pass and the result term -/

/-- The thirteenth pass of the second transform, flattened to `2048 x 8192`, as the result term spells it. -/
def hgTerm (V0 : Valuation τ sig (Elt Ideal)) : S2048x8192.Idx → EReal :=
  shapeCast _ (concatenate S2048x1x2x4096 2 [⟨S2048x1x1x4096, (broadcastInDim S2048x1x1x4096 ![0, 1, 3] bcast_S2048x1x4096_S2048x1x1x4096_0_1_3 (addf (F := Ideal) (φ := .f32) (shapeCast _ (extractStridedSlice S2048x1x1x4096 ![0, 0, 0, 0] (res_main_v362 V0) slices_S2048x1x2x4096_S2048x1x1x4096_0_0_0_0) shapeCasts_S2048x1x1x4096_S2048x1x4096) (shapeCast _ (extractStridedSlice S2048x1x1x4096 ![0, 0, 1, 0] (res_main_v362 V0) slices_S2048x1x2x4096_S2048x1x1x4096_0_0_1_0) shapeCasts_S2048x1x1x4096_S2048x1x4096)))⟩, ⟨S2048x1x1x4096, (broadcastInDim S2048x1x1x4096 ![0, 1, 3] bcast_S2048x1x4096_S2048x1x1x4096_0_1_3 (subf (F := Ideal) (φ := .f32) (shapeCast _ (extractStridedSlice S2048x1x1x4096 ![0, 0, 0, 0] (res_main_v362 V0) slices_S2048x1x2x4096_S2048x1x1x4096_0_0_0_0) shapeCasts_S2048x1x1x4096_S2048x1x4096) (shapeCast _ (extractStridedSlice S2048x1x1x4096 ![0, 0, 1, 0] (res_main_v362 V0) slices_S2048x1x2x4096_S2048x1x1x4096_0_0_1_0) shapeCasts_S2048x1x1x4096_S2048x1x4096)))⟩] concatenates_S2048x1x1x4096_S2048x1x1x4096_S2048x1x2x4096_d2) shapeCasts_S2048x1x2x4096_S2048x8192

/-- After twelve passes on a real table, that term is the transform of order 8192 of every row. -/
theorem hgTerm_rep (V0 : Valuation τ sig (Elt Ideal)) (Z : ℕ → ℕ → ℝ)
    (h12 : Rep4 (res_main_v362 V0 : S2048x1x2x4096.Idx → EReal) (fun r => bflyChain 12 (Z r))) :
    Rep2 (hgTerm V0) (HGtab Z) := by
  have H : Rep2 (hgTerm V0) (fun r => bfly 4096 (bflyChain 12 (Z r))) :=
    flatten4 _ _ (stage_core _ _ h12 _ _ _ _ _) _
  intro idx
  refine (H idx).trans ?_
  exact congrArg (fun t : ℝ => (t : EReal)) (chain13_eq Z (idx 0).val (idx 1).val (idx2_lt1 idx))

/-- The result array, from the table of twelve passes of the second transform: the cosine feature of the transform of
    order 8192. -/
theorem value_of_chain12 (V0 : Valuation τ sig (Elt Ideal)) (Z : ℕ → ℕ → ℝ)
    (h12 : Rep4 (res_main_v362 V0 : S2048x1x2x4096.Idx → EReal) (fun r => bflyChain 12 (Z r))) :
    (val7 V0 (Proc.devRef .tc main_v389) : S2048x8192.Idx → EReal)
      = fun idx => tail ((HGtab Z (idx 0).val (idx 1).val : ℝ) : EReal)
          ((V0 (Proc.devRef .tc main_arg3) : S8192.Idx → EReal) (ix1 (idx 1)))
          ((V0 (Proc.devRef .tc main_arg5) : S8192.Idx → EReal) (ix1 (idx 1))) := by
  rw [val7_main_v389]
  funext idx
  refine (tail_apply (R := 2048) (n := 8192) bcast_S8192_S1x8192_1 bcast_S1x8192_S2048x8192_0_1 bcast_S_S2048x8192
    bcast_S_S8192 (hgTerm V0) (V0 (Proc.devRef .tc main_arg3)) (V0 (Proc.devRef .tc main_arg5))
    0x3C3504F3#32 0x40C90FDB#32 0x3C800000#32 idx).trans ?_
  rw [hgTerm_rep V0 Z h12 idx]
  rfl

/-! ## The whole reference -/

/-- The reference's result array is the specification's function of the real tables of `x`, `B`, `G`, the indices
    `P` and the arrays `S`, `U`. -/
theorem ref_value (V0 : Valuation τ sig (Elt Ideal)) (X : ℕ → ℕ → ℝ) (b g : ℕ → ℝ)
    (hX : Rep2 (shapeCast S2048x2048 (V0 (Proc.devRef .tc main_arg0)) shapeCasts_S2x512x2x2048_S2048x2048 : S2048x2048.Idx → EReal) X)
    (hb : Rep1 (V0 (Proc.devRef .tc main_arg1) : S2048.Idx → EReal) b)
    (hg : Rep1 (V0 (Proc.devRef .tc main_arg2) : S8192.Idx → EReal) g)
    (hP : ∀ idx : S8192.Idx, 0 ≤ ((V0 (Proc.devRef .tc main_arg4) : S8192.Idx → BitVec 32) idx).toInt
      ∧ ((V0 (Proc.devRef .tc main_arg4) : S8192.Idx → BitVec 32) idx).toInt < 8192) :
    (val7 V0 (Proc.devRef .tc main_v389) : S2048x8192.Idx → EReal)
      = OUT X b g (ptab (V0 (Proc.devRef .tc main_arg4))) (V0 (Proc.devRef .tc main_arg3)) (V0 (Proc.devRef .tc main_arg5)) := by
  have hW := Cert.RefChain1.chain1 V0 X b hX hb
  have hM := Cert.RefMid.mid V0 _ g hW hg hP
  have hZ : Rep4 (res_main_v182 V0 : S2048x4096x2x1.Idx → EReal)
      (Ztab (Ytab (Vtab X b)) (ptab (V0 (Proc.devRef .tc main_arg4))) g) := fun idx =>
    (hM idx).trans (congrArg (fun t : ℝ => (t : EReal))
      (congrFun (congrFun (mid_table (Vtab X b) (ptab (V0 (Proc.devRef .tc main_arg4))) g) _) _))
  exact value_of_chain12 V0 _ (Cert.RefChain2.chain2 V0 _ hZ)

end Cert.RefValue

end
-- ==== Proof.lean ====
/-
  The proof of `Cert.Claim`: a kernel computing random cosine features through two Sylvester–Hadamard transforms
  (of orders 2048 and 8192), against a reference that computes the same features with fast Walsh–Hadamard
  butterflies.

  The kernel contracts a row against the Hadamard matrix in two steps, using `H_(a·b) = H_a ⊗ H_b`: the low bits of
  the index against a 128 x 128 sign matrix, the high bits against a 16 x 16 (then 64 x 64) one, each sign built as
  `1 - 2 · parity (i &&& j)`; every product is taken three times, with the operand, with `operand - operand` and with
  the difference of that with itself, which over the reals adds nothing because the operand is finite.  The
  reference runs `log₂ n` butterfly passes.  Both are the matrix product with `hsign k i j = (-1)^|i ∧ j|`
  (Proof/Hadamard.lean), so both programs compute `Cert.Spec.OUT` of the argument arrays (Proof/Spec.lean): the
  kernel by Proof/KernBody0.lean, KernBody1.lean (the bodies), KernRegions.lean (blocks to arrays), KernValue.lean
  (the host operations between the regions) over the run of Proof/KernRun.lean; the reference by Proof/RefStage.lean
  (one pass) and RefValue.lean (the chain).  Between the transforms the reference reads the four-fold tiling of the
  first transform at the indices `P`, the kernel reads the transform itself at `P mod 2048`: equal for indices inside
  the tiled row, `0 ≤ P < 8192`, which the precondition states beside the finiteness of the float arguments
  (Proof/Finite.lean reads it back).
-/
import proofs.«427721_j65506841198938_3_alg».proof.Defs
import proofs.«427721_j65506841198938_3_alg».proof.Proof.Gen.Kernel
import proofs.«427721_j65506841198938_3_alg».proof.Proof.Gen.Kernel.Skeleton
import proofs.«427721_j65506841198938_3_alg».proof.Proof.Gen.Kernel.Launch
import proofs.«427721_j65506841198938_3_alg».proof.Proof.Gen.Kernel.Points
import proofs.«427721_j65506841198938_3_alg».proof.Proof.Gen.Kernel.Frame
import proofs.«427721_j65506841198938_3_alg».proof.Proof.Gen.KernelIdeal
import proofs.«427721_j65506841198938_3_alg».proof.Proof.Gen.KernelIdeal.Skeleton
import proofs.«427721_j65506841198938_3_alg».proof.Proof.Gen.KernelIdeal.Launch
import proofs.«427721_j65506841198938_3_alg».proof.Proof.Gen.KernelIdeal.Points
import proofs.«427721_j65506841198938_3_alg».proof.Proof.Gen.KernelIdeal.Frame
import proofs.«427721_j65506841198938_3_alg».proof.Proof.Gen.ReferenceIdeal
import proofs.«427721_j65506841198938_3_alg».proof.Proof.Gen.Pre_finite_inputs
import proofs.«427721_j65506841198938_3_alg».proof.Proof.Gen.ReferenceIdeal.Run
import proofs.«427721_j65506841198938_3_alg».proof.Proof.Finite
import proofs.«427721_j65506841198938_3_alg».proof.Proof.KernRun
import proofs.«427721_j65506841198938_3_alg».proof.Proof.KernValue
import proofs.«427721_j65506841198938_3_alg».proof.Proof.RefValue
import Idealize.ShloMosaic.Adequacy
import Idealize.ShloMosaic.Init

noncomputable section

namespace Cert.Proof

open Idealize.ShloMosaic Idealize.ShloMosaic.TcCoe Idealize.ShloMosaic.StableHlo Idealize.SL.Sem Cert.Spec

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The eight rewrites of the ideal pass: a value narrowed to bf16 and widened back is the value itself over the
    extended reals, and the rounding through bf16 on words. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16⟩

/-- Both idealized programs end with the result array at `OUT` of the real tables of `x`, `B`, `G`, the indices `P` and
    the arrays `S`, `U`. -/
theorem algebraic : Cert.algebraic_KernelIdeal_ReferenceIdeal := by
  intro m ρ m' ρ' hpre hagree
  have hfin := fun c => Cert.Finite.of_pre _ _ _ _ _ _ (hpre c)
  refine ⟨fun c => OUT
      (tab2 (shapeCast Cert.KernelIdeal.S2048x2048 (m ((c.tc : Thread Cert.KernelIdeal.nD Cert.KernelIdeal.τ).loc Cert.KernelIdeal.main_arg0))
        Cert.KernelIdeal.Gen.shapeCasts_S2x512x2x2048_S2048x2048))
      (tab1 (m ((c.tc : Thread Cert.KernelIdeal.nD Cert.KernelIdeal.τ).loc Cert.KernelIdeal.main_arg1)))
      (tab1 (m ((c.tc : Thread Cert.KernelIdeal.nD Cert.KernelIdeal.τ).loc Cert.KernelIdeal.main_arg2)))
      (ptab (m ((c.tc : Thread Cert.KernelIdeal.nD Cert.KernelIdeal.τ).loc Cert.KernelIdeal.main_arg4)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5)), ?_, ?_⟩
  · refine (θ_run (Cert.KernelIdeal.defs (F := Ideal)) _ _).mono (fun r h c => ⟨(h c).1.trans ?_, (h c).2⟩)
      (Cert.KernelIdeal.GenRun.run_value (F := Ideal) m ρ)
    exact Cert.KernValue.kernel_value m ρ c _ _ _
      (rep2_tab2 _ (fun idx => (hfin c).1 _)) (rep1_tab1 _ (hfin c).2.1) (rep1_tab1 _ (hfin c).2.2.1) (hfin c).2.2.2
  · refine (θ_run (Cert.ReferenceIdeal.defs (F := Ideal)) _ _).mono (fun r h c => ⟨(h c).1.trans ?_, (h c).2⟩)
      (Cert.ReferenceIdeal.Value.run (F := Ideal) m' ρ')
    obtain ⟨e0, e1, e2, e3, e4, e5⟩ := hagree c
    refine (Cert.ReferenceIdeal.Value.val7_main_v389 (launchContents m' c)).symm.trans ?_
    have key := Cert.RefValue.ref_value (launchContents m' c)
      (tab2 (shapeCast Cert.KernelIdeal.S2048x2048 (m ((c.tc : Thread Cert.KernelIdeal.nD Cert.KernelIdeal.τ).loc Cert.KernelIdeal.main_arg0))
        Cert.KernelIdeal.Gen.shapeCasts_S2x512x2x2048_S2048x2048))
      (tab1 (m ((c.tc : Thread Cert.KernelIdeal.nD Cert.KernelIdeal.τ).loc Cert.KernelIdeal.main_arg1)))
      (tab1 (m ((c.tc : Thread Cert.KernelIdeal.nD Cert.KernelIdeal.τ).loc Cert.KernelIdeal.main_arg2)))
      (by
        show Rep2 (shapeCast _ (m' ((c.tc : Thread Cert.ReferenceIdeal.nD Cert.ReferenceIdeal.τ).loc Cert.ReferenceIdeal.main_arg0)) _) _
        rw [e0]
        exact rep2_tab2 _ (fun idx => (hfin c).1 _))
      (by
        show Rep1 (m' ((c.tc : Thread Cert.ReferenceIdeal.nD Cert.ReferenceIdeal.τ).loc Cert.ReferenceIdeal.main_arg1)) _
        rw [e1]
        exact rep1_tab1 _ (hfin c).2.1)
      (by
        show Rep1 (m' ((c.tc : Thread Cert.ReferenceIdeal.nD Cert.ReferenceIdeal.τ).loc Cert.ReferenceIdeal.main_arg2)) _
        rw [e2]
        exact rep1_tab1 _ (hfin c).2.2.1)
      (fun idx => by
        have h := (hfin c).2.2.2 idx
        rw [← e4] at h
        exact h)
    refine key.trans ?_
    show OUT _ _ _ (ptab (m' ((c.tc : Thread Cert.ReferenceIdeal.nD Cert.ReferenceIdeal.τ).loc Cert.ReferenceIdeal.main_arg4)))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg5)) = _
    rw [e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
